-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temperature" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192 : Shape := ⟨1, ![8192]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : IVec S8192 32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  main_v3
-- ==== Kernel.lean ====
abbrev S8192x1024 : Shape := ⟨2, ![8192, 1024]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S1024x1024 : Shape := ⟨2, ![1024, 1024]⟩
abbrev S1x1024 : Shape := ⟨2, ![1, 1024]⟩
abbrev S1024x1 : Shape := ⟨2, ![1024, 1]⟩
abbrev S1024 : Shape := ⟨1, ![1024]⟩

abbrev nBuf : Space → Nat
  | .hbm => 26
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S8192x1024, .bf16⟩
  | .hbm, ⟨13, _⟩ => ⟨S1x8192, .i32⟩
  | .hbm, ⟨14, _⟩ => ⟨S8192x1, .i32⟩
  | .hbm, ⟨15, _⟩ => ⟨S1x8192, .f32⟩
  | .hbm, ⟨16, _⟩ => ⟨S1x8192, .f32⟩
  | .hbm, ⟨17, _⟩ => ⟨S8192, .f32⟩
  | .hbm, ⟨18, _⟩ => ⟨S8192, .f32⟩
  | .hbm, ⟨19, _⟩ => ⟨S8192, .f32⟩
  | .hbm, ⟨20, _⟩ => ⟨S8192, .f32⟩
  | .hbm, ⟨21, _⟩ => ⟨S8192, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .i32⟩
  | .local _ .vmem, ⟨5, _⟩ => ⟨S1x1024, .i32⟩
  | .local _ .vmem, ⟨6, _⟩ => ⟨S1024x1, .i32⟩
  | .local _ .vmem, ⟨7, _⟩ => ⟨S1024x1, .i32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v46 : BitVec 1 := Scalar.cmpi .eq arg1 c7_i32
  let v47 : BitVec 32 := Scalar.extui v46
  let c0_i32_21 : BitVec 32 := 0#32
  let v48 : BitVec 1 := Scalar.cmpi .ne v47 c0_i32_21
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  bitsLt_bf16_f32 : FTy.bits .bf16 < FTy.bits .f32
  shapeCasts_S8192_S1x8192 : S8192.ShapeCasts S1x8192
  shapeCasts_S8192_S8192x1 : S8192.ShapeCasts S8192x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  broadcasts_S1x1024_S1024x1024 : S1x1024.Broadcasts S1024x1024
  iota_S1024x1_d0_w32 : S1024x1.Iotas .tc 32 [0]
  iota_S1x1024_d1_w32 : S1x1024.Iotas .tc 32 [1]
  reduces_S1024x1024_S1024 : S1024x1024.Reduces [0] S1024
  shapeCasts_S1024_S1x1024 : S1024.ShapeCasts S1x1024
  shapeCasts_S1x8192_S8192 : S1x8192.ShapeCasts S8192
  reducesTo_S8192_S_d0 : S8192.ReducesTo [0] S_
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .bf16 = 32 ∨ (Rect.block (s := S8192x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .i32 = 32 ∨ (Rect.block (s := S1x8192) S1x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .i32 = 32 ∨ (Rect.block (s := S8192x1) S1024x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x8192.size a
  hwx0_4 : ∀ i : grid0.Coords, EltTy.bits .f32 = 32 ∨ (Rect.block (s := S1x8192) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x8192.size a
  hwx0_5 : ∀ i : grid0.Coords, EltTy.bits .f32 = 32 ∨ (Rect.block (s := S1x8192) S1x1024.size (cc0_transform_5 i) (hinb0_5 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v5) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8_0) S1x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_1) S1x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x1024 : Shape := ⟨2, ![8192, 1024]⟩
abbrev S8192 : Shape := ⟨1, ![8192]⟩
abbrev S_ : Shape := ⟨0, ![]⟩
abbrev S8192x1 : Shape := ⟨2, ![8192, 1]⟩
abbrev S1024x8192 : Shape := ⟨2, ![1024, 8192]⟩
abbrev S8192x8192 : Shape := ⟨2, ![8192, 8192]⟩
abbrev S1x8192 : Shape := ⟨2, ![1, 8192]⟩

abbrev nBuf : Space → Nat
  | .hbm => 47
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S1024x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x1, .i32⟩
  | .hbm, ⟨18, _⟩ => ⟨S1x8192, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S8192x8192, .f32⟩
  | .hbm, ⟨23, _⟩ => ⟨S8192x8192, .i32⟩
  | .hbm, ⟨24, _⟩ => ⟨S8192x8192, .i32⟩
  | .hbm, ⟨25, _⟩ => ⟨S_, .i32⟩
  | .hbm, ⟨26, _⟩ => ⟨S8192x8192, .i32⟩
  | .hbm, ⟨27, _⟩ => ⟨S8192x8192, .i32⟩
  | .hbm, ⟨28, _⟩ => ⟨S8192x8192, .i1⟩
  | .hbm, ⟨29, _⟩ => ⟨S8192x8192, .f32⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192, .f32⟩
  | .hbm, ⟨37, _⟩ => ⟨S8192x8192, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S8192, .f32⟩
  | .hbm, ⟨42, _⟩ => ⟨S8192, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  transposes_S8192x1024_S1024x8192_1_0 : S8192x1024.Transposes [1, 0] S1024x8192
  bcast_S_S8192x8192 : S_.BroadcastsInDim S8192x8192 (![] : Fin 0 → Fin S8192x8192.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  reducesTo_S8192_S_d0 : S8192.ReducesTo [0] S_
  dot_S8192x1024_S1024x8192_S8192x8192_1_0_0_1_n_n_wf : DotDims.WF S8192x1024 S1024x8192 S8192x8192 [1] [0] [0] [1] [] []

variable [Facts₀]

def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf

class Facts : Prop extends Facts₀ where

variable [Facts]
-- ==== Proof.K.Acc.lean ====
/-
  The contrastive-sums kernel, what its pipeline carries from grid point to grid point.

  The grid is 8 × 8, point t = (qi, ki) with ki = t mod 8 the inner (key-tile) axis. The body keeps two row vectors
  of 1024 entries in scratch memory: the running sum over key rows of exp(sim · 1/T) for the 1024 queries of tile qi,
  and the same sum restricted to key rows with the query's label other than the query itself. At ki = 0 both are
  reset to zero before the point's contribution is added; at ki = 7 they are copied to the two output windows.
  This module names, for any float instance: the buffer contents when the region is entered (`V`), a window's
  block at a point read off them (`iblk`), the two accumulators after each point as a recursion over the points
  (`accAt`), the region invariant that holds them between points (`PhiS`) and the pipeline's proof data (`dats`).
-/
import proofs.«421592_j76845554860147_3_alg».proof.Proof.Gen.Kernel.Launch
import proofs.«421592_j76845554860147_3_alg».proof.Proof.Gen.Kernel.Skeleton
import proofs.«421592_j76845554860147_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffer contents when the region is entered: the launch contents after the row-norm function's five
    operations and the eight host operations that follow it. -/
abbrev V0 (c : Dev nD) : Valuation τ sig (Elt F) := StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The query tile (window 0), the key tile (window 1), the query labels (window 2) and the key labels (window 3) at a point,
    at their literal types. -/
abbrev qblk (c : Dev nD) (t : Fin cfg0.N) : Vec F S1024x1024 .bf16 := iblk m c 0 t
abbrev kblk (c : Dev nD) (t : Fin cfg0.N) : Vec F S1024x1024 .bf16 := iblk m c 1 t
abbrev lqblk (c : Dev nD) (t : Fin cfg0.N) : Vec F S1x1024 .i32 := iblk m c 2 t
abbrev lkblk (c : Dev nD) (t : Fin cfg0.N) : Vec F S1024x1 .i32 := iblk m c 3 t

/-- One point's step of the two accumulators from what they held when the point's contribution is added
    (`se`: all key rows; `ps`: the kept ones). -/
def accStep (c : Dev nD) (t : Fin cfg0.N) (a : Vec F S1x1024 .f32 × Vec F S1x1024 .f32) : Vec F S1x1024 .f32 × Vec F S1x1024 .f32 :=
  (k0_pay6 (qblk m c t) (kblk m c t) a.1,
   k0_pay1 (k0_pay4 (F := F) (grid0.coords t) (lqblk m c t) (lkblk m c t)) (k0_pay5 (qblk m c t) (kblk m c t)) a.2)

/-- THE ACCUMULATION: the two scratch accumulators after the body at position `n`: at the first key tile of a query
    tile (`n` ≡ 0 mod 8) the step from the zero vectors, otherwise the step from what position `n - 1` left. -/
def accAt (c : Dev nD) : (n : ℕ) → n < cfg0.N → Vec F S1x1024 .f32 × Vec F S1x1024 .f32
  | 0, hn => accStep m c ⟨0, hn⟩ (k0_pay2 (F := F), k0_pay3 (F := F))
  | n + 1, hn =>
    if (n + 1) % 8 = 0 then accStep m c ⟨n + 1, hn⟩ (k0_pay2 (F := F), k0_pay3 (F := F))
    else accStep m c ⟨n + 1, hn⟩ (accAt c n (Nat.lt_of_succ_lt hn))

/-- The two scratch operands as memrefs. -/
abbrev scM0 : Memref sig .tc .vmem S1x1024 .f32 := Memref.whole cc0_scratch0
abbrev scM1 : Memref sig .tc .vmem S1x1024 .f32 := Memref.whole cc0_scratch1

/-- The region invariant before position `n`: before the first point the pipeline library's own `ΦA` (every scratch at anything, the
    generator register at some state); afterwards the two scratch accumulators at what the point before left. -/
def PhiS (c : Dev nD) : (n : ℕ) → n ≤ cfg0.N → sProp 𝕄
  | 0, _ => Pipeline.ΦA spec0 c
  | n + 1, hn => iprop(iprop(owns (c : Thread nD τ) scM0 fullShare ((accAt m c n hn).1) ∗ owns (c : Thread nD τ) scM1 fullShare ((accAt m c n hn).2)) ∗ (∃ r, prngReg c r))

/-- The pipeline's proof data on core `c`: the arrays as the region finds them; after the body at point `t` each input's
    buffer at its block and the two outputs' at the accumulators (consulted only where they are stored and written back,
    the last key tile); the invariant `PhiS`; nothing owed; the embedding array, which the query window and the key window
    both read, held half by each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (accAt m c t.val t.isLt).1
    | ⟨5, _⟩ => (accAt m c t.val t.isLt).2
  Φ t := PhiS m c t.val (Nat.le_of_lt_succ t.isLt)
  q w := match w with
    | ⟨0, _⟩ => fullShare.left
    | ⟨1, _⟩ => fullShare.right
    | _ => fullShare
  owed _ := 0

end Cert.Kernel.Hand

end
-- ==== Proof.K.Launch.lean ====
/-
  The launch of the contrastive-sums program: @main as four segments — the row-norm function's operations, the host
  operations up to the kernel region, the region, the host operations after it — composed by the library's theorem for
  a program that runs as a list of segments.

  The one point that is this program's own: the query window and the key window both read the normalised-embedding
  array. The region is therefore entered with that array's points-to split in two halves, one per window; both windows
  only read, so both halves come back at the entry contents and are joined again at the exit. Every other array has one
  window and is held whole. The two scratch accumulators and the generator register enter the region's invariant; every
  other buffer bypasses the region untouched.

  Everything here is generic in the float instance, and takes the body obligation and the invariant's two ends as
  hypotheses: `run_main_of`.
-/
import proofs.«421592_j76845554860147_3_alg».proof.Proof.K.Acc
import Idealize.ShloMosaic.Lib.Pipeline.Regions

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers after the region -/

/-- A window whose array no other window stages reads its own entry of `withArrays`. -/
theorem withArrays_arr_of {gr W : Nat} (win : Fin W → Pipeline.WinSpec sig gr) (c : Dev nD) (Vv : Valuation τ sig (Elt F))
    (A : (w : Fin W) → Buf (Elt F) ((win w).arr.view.loc (c : Thread nD τ))) (w : Fin W)
    (huniq : ∀ w', Pipeline.arrRef win w' = Pipeline.arrRef win w → w' = w) :
    Pipeline.withArrays win c Vv A (Proc.devRef .tc (Pipeline.arrRef win w)) = A w := by
  unfold Pipeline.withArrays
  have h : ∃ w', Proc.devRef .tc (Pipeline.arrRef win w') = Proc.devRef (τ := τ) .tc (Pipeline.arrRef win w) := ⟨w, rfl⟩
  rw [dif_pos h]
  suffices ∀ (w' : Fin W) (e : Proc.devRef .tc (Pipeline.arrRef win w') = Proc.devRef (τ := τ) .tc (Pipeline.arrRef win w)),
      cast (congrArg (fun b' : DevRef τ sig => b'.ty.Contents (Elt F)) e) (A w') = A w from this _ h.choose_spec
  intro w' e
  obtain rfl : w' = w := huniq w' (Proc.devRef_injective _ e)
  rfl

/-- An array several windows stage reads the contents they all agree on. -/
theorem withArrays_arr_agree {gr W : Nat} (win : Fin W → Pipeline.WinSpec sig gr) (c : Dev nD) (Vv : Valuation τ sig (Elt F))
    (A : (w : Fin W) → Buf (Elt F) ((win w).arr.view.loc (c : Thread nD τ))) (b : Ref sig .tc)
    (X : Buf (Elt F) ((c : Thread nD τ).loc b)) (hb : ∃ w, Pipeline.arrRef win w = b)
    (hX : ∀ w (e : Pipeline.arrRef win w = b), cast (congrArg (fun r : Ref sig .tc => Buf (Elt F) ((c : Thread nD τ).loc r)) e) (A w) = X) :
    Pipeline.withArrays win c Vv A (Proc.devRef .tc b) = X := by
  unfold Pipeline.withArrays
  have h : ∃ w', Proc.devRef .tc (Pipeline.arrRef win w') = Proc.devRef (τ := τ) .tc b := by
    obtain ⟨w, rfl⟩ := hb; exact ⟨w, rfl⟩
  rw [dif_pos h]
  suffices ∀ (w' : Fin W) (e : Proc.devRef .tc (Pipeline.arrRef win w') = Proc.devRef (τ := τ) .tc b),
      cast (congrArg (fun b' : DevRef τ sig => b'.ty.Contents (Elt F)) e) (A w') = X from this _ h.choose_spec
  intro w' e
  have e' : Pipeline.arrRef win w' = b := Proc.devRef_injective _ e
  subst e'
  exact hX w' rfl

/-- Core `c`'s buffers when the region is left: the windows' arrays at what the pipeline wrote back, every other buffer
    as the region found it. -/
abbrev Wx (c : Dev nD) : Valuation τ sig (Elt F) :=
  Pipeline.withArrays spec0 c (V0 m c) fun w => (dats m 0 c).arrAt w cfg0.N

/-- What the result buffer holds at the end: the nine closing operations applied to the buffers the region left. -/
abbrev finalV15 (c : Dev nD) : Buf (Elt F) ((c : Thread nD τ).loc main_v15) :=
  Pipeline.afterTail₀ cfgs (dats m) 0 (V0 m) [hostOps1] c main_v15

/-! ## The arrays, listed -/

/-- The distinct buffers behind the six windows, one by one: the embedding array once. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v5) ↦{fullShare} W main_v5) ∗ (((c : Thread nD τ).loc main_v6) ↦{fullShare} W main_v6)
          ∗ (((c : Thread nD τ).loc main_v7) ↦{fullShare} W main_v7) ∗ (((c : Thread nD τ).loc main_v8_0) ↦{fullShare} W main_v8_0)
          ∗ (((c : Thread nD τ).loc main_v8_1) ↦{fullShare} W main_v8_1)) := by
  unfold Pipeline.arrBufs
  exact BI.bigSep_eq_bigSepL_of_eq [main_v5, main_v6, main_v7, main_v8_0, main_v8_1] (by decide) (by decide) _

/-- The pipeline's six arrays at contents `G`, window by window, each at the share the proof data holds it at. -/
theorem arrays_eq6 (c : Dev nD) (G : (w : Fin cfg0.W) → Buf (Elt F) ((cfg0.win w).arr.view.loc (c : Thread nD τ))) :
    ((dats m 0 c).arrays G : sProp 𝕄)
      = iprop((((c : Thread nD τ).loc main_v5) ↦{fullShare.left} G 0) ∗ (((c : Thread nD τ).loc main_v5) ↦{fullShare.right} G 1)
          ∗ (((c : Thread nD τ).loc main_v6) ↦{fullShare} G 2) ∗ (((c : Thread nD τ).loc main_v7) ↦{fullShare} G 3)
          ∗ (((c : Thread nD τ).loc main_v8_0) ↦{fullShare} G 4) ∗ (((c : Thread nD τ).loc main_v8_1) ↦{fullShare} G 5)) := by
  unfold Dat.arrays
  rw [bigSep_W0]
  have e : ∀ w : Fin 6, ((spec0 w).arr).view.set = Finset.univ := fun w => (arr_whole0 w).set_eq_univ
  rw [show (cfg0.win 0).arr.view.set = Finset.univ from e 0,
    show (cfg0.win 2).arr.view.set = Finset.univ from e 2, show (cfg0.win 3).arr.view.set = Finset.univ from e 3,
    show (cfg0.win 4).arr.view.set = Finset.univ from e 4, show (cfg0.win 5).arr.view.set = Finset.univ from e 5]
  rfl

/-- An input window's array is never written: at every position it holds the entry contents. -/
theorem arrAt_in0 (c : Dev nD) (n : ℕ) : (dats m 0 c).arrAt 0 n = V m c main_v5 := (dats m 0 c).arrAt_in 0 rfl n
theorem arrAt_in1 (c : Dev nD) (n : ℕ) : (dats m 0 c).arrAt 1 n = V m c main_v5 := (dats m 0 c).arrAt_in 1 rfl n
theorem arrAt_in2 (c : Dev nD) (n : ℕ) : (dats m 0 c).arrAt 2 n = V m c main_v6 := (dats m 0 c).arrAt_in 2 rfl n
theorem arrAt_in3 (c : Dev nD) (n : ℕ) : (dats m 0 c).arrAt 3 n = V m c main_v7 := (dats m 0 c).arrAt_in 3 rfl n

/-- The exit valuation at the arrays: the inputs as found, the two results at what the pipeline wrote back. -/
theorem Wx_v5 (c : Dev nD) : Wx m c (Proc.devRef .tc main_v5) = V m c main_v5 :=
  withArrays_arr_agree spec0 c (V0 m c) _ main_v5 (V m c main_v5) ⟨0, rfl⟩ (by
    intro w; fin_cases w <;> intro e
    · exact arrAt_in0 m c _
    · exact arrAt_in1 m c _
    all_goals exact absurd e (by decide))
theorem Wx_v6 (c : Dev nD) : Wx m c (Proc.devRef .tc main_v6) = V m c main_v6 :=
  (withArrays_arr_of spec0 c (V0 m c) _ 2 (by decide)).trans (arrAt_in2 m c _)
theorem Wx_v7 (c : Dev nD) : Wx m c (Proc.devRef .tc main_v7) = V m c main_v7 :=
  (withArrays_arr_of spec0 c (V0 m c) _ 3 (by decide)).trans (arrAt_in3 m c _)
theorem Wx_v8_0 (c : Dev nD) : Wx m c (Proc.devRef .tc main_v8_0) = (dats m 0 c).arrAt 4 cfg0.N :=
  withArrays_arr_of spec0 c (V0 m c) _ 4 (by decide)
theorem Wx_v8_1 (c : Dev nD) : Wx m c (Proc.devRef .tc main_v8_1) = (dats m 0 c).arrAt 5 cfg0.N :=
  withArrays_arr_of spec0 c (V0 m c) _ 5 (by decide)
/-- Off the arrays the exit valuation is the entry one. -/
theorem Wx_rest (c : Dev nD) (b : Ref sig .tc) (hb : ∀ w, Pipeline.arrRef spec0 w ≠ b) :
    Wx m c (Proc.devRef .tc b) = V m c b :=
  Pipeline.withArrays_of_ne spec0 c (V0 m c) _ b hb

/-! ## The segments -/

abbrev EP : Emb (UR sig nD τ) (MT nD τ sig Unit (Elt F) ℕ (UR sig nD τ) ℕ) := emb₁
abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev 𝒱₀ : Variants := Variants.none

/-- Core `c`'s buffers at launch, as a valuation. -/
abbrev Vl (c : Dev nD) : Valuation τ sig (Elt F) := fun b => m (c, b)

/-- What rides beside the buffers through the host operations: what the core owes (nothing) and the generator register. -/
abbrev R (c : Dev nD) : sProp 𝕄 :=
  iprop((∃ W, owes (c : Thread nD τ) (0 : CellTallies nD τ sig Unit) W) ∗ ∃ r, prngReg c r)

theorem hostOps0_fresh : ∀ op ∈ (hostOps0 : List (HloOp τ sig (Elt F))), op.fresh = ∅ := by
  intro _ h; (repeat (cases h with | head => rfl | tail _ h => ?_)); exact nomatch h
theorem hostOps0_1_fresh : ∀ op ∈ (hostOps0_1 : List (HloOp τ sig (Elt F))), op.fresh = ∅ := by
  intro _ h; (repeat (cases h with | head => rfl | tail _ h => ?_)); exact nomatch h
theorem hostOps1_fresh : ∀ op ∈ (hostOps1 : List (HloOp τ sig (Elt F))), op.fresh = ∅ := by
  intro _ h; (repeat (cases h with | head => rfl | tail _ h => ?_)); exact nomatch h

/-- The row-norm function's five operations, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) hostOps0_fresh (Vl m) R
/-- The eight host operations up to the region. -/
def seg1 : Pipeline.HostSeg (Name := ℕ) (U := UR sig nD τ) (pcfgs (F := F)) defs₀ 𝒱₀ L lv :=
  Pipeline.HostSeg.ofOps _ _ _ _ _ (Pipeline.ucRefs τ sig) hostOps0_1
    (fun op h => Pipeline.sub_ucRefs op ((List.forall_iff_forall_mem.mp hostOps0_1_sub) op h)) hostOps0_1_fresh (fun c => StableHlo.after hostOps0 (Vl m c)) R
/-- The nine host operations after the region. -/
def seg2 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h)) hostOps1_fresh (Wx m) R

/-- The buffers the region is entered with are the two stretches' result. -/
theorem flat_eq : List.flatten [(hostOps0 : List (HloOp τ sig (Elt F))), hostOps0_1] = hostOps0 ++ hostOps0_1 := by
  simp only [List.flatten_cons, List.flatten_nil, List.append_nil]
theorem after_two (c : Dev nD) : StableHlo.after (hostOps0 ++ hostOps0_1) (Vl m c) = StableHlo.after hostOps0_1 (StableHlo.after hostOps0 (Vl m c)) :=
  StableHlo.after_append hostOps0 hostOps0_1 (Vl m c)
theorem V0_flat (c : Dev nD) : V0 m c = StableHlo.after (List.flatten [hostOps0, hostOps0_1]) (Vl m c) := rfl
theorem after_flat (c : Dev nD) : StableHlo.after (List.flatten [hostOps0, hostOps0_1]) (Vl m c) = StableHlo.after (hostOps0 ++ hostOps0_1) (Vl m c) := by
  rw [flat_eq]
theorem V0_eq (c : Dev nD) : StableHlo.after hostOps0_1 (StableHlo.after hostOps0 (Vl m c)) = V0 m c :=
  (after_two m c).symm.trans ((after_flat m c).symm.trans (V0_flat m c).symm)

/-- Unscoped buffers at the exit valuation are the arrays' buffers at their final contents and the rest as found. -/
theorem unscopedBufs_exit (c : Dev nD) :
    (unscopedBufs c (fun b => Wx m c (Proc.devRef .tc b)) : sProp 𝕄)
      = iprop(iprop((((c : Thread nD τ).loc main_v5) ↦{fullShare} V m c main_v5) ∗ (((c : Thread nD τ).loc main_v6) ↦{fullShare} V m c main_v6)
          ∗ (((c : Thread nD τ).loc main_v7) ↦{fullShare} V m c main_v7) ∗ (((c : Thread nD τ).loc main_v8_0) ↦{fullShare} (dats m 0 c).arrAt 4 cfg0.N)
          ∗ (((c : Thread nD τ).loc main_v8_1) ↦{fullShare} (dats m 0 c).arrAt 5 cfg0.N))
        ∗ Pipeline.unscopedRest spec0 c (V m c)) := by
  rw [Pipeline.unscopedBufs_split₀ cfgs 0 winFacts₀0.arr_unscoped c, arrBufs_eq]
  refine congrArg₂ _ ?_ ?_
  · beta_reduce
    rw [Wx_v5, Wx_v6, Wx_v7, Wx_v8_0, Wx_v8_1]
  · unfold Pipeline.unscopedRest
    refine BI.bigSep_congr fun b hb => ?_
    beta_reduce
    rw [Wx_rest m c b fun w e => (Finset.mem_sdiff.mp hb).2 (Finset.mem_image.mpr ⟨w, Finset.mem_univ _, e⟩)]

set_option backward.isDefEq.respectTransparency.types false in
/-- THE REGION, given the body obligation and the invariant's two ends: entered from the buffers the host operations
    left — the embedding array split between the query and the key window, the label arrays and the two result arrays
    whole, the generator register into the invariant, every other buffer bypassing —, left with the results written back. -/
def reg0 (hbody : ∀ c, BodyObligation (dats (F := F) m 0 c) (defs₀ (F := F)) 𝒱₀ () Set.univ)
    (hΦin : ∀ c, (Pipeline.ΦA spec0 c : sProp 𝕄) ⊢ (dats m 0 c).Φ 0)
    (hΦout : ∀ c, (dats m 0 c).Φ (Fin.last cfg0.N) ⊢ (Pipeline.ΦA spec0 c : sProp 𝕄)) :
    Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none spec0
  hbody c := (hbody c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (Wx m c) ∗ R c)
  X c := iprop(∃ r, prngReg c r)
  Y c := iprop(∃ r, prngReg c r)
  Z c := Pipeline.unscopedRest spec0 c (V m c)
  hentry c := by
    rw [show StableHlo.held (c : Thread nD τ) (Pipeline.ucRefs τ sig) (V0 m c) = unscopedBufs c (V m c) from (Pipeline.unscopedBufs_held c _).symm,
      Pipeline.unscopedBufs_split₀ cfgs 0 winFacts₀0.arr_unscoped c, arrBufs_eq, arrays_eq6]
    iintro ⟨⟨⟨⟨H5, H6, H7, H80, H81⟩, Hrest⟩, ⟨HO, Hg⟩⟩, -, -⟩
    ihave H5' := (pointsTo_share (PosShare.mem_left_op_right fullShare)).1 $$ H5
    icases H5' with ⟨H5l, H5r⟩
    imodintro
    isplitl [H5l H5r H6 H7 H80 H81]
    · isplitl [H5l]; · iexact H5l
      isplitl [H5r]; · iexact H5r
      isplitl [H6]; · iexact H6
      isplitl [H7]; · iexact H7
      isplitl [H80]; · iexact H80
      iexact H81
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hg]; · iexact Hg
    iexact Hrest
  hin c := by
    refine BIBase.Entails.trans ?_ (hΦin c)
    unfold Pipeline.ΦA
    iintro ⟨Hg, -, Hr⟩
    isplitl [Hr] <;> iassumption
  hout c := by
    refine (hΦout c).trans ?_
    rw [Pipeline.ownSems0_none]; unfold Pipeline.ΦA
    iintro ⟨Hr, Hg⟩
    isplitl [Hg]; · iexact Hg
    isplitr; · iempintro
    iexact Hr
  hexit c := by
    rw [show StableHlo.held (c : Thread nD τ) (Pipeline.ucRefs τ sig) (Wx m c) = unscopedBufs c (fun b => Wx m c (Proc.devRef .tc b)) from
      (Pipeline.unscopedBufs_held c _).symm, unscopedBufs_exit, arrays_eq6, arrAt_in0, arrAt_in1, arrAt_in2, arrAt_in3]
    iintro ⟨⟨H5l, H5r, H6, H7, H80, H81⟩, HO, Hg, Hrest⟩
    ihave H5 := (pointsTo_share (PosShare.mem_left_op_right fullShare)).2 $$ [H5l H5r]
    · isplitl [H5l] <;> iassumption
    imodintro
    isplitr [HO Hg]
    · isplitl [H5 H6 H7 H80 H81]
      · isplitl [H5]; · iexact H5
        isplitl [H6]; · iexact H6
        isplitl [H7]; · iexact H7
        isplitl [H80]; · iexact H80
        iexact H81
      iexact Hrest
    · isplitl [HO]
      · unfold Pipeline.Dat.owesAt Pipeline.owesWithin
        icases HO with ⟨%W, -, HO⟩; iexists W; iexact HO
      iexact Hg

/-- @main as the list of the four. -/
abbrev segs (hbody : ∀ c, BodyObligation (dats (F := F) m 0 c) (defs₀ (F := F)) 𝒱₀ () Set.univ)
    (hΦin : ∀ c, (Pipeline.ΦA spec0 c : sProp 𝕄) ⊢ (dats m 0 c).Φ 0)
    (hΦout : ∀ c, (dats m 0 c).Φ (Fin.last cfg0.N) ⊢ (Pipeline.ΦA spec0 c : sProp 𝕄)) :
    List (Pipeline.Seg (pcfgs (F := F)) adm (dats m) () defs₀ 𝒱₀ L lv) :=
  [.host (seg0 m), .host (seg1 m), .region (reg0 m hbody hΦin hΦout), .host (seg2 m)]

/-- The physical post: the result buffer at the closing operations' value, both arguments as launched. -/
def QC : PUnit × MemSt nD τ sig (Elt F) → Prop := fun r =>
  ∀ c : Dev nD, r.2.mem ((c : Thread nD τ).loc main_v15) = finalV15 m c
    ∧ r.2.mem ((c : Thread nD τ).loc main_arg0) = m ((c : Thread nD τ).loc main_arg0)
    ∧ r.2.mem ((c : Thread nD τ).loc main_arg1) = m ((c : Thread nD τ).loc main_arg1)

/-! ## The arguments are never written -/

/-- The host operations before the region write neither argument. -/
theorem V_main_arg0 (c : Dev nD) : V m c main_arg0 = m ((c : Thread nD τ).loc main_arg0) := by
  dsimp only [V, V0]
  simp only [hostOps0, hostOps0_1, List.flatten_cons, List.flatten_nil, List.append_nil, List.cons_append, List.nil_append]
  after_results
theorem V_main_arg1 (c : Dev nD) : V m c main_arg1 = m ((c : Thread nD τ).loc main_arg1) := by
  dsimp only [V, V0]
  simp only [hostOps0, hostOps0_1, List.flatten_cons, List.flatten_nil, List.append_nil, List.cons_append, List.nil_append]
  after_results

/-- Nor do the operations after it. -/
theorem tail_arg0 (c : Dev nD) : StableHlo.after hostOps1 (Wx m c) (Proc.devRef .tc main_arg0) = m ((c : Thread nD τ).loc main_arg0) := by
  refine Eq.trans ?_ ((Wx_rest m c main_arg0 (by decide)).trans (V_main_arg0 m c))
  simp only [hostOps1]; after_results
theorem tail_arg1 (c : Dev nD) : StableHlo.after hostOps1 (Wx m c) (Proc.devRef .tc main_arg1) = m ((c : Thread nD τ).loc main_arg1) := by
  refine Eq.trans ?_ ((Wx_rest m c main_arg1 (by decide)).trans (V_main_arg1 m c))
  simp only [hostOps1]; after_results
/-- The result buffer after them is `finalV15`. -/
theorem tail_v15 (c : Dev nD) : StableHlo.after hostOps1 (Wx m c) (Proc.devRef .tc main_v15) = finalV15 m c := by
  unfold finalV15 Pipeline.afterTail₀
  simp only [List.flatten_cons, List.flatten_nil, List.append_nil]

/-! ## The run -/

set_option backward.isDefEq.respectTransparency.types false in
/-- At the compiled mesh, for any float instance, from any memory with zero counters: every weakly fair execution of @main
    terminates, nothing faulting, with the result buffer at the closing operations' value of what the region wrote back
    and both arguments as launched — given the body obligation and the invariant's two ends. -/
theorem run_main_of (hbody : ∀ c, BodyObligation (dats (F := F) m 0 c) (defs₀ (F := F)) 𝒱₀ () Set.univ)
    (hΦin : ∀ c, (Pipeline.ΦA spec0 c : sProp 𝕄) ⊢ (dats m 0 c).Φ 0)
    (hΦout : ∀ c, (dats m 0 c).Φ (Fin.last cfg0.N) ⊢ (Pipeline.ΦA spec0 c : sProp 𝕄)) :
    θ_run defs (onTc (τ := τ) (main (F := F))) (s₀ m ρ) (QC m) :=
  Pipeline.θ_run_regions_kit (pcfgs (F := F)) adm (dats m) () cellOf_inj EP defs₀ 𝒱₀ L lv m ρ main (segs m hbody hΦin hΦout)
    (fun c Q => by rw [main_chain c, Pipeline.Seg.run_eq_chain]; exact .rfl)
    (by simp only [Pipeline.Seg.pipes_host, Pipeline.Seg.pipes_region, Pipeline.Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Vl m c) ∗ R c))
    (Tₙ := fun c => iprop(StableHlo.held (c : Thread nD τ) (Pipeline.ucRefs τ sig) (StableHlo.after hostOps1 (Wx m c)) ∗ ∃ r, prngReg c r))
    (hch := ⟨fun _ => .rfl, fun _ => .rfl, fun c => by
        show iprop(StableHlo.held (c : Thread nD τ) (Pipeline.ucRefs τ sig) (StableHlo.after hostOps0_1 (StableHlo.after hostOps0 (Vl m c))) ∗ R c)
          ⊢ iprop(StableHlo.held (c : Thread nD τ) (Pipeline.ucRefs τ sig) (V0 m c) ∗ R c)
        exact Entails.of_eq (by rw [V0_eq]), fun _ => .rfl, fun c => by
        show iprop(StableHlo.held (c : Thread nD τ) (Pipeline.ucRefs τ sig) (StableHlo.after hostOps1 (Wx m c)) ∗ R c) ⊢ _
        iintro ⟨Hh, HO, Hg⟩
        isplitr [HO]
        · isplitl [Hh] <;> iassumption
        · iexact HO⟩)
    (hinit := by
      refine Pipeline.initEach L lv fun c => ?_
      rw [show unscopedBufs c (fun b => m ((c : Thread nD τ).loc b)) = StableHlo.held (c : Thread nD τ) (Pipeline.ucRefs τ sig) (Vl m c) from
        Pipeline.unscopedBufs_held c (Vl m c)]
      iintro ⟨⟨Hh, -, HO, -, Hg, -⟩, -⟩
      imodintro
      isplitl [Hh]; · iexact Hh
      isplitl [HO]; · iexists ∅; iexact HO
      iexists _; iexact Hg)
    (QY := fun c s => s.mem ((c : Thread nD τ).loc main_v15) = finalV15 m c
      ∧ s.mem ((c : Thread nD τ).loc main_arg0) = m ((c : Thread nD τ).loc main_arg0)
      ∧ s.mem ((c : Thread nD τ).loc main_arg1) = m ((c : Thread nD τ).loc main_arg1))
    (hfin := fun c s' => by
      rw [show StableHlo.held (c : Thread nD τ) (Pipeline.ucRefs τ sig) (StableHlo.after hostOps1 (Wx m c))
          = unscopedBufs c (fun b => StableHlo.after hostOps1 (Wx m c) (Proc.devRef .tc b)) from (Pipeline.unscopedBufs_held c _).symm]
      unfold unscopedBufs
      iintro ⟨⟨Hh, -⟩, HSI⟩
      ihave Hr := (pointsTo_read_all (Finset.univ.filter fun b : Ref sig .tc => ¬ b.isScoped) (fun b => (c : Thread nD τ).loc b)
        (fun b => StableHlo.after hostOps1 (Wx m c) (Proc.devRef .tc b)) s') $$ [Hh HSI]
      · isplitl [Hh] <;> iassumption
      icases Hr with ⟨%hr, HSI⟩
      imodintro
      isplitr
      · ipureintro
        exact ⟨(hr main_v15 (by decide)).trans (tail_v15 m c), (hr main_arg0 (by decide)).trans (tail_arg0 m c), (hr main_arg1 (by decide)).trans (tail_arg1 m c)⟩
      iexact HSI)
    (hQ := fun _ h => h)

end Cert.Kernel.Hand

end
-- ==== Proof.K.Shared.lean ====
/-
  The contrastive-sums kernel: what the three cases of its body share.

  The body has two conditionals on the key-tile coordinate ki = t mod 8: at ki = 0 it zeroes the two scratch
  accumulators before adding the point's contribution, at ki = 7 it copies them to the two output windows. On the
  8 × 8 grid that makes three kinds of point: ki = 0 (reset, no copy), 0 < ki < 7 (neither), ki = 7 (copy, no reset).
  This module states the two conditions in closed form over the grid; where the two output windows are idle (every
  point with ki ≠ 7: nothing is stored into them and nothing is written back) and where they are live (ki = 7);
  the staging memrefs the body is called with at a point; the pipeline library's invariant `ΦA` with the two scratch buffers
  spelled as memrefs; the accumulation's recursion case by case; and that each of the four input windows' staging
  buffers holds the window's block at every point, fetched there or not.
-/
import proofs.«421592_j76845554860147_3_alg».proof.Proof.K.Acc
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The body's two conditions -/

/-- The first conditional's condition (the key-tile coordinate is 0: reset the accumulators), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The second conditional's condition (the key-tile coordinate is 7: copy the accumulators out), from the grid coordinates. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- The four input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last key tile the two output windows are idle (the body stores nothing into them) -/
theorem idleAt0_4 : ∀ t : Fin cfg0.N, ¬cond0_1 (grid0.coords t) → cfg0.idle 4 (grid0.coords t) = true := by decide +kernel
theorem idleAt0_5 : ∀ t : Fin cfg0.N, ¬cond0_1 (grid0.coords t) → cfg0.idle 5 (grid0.coords t) = true := by decide +kernel
/-- and the pipeline does not write their blocks back; -/
theorem noFlush0_4 : ∀ t : Fin cfg0.N, ¬cond0_1 (grid0.coords t) → (cfg0.win 4).flush t = false := by decide +kernel
theorem noFlush0_5 : ∀ t : Fin cfg0.N, ¬cond0_1 (grid0.coords t) → (cfg0.win 5).flush t = false := by decide +kernel
/-- at the last key tile they are live (the body stores the accumulators into them). -/
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The memrefs the body is called with -/

/-- Each window's current staging memref at point `t`, spelled as the pipeline passes it, and its wholeness. -/
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)

/-- The pipeline library's invariant `ΦA` with the two scratch operands as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## The accumulation, case by case -/

/-- At the first key tile of a query tile the accumulators are one step from the zero vectors. -/
theorem accAt_A (c : Dev nD) (t : Fin cfg0.N) (h0 : t.val % 8 = 0) :
    accAt m c t.val t.isLt = accStep m c t (k0_pay2 (F := F), k0_pay3 (F := F)) := by
  obtain ⟨n, hn⟩ := t
  cases n with
  | zero => rfl
  | succ n => exact if_pos h0

/-- At any other key tile they are one step from what the point before left. -/
theorem accAt_B (c : Dev nD) (t : Fin cfg0.N) (h0 : ¬t.val % 8 = 0) :
    accAt m c t.val t.isLt = accStep m c t (accAt m c (t.val - 1) (Nat.lt_of_le_of_lt (Nat.sub_le _ _) t.isLt)) := by
  obtain ⟨n, hn⟩ := t
  cases n with
  | zero => exact absurd (Nat.zero_mod _) h0
  | succ n => exact if_neg h0

/-- The same, accumulator by accumulator, with the step written out. -/
theorem accAt_A_1 (c : Dev nD) (t : Fin cfg0.N) (h0 : t.val % 8 = 0) :
    (accAt m c t.val t.isLt).1 = k0_pay6 (qblk m c t) (kblk m c t) (k0_pay2 (F := F)) := by
  rw [accAt_A m c t h0]; rfl
theorem accAt_A_2 (c : Dev nD) (t : Fin cfg0.N) (h0 : t.val % 8 = 0) :
    (accAt m c t.val t.isLt).2
      = k0_pay1 (k0_pay4 (F := F) (grid0.coords t) (lqblk m c t) (lkblk m c t)) (k0_pay5 (qblk m c t) (kblk m c t)) (k0_pay3 (F := F)) := by
  rw [accAt_A m c t h0]; rfl
theorem accAt_B_1 (c : Dev nD) (t : Fin cfg0.N) (h0 : ¬t.val % 8 = 0) :
    (accAt m c t.val t.isLt).1
      = k0_pay6 (qblk m c t) (kblk m c t) (accAt m c (t.val - 1) (Nat.lt_of_le_of_lt (Nat.sub_le _ _) t.isLt)).1 := by
  rw [accAt_B m c t h0]; rfl
theorem accAt_B_2 (c : Dev nD) (t : Fin cfg0.N) (h0 : ¬t.val % 8 = 0) :
    (accAt m c t.val t.isLt).2
      = k0_pay1 (k0_pay4 (F := F) (grid0.coords t) (lqblk m c t) (lkblk m c t)) (k0_pay5 (qblk m c t) (kblk m c t))
          (accAt m c (t.val - 1) (Nat.lt_of_le_of_lt (Nat.sub_le _ _) t.isLt)).2 := by
  rw [accAt_B m c t h0]; rfl

/-! ## A whole-buffer store -/

/-- The zero offsets of a whole-buffer rectangle of rank 2, however the zeros are spelt. -/
theorem hz : (![0, 0] : Fin 2 → Nat) = fun _ => 0 := funext fun a => by fin_cases a <;> rfl

/-- A store through the whole-shape rectangle at zero offsets, made last, leaves its payload: whatever was written
    before it and whatever the buffer held. -/
theorem read_writes_unit_zero {sig' : RefSig} {κ : Kind} {sp : Space} {S : Shape} {e : EltTy} (v : View sig' κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

/-! ## The input windows' buffers hold their blocks -/

/-- An input window's current staging buffer holds its block at every point, fetched there or not, for any proof data
    whose array is the region-entry contents and whose body leaves the block in place: unfetched, the block index
    has not moved. The four windows in turn. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Cert.Kernel.Hand

end
-- ==== Proof.K.BodyPhi.lean ====
/-
  The contrastive-sums kernel: the region invariant and the proof data of its pipeline, field by field.

  Between two grid points the invariant holds the two scratch accumulators at what the point before left (`accAt`);
  before the first point and after the last it is the pipeline library's own `ΦA`, the accumulators at anything. The proof data's
  arrays are the region-entry contents; each input window's staging buffer holds its block at every point and the body
  hands it back so; at the last key tile of a query tile the body leaves the two accumulators in the output windows.
-/
import proofs.«421592_j76845554860147_3_alg».proof.Proof.K.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The invariant between points -/

theorem PhiS_zero (c : Dev nD) (n : ℕ) (h : n ≤ cfg0.N) (hz : n = 0) : PhiS m c n h = Pipeline.ΦA spec0 c := by
  subst hz; rfl

/-- After point `n` (before point `n + 1`): the two accumulators at that point's contents. -/
theorem PhiS_succ (c : Dev nD) (n : ℕ) (hn : n < cfg0.N) :
    PhiS m c (n + 1) hn = iprop(iprop(owns (c : Thread nD τ) scM0 fullShare ((accAt m c n hn).1) ∗ owns (c : Thread nD τ) scM1 fullShare ((accAt m c n hn).2)) ∗ (∃ r, prngReg c r)) := rfl

/-- Before a point that is not the first: the two accumulators at what the point before left. -/
theorem PhiS_pos (c : Dev nD) (n : ℕ) (h : n ≤ cfg0.N) (hz : n ≠ 0) :
    PhiS m c n h = iprop(iprop(owns (c : Thread nD τ) scM0 fullShare ((accAt m c (n - 1) (by omega)).1) ∗ owns (c : Thread nD τ) scM1 fullShare ((accAt m c (n - 1) (by omega)).2)) ∗ (∃ r, prngReg c r)) := by
  cases n with
  | zero => exact absurd rfl hz
  | succ n => rfl

/-! ## The proof data, field by field -/

/-- The proof data's arrays are the region-entry contents. -/
theorem A_eq (c : Dev nD) (w : Fin cfg0.W) : (dats m 0 c).A w = V m c (Pipeline.arrRef spec0 w) := by
  dsimp only [dats]

/-- The invariant at a point's start, restated at the point's position. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (accAt m c t.val t.isLt).1 := by dsimp only [dats]
theorem after0_5 (c : Dev nD) (t : Fin cfg0.N) : (dats m 0 c).after 5 t = (accAt m c t.val t.isLt).2 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The inputs are never idle: the body hands each buffer back at its block. -/
theorem leaves0_0 (c : Dev nD) (t : Fin cfg0.N) : (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [liveAt0_0 t], after0_0]
theorem leaves0_1 (c : Dev nD) (t : Fin cfg0.N) : (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [liveAt0_1 t], after0_1]
theorem leaves0_2 (c : Dev nD) (t : Fin cfg0.N) : (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [liveAt0_2 t], after0_2]
theorem leaves0_3 (c : Dev nD) (t : Fin cfg0.N) : (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [liveAt0_3 t], after0_3]
/-- At the last key tile the outputs are live: the body leaves the accumulators in them. -/
theorem leaves0_4_live (c : Dev nD) (t : Fin cfg0.N) (hc1 : cond0_1 (grid0.coords t)) :
    (dats m 0 c).leavesExact 4 t = owns (c : Thread nD τ) (ms0_4 t) fullShare ((accAt m c t.val t.isLt).1) := by
  rw [show (dats m 0 c).leavesExact 4 t = owns (c : Thread nD τ) (ms0_4 t) fullShare ((dats m 0 c).after 4 t) from by
    unfold Dat.leavesExact; rw [liveAt0_4 t hc1], after0_4]
theorem leaves0_5_live (c : Dev nD) (t : Fin cfg0.N) (hc1 : cond0_1 (grid0.coords t)) :
    (dats m 0 c).leavesExact 5 t = owns (c : Thread nD τ) (ms0_5 t) fullShare ((accAt m c t.val t.isLt).2) := by
  rw [show (dats m 0 c).leavesExact 5 t = owns (c : Thread nD τ) (ms0_5 t) fullShare ((dats m 0 c).after 5 t) from by
    unfold Dat.leavesExact; rw [liveAt0_5 t hc1], after0_5]

/-! ## Entering and leaving the region -/

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the pipeline library's `ΦA` back: what the accumulators hold is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

end Cert.Kernel.Hand

end
-- ==== Proof.K.RunA.lean ====
/-
  The contrastive-sums kernel's body at a point of the first key tile (ki = 0: the reset is taken, the copy-out is not).

  On whole memrefs — the four inputs' at their blocks, the two outputs' at whatever they hold, the two scratch
  accumulators' at anything — the body runs to the continuation with the inputs and the outputs as they were and the
  accumulators at one step from zero: the first at the column sums of exp(k·qᵀ·1/T) added to the zero vector, the second
  at the column sums of the kept entries added to the zero vector. Each accumulator is stored whole twice (the zero fill,
  then the update, which reads the zero fill back), so what it ends with is the last store's payload.
-/
import proofs.«421592_j76845554860147_3_alg».proof.Proof.K.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple at a point with ki = 0. -/
theorem kernelRun0_A (c : Dev nD) (i : grid0.Coords)
    (arg2 : Memref sig .tc .vmem S1024x1024 .bf16) (harg2 : arg2.IsWhole) (arg3 : Memref sig .tc .vmem S1024x1024 .bf16) (harg3 : arg3.IsWhole)
    (arg4 : Memref sig .tc .vmem S1x1024 .i32) (harg4 : arg4.IsWhole) (arg5 : Memref sig .tc .vmem S1024x1 .i32) (harg5 : arg5.IsWhole)
    (arg6 : Memref sig .tc .vmem S1x1024 .f32) (harg6 : arg6.IsWhole) (arg7 : Memref sig .tc .vmem S1x1024 .f32) (harg7 : arg7.IsWhole)
    (arg8 : Memref sig .tc .vmem S1x1024 .f32) (harg8 : arg8.IsWhole) (arg9 : Memref sig .tc .vmem S1x1024 .f32) (harg9 : arg9.IsWhole)
    (xq xk : Vec F S1024x1024 .bf16) (xlq : Vec F S1x1024 .i32) (xlk : Vec F S1024x1 .i32)
    (hc0 : cond0_0 i) (hc1 : ¬cond0_1 i) (xi6 xi7 : Vec F S1x1024 .f32)
    (E : Set ℕ) (K : PUnit → sProp 𝕄) :
    iprop(owns (c : Thread nD τ) arg2 fullShare xq ∗ owns (c : Thread nD τ) arg3 fullShare xk ∗ owns (c : Thread nD τ) arg4 fullShare xlq ∗ owns (c : Thread nD τ) arg5 fullShare xlk
        ∗ owns (c : Thread nD τ) arg6 fullShare xi6 ∗ owns (c : Thread nD τ) arg7 fullShare xi7
        ∗ (∃ d, owns (c : Thread nD τ) arg8 fullShare d) ∗ (∃ d, owns (c : Thread nD τ) arg9 fullShare d)
        ∗ (iprop(owns (c : Thread nD τ) arg2 fullShare xq ∗ owns (c : Thread nD τ) arg3 fullShare xk ∗ owns (c : Thread nD τ) arg4 fullShare xlq ∗ owns (c : Thread nD τ) arg5 fullShare xlk
            ∗ owns (c : Thread nD τ) arg6 fullShare xi6 ∗ owns (c : Thread nD τ) arg7 fullShare xi7
            ∗ owns (c : Thread nD τ) arg8 fullShare (k0_pay6 xq xk (k0_pay2 (F := F)))
            ∗ owns (c : Thread nD τ) arg9 fullShare (k0_pay1 (k0_pay4 (F := F) i xlq xlk) (k0_pay5 xq xk) (k0_pay3 (F := F)))) -∗ K ⟨⟩))
      ⊢ wp frame (wpE (defs₀ (F := F)) Variants.none c none) E
          (cc0__contrastive_kernel i arg2 harg2 arg3 harg3 arg4 harg4 arg5 harg5 arg6 harg6 arg7 harg7 arg8 harg8 arg9 harg9) K := by
  simp only [cc0__contrastive_kernel_eq_skeleton]; unfold cc0__contrastive_kernel_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  obtain rfl := harg2.eq_unread hf2; obtain rfl := harg3.eq_unread hf3
  obtain rfl := harg4.eq_unread hf4; obtain rfl := harg5.eq_unread hf5
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact hf6
    iexact H6
  isplitl [H7]
  · iexists _; isplitr; · ipureintro; exact hf7
    iexact H7
  isplitl [H8]
  · iexists _; isplitr
    swap; · iexact H8
    ipureintro
    sl_unfold_words
    refine (read_writes_unit_zero _ _ hz _ _ _).trans ?_
    simp only [View.readAt_eq_ld, harg2.read_unread, harg3.read_unread, View.ld_unit_zero (S := S1024x1024) hz,
      View.readCov_unit_zero (S := S1x1024) _ hz]
  · iexists _; isplitr
    swap; · iexact H9
    ipureintro
    sl_unfold_words
    refine (read_writes_unit_zero _ _ hz _ _ _).trans ?_
    simp only [View.readAt_eq_ld, harg2.read_unread, harg3.read_unread, harg4.read_unread, harg5.read_unread,
      View.ld_unit_zero (S := S1024x1024) hz, View.ld_unit_zero (S := S1x1024) hz, View.ld_unit_zero (S := S1024x1) hz,
      View.readCov_unit_zero (S := S1x1024) _ hz]

end Cert.Kernel.Hand

end
-- ==== Proof.K.RunB.lean ====
/-
  The contrastive-sums kernel's body at a point that is neither the first nor the last key tile of its query tile.

  Nothing is reset and nothing is copied out: the body loads the query tile, the key tile and the two label tiles,
  adds to the first scratch row vector the column sums of exp(sim · 1/T) over the tile's key rows, and to the second
  the same sums over the kept key rows only. Stated over any eight whole memrefs: from the four inputs at their
  contents, the two output buffers at any contents and the two scratch buffers at what the point before left, the body
  runs to the four inputs and the two output buffers as they were and the two scratch buffers at one step of the
  accumulation.
-/
import proofs.«421592_j76845554860147_3_alg».proof.Proof.K.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE BODY AT A MIDDLE KEY TILE: both conditionals not taken. -/
theorem kernelRun0_B (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1x1024 .i32) (harg4 : arg4.IsWhole) (arg5 : Memref sig .tc .vmem S1024x1 .i32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole)
    (xq xk : Vec F S1024x1024 .bf16) (xlq : Vec F S1x1024 .i32) (xlk : Vec F S1024x1 .i32) (hc0 : ¬cond0_0 i) (hc1 : ¬cond0_1 i)
    (xi6 xi7 xs0 xs1 : Vec F S1x1024 .f32) (E : Set ℕ) (K : PUnit → sProp 𝕄) :
    iprop(owns (c : Thread nD τ) arg2 fullShare xq ∗ owns (c : Thread nD τ) arg3 fullShare xk ∗ owns (c : Thread nD τ) arg4 fullShare xlq ∗ owns (c : Thread nD τ) arg5 fullShare xlk ∗ owns (c : Thread nD τ) arg6 fullShare xi6 ∗ owns (c : Thread nD τ) arg7 fullShare xi7 ∗ owns (c : Thread nD τ) arg8 fullShare xs0 ∗ owns (c : Thread nD τ) arg9 fullShare xs1
        ∗ (iprop(owns (c : Thread nD τ) arg2 fullShare xq ∗ owns (c : Thread nD τ) arg3 fullShare xk ∗ owns (c : Thread nD τ) arg4 fullShare xlq ∗ owns (c : Thread nD τ) arg5 fullShare xlk ∗ owns (c : Thread nD τ) arg6 fullShare xi6 ∗ owns (c : Thread nD τ) arg7 fullShare xi7
            ∗ owns (c : Thread nD τ) arg8 fullShare (k0_pay6 xq xk xs0) ∗ owns (c : Thread nD τ) arg9 fullShare (k0_pay1 (k0_pay4 i xlq xlk) (k0_pay5 xq xk) xs1)) -∗ K ⟨⟩))
      ⊢ wp frame (wpE (defs₀ (F := F)) Variants.none c none) E (cc0__contrastive_kernel i arg2 harg2 arg3 harg3 arg4 harg4 arg5 harg5 arg6 harg6 arg7 harg7 arg8 harg8 arg9 harg9) K := by
  simp only [cc0__contrastive_kernel_eq_skeleton]; unfold cc0__contrastive_kernel_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5
  obtain rfl := harg8.eq_unread hf8; obtain rfl := harg9.eq_unread hf9
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists f6; isplitr; · ipureintro; exact hf6
    iexact H6
  isplitl [H7]
  · iexists f7; isplitr; · ipureintro; exact hf7
    iexact H7
  isplitl [H8]
  · iexists _; isplitr
    rotate_left
    · iexact H8
    · ipureintro
      try sl_unfold_words
      refine (read_writes_unit_zero _ _ hz _ _ _).trans ?_
      simp only [View.readAt_eq_ld, harg2.read_unread, harg3.read_unread, harg4.read_unread, harg5.read_unread, harg8.read_unread, harg9.read_unread,
        View.readCov_unit_zero (S := S1x1024) _ hz, View.ld_unit_zero (S := S1024x1024) hz, View.ld_unit_zero (S := S1x1024) hz, View.ld_unit_zero (S := S1024x1) hz]
  · iexists _; isplitr
    rotate_left
    · iexact H9
    · ipureintro
      try sl_unfold_words
      refine (read_writes_unit_zero _ _ hz _ _ _).trans ?_
      simp only [View.readAt_eq_ld, harg2.read_unread, harg3.read_unread, harg4.read_unread, harg5.read_unread, harg8.read_unread, harg9.read_unread,
        View.readCov_unit_zero (S := S1x1024) _ hz, View.ld_unit_zero (S := S1024x1024) hz, View.ld_unit_zero (S := S1x1024) hz, View.ld_unit_zero (S := S1024x1) hz]

end Cert.Kernel.Hand

end
-- ==== Proof.K.RunC.lean ====
/-
  The contrastive-sums kernel's body at the last key tile of a query tile (and not the first).

  Nothing is reset: the body adds the point's column sums to the two scratch row vectors as at every point, and then
  copies each scratch vector to its output buffer. Stated over any eight whole memrefs: from the four inputs at their
  contents, the two output buffers at anything and the two scratch buffers at what the point before left, the body
  runs to the four inputs as they were, and the two scratch buffers and the two output buffers at one step of the
  accumulation.
-/
import proofs.«421592_j76845554860147_3_alg».proof.Proof.K.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE BODY AT THE LAST KEY TILE: the reset not taken, the copy to the two outputs taken. -/
theorem kernelRun0_C (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1x1024 .i32) (harg4 : arg4.IsWhole) (arg5 : Memref sig .tc .vmem S1024x1 .i32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole)
    (xq xk : Vec F S1024x1024 .bf16) (xlq : Vec F S1x1024 .i32) (xlk : Vec F S1024x1 .i32) (hc0 : ¬cond0_0 i) (hc1 : cond0_1 i)
    (xs0 xs1 : Vec F S1x1024 .f32) (E : Set ℕ) (K : PUnit → sProp 𝕄) :
    iprop(owns (c : Thread nD τ) arg2 fullShare xq ∗ owns (c : Thread nD τ) arg3 fullShare xk ∗ owns (c : Thread nD τ) arg4 fullShare xlq ∗ owns (c : Thread nD τ) arg5 fullShare xlk ∗ (∃ d, owns (c : Thread nD τ) arg6 fullShare d) ∗ (∃ d, owns (c : Thread nD τ) arg7 fullShare d) ∗ owns (c : Thread nD τ) arg8 fullShare xs0 ∗ owns (c : Thread nD τ) arg9 fullShare xs1
        ∗ (iprop(owns (c : Thread nD τ) arg2 fullShare xq ∗ owns (c : Thread nD τ) arg3 fullShare xk ∗ owns (c : Thread nD τ) arg4 fullShare xlq ∗ owns (c : Thread nD τ) arg5 fullShare xlk ∗ owns (c : Thread nD τ) arg6 fullShare (k0_pay6 xq xk xs0) ∗ owns (c : Thread nD τ) arg7 fullShare (k0_pay1 (k0_pay4 i xlq xlk) (k0_pay5 xq xk) xs1)
            ∗ owns (c : Thread nD τ) arg8 fullShare (k0_pay6 xq xk xs0) ∗ owns (c : Thread nD τ) arg9 fullShare (k0_pay1 (k0_pay4 i xlq xlk) (k0_pay5 xq xk) xs1)) -∗ K ⟨⟩))
      ⊢ wp frame (wpE (defs₀ (F := F)) Variants.none c none) E (cc0__contrastive_kernel i arg2 harg2 arg3 harg3 arg4 harg4 arg5 harg5 arg6 harg6 arg7 harg7 arg8 harg8 arg9 harg9) K := by
  simp only [cc0__contrastive_kernel_eq_skeleton]; unfold cc0__contrastive_kernel_skel
  simp only [k0_part1_eq_skeleton]
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5
  obtain rfl := harg8.eq_unread hf8; obtain rfl := harg9.eq_unread hf9
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    rotate_left
    · iexact H6
    · ipureintro
      try sl_unfold_words
      refine (read_writes_unit_zero _ _ hz _ _ _).trans ?_
      simp only [View.readAt_eq_ld, harg2.read_unread, harg3.read_unread, harg4.read_unread, harg5.read_unread, harg8.read_unread, harg9.read_unread,
        View.readCov_unit_zero (S := S1x1024) _ hz, View.ld_unit_zero (S := S1024x1024) hz, View.ld_unit_zero (S := S1x1024) hz, View.ld_unit_zero (S := S1024x1) hz]
  isplitl [H7]
  · iexists _; isplitr
    rotate_left
    · iexact H7
    · ipureintro
      try sl_unfold_words
      refine (read_writes_unit_zero _ _ hz _ _ _).trans ?_
      simp only [View.readAt_eq_ld, harg2.read_unread, harg3.read_unread, harg4.read_unread, harg5.read_unread, harg8.read_unread, harg9.read_unread,
        View.readCov_unit_zero (S := S1x1024) _ hz, View.ld_unit_zero (S := S1024x1024) hz, View.ld_unit_zero (S := S1x1024) hz, View.ld_unit_zero (S := S1024x1) hz]
  isplitl [H8]
  · iexists _; isplitr
    rotate_left
    · iexact H8
    · ipureintro
      try sl_unfold_words
      refine (read_writes_unit_zero _ _ hz _ _ _).trans ?_
      simp only [View.readAt_eq_ld, harg2.read_unread, harg3.read_unread, harg4.read_unread, harg5.read_unread, harg8.read_unread, harg9.read_unread,
        View.readCov_unit_zero (S := S1x1024) _ hz, View.ld_unit_zero (S := S1024x1024) hz, View.ld_unit_zero (S := S1x1024) hz, View.ld_unit_zero (S := S1024x1) hz]
  · iexists _; isplitr
    rotate_left
    · iexact H9
    · ipureintro
      try sl_unfold_words
      refine (read_writes_unit_zero _ _ hz _ _ _).trans ?_
      simp only [View.readAt_eq_ld, harg2.read_unread, harg3.read_unread, harg4.read_unread, harg5.read_unread, harg8.read_unread, harg9.read_unread,
        View.readCov_unit_zero (S := S1x1024) _ hz, View.ld_unit_zero (S := S1024x1024) hz, View.ld_unit_zero (S := S1x1024) hz, View.ld_unit_zero (S := S1024x1) hz]

end Cert.Kernel.Hand

end
-- ==== Proof.K.Body.lean ====
/-
  The contrastive-sums kernel: the body obligation of its pipeline.

  At every grid point the body, called on the windows' current staging buffers and the two scratch accumulators, takes
  the region invariant before the point to the invariant after it: the four input buffers hold their blocks and are
  handed back as they were; the accumulators go from what the point before left (from anything at a query tile's first
  key tile, where they are reset) to one step further (`accAt`); the two output buffers are untouched away from the last
  key tile (idle there, and not written back) and hold the accumulators at the last key tile. Three cases by the key-tile
  coordinate, each closed by that case's run of the body.
-/
import proofs.«421592_j76845554860147_3_alg».proof.Proof.K.BodyPhi
import proofs.«421592_j76845554860147_3_alg».proof.Proof.K.RunA
import proofs.«421592_j76845554860147_3_alg».proof.Proof.K.RunB
import proofs.«421592_j76845554860147_3_alg».proof.Proof.K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point: the inputs' memrefs hold their blocks; the key-tile coordinate says which case the point is in;
    the invariant hands the body the two accumulators at what the point before left (at anything at the very first point)
    and takes them back one step further; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3]
  have hN : t.val < 64 := lt_of_lt_of_eq t.isLt (show cfg0.N = 64 from N_0)
  by_cases h0 : t.val % 8 = 0
  · have hc0 : cond0_0 (grid0.coords t) := (hcond0_0 t).mpr h0
    have hc1 : ¬cond0_1 (grid0.coords t) := fun h => by have := (hcond0_1 t).mp h; omega
    rw [Dat.leavesExact_idle (dats m 0 c) 4 t (idleAt0_4 t hc1) (noFlush0_4 t hc1),
      Dat.leavesExact_idle (dats m 0 c) 5 t (idleAt0_5 t hc1) (noFlush0_5 t hc1)]
    rw [accAt_A_1 m c t h0, accAt_A_2 m c t h0]
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply (kernelRun0_A c (grid0.coords t) _ _ _ _ _ _ _ _ _ _ _ _ _ _ _ _ (qblk m c t) (kblk m c t) (lqblk m c t) (lkblk m c t) hc0 hc1 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply (kernelRun0_A c (grid0.coords t) _ _ _ _ _ _ _ _ _ _ _ _ _ _ _ _ (qblk m c t) (kblk m c t) (lqblk m c t) (lkblk m c t) hc0 hc1 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hc0 : ¬cond0_0 (grid0.coords t) := fun h => h0 ((hcond0_0 t).mp h)
    have hz : t.val ≠ 0 := fun e => h0 (by omega)
    by_cases h1 : t.val % 8 = 7
    · have hc1 : cond0_1 (grid0.coords t) := (hcond0_1 t).mpr h1
      rw [leaves0_4_live m c t hc1, leaves0_5_live m c t hc1]
      rw [accAt_B_1 m c t h0, accAt_B_2 m c t h0]
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply (kernelRun0_C c (grid0.coords t) _ _ _ _ _ _ _ _ _ _ _ _ _ _ _ _ (qblk m c t) (kblk m c t) (lqblk m c t) (lkblk m c t) hc0 hc1 _ _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond0_1 (grid0.coords t) := fun h => h1 ((hcond0_1 t).mp h)
      rw [Dat.leavesExact_idle (dats m 0 c) 4 t (idleAt0_4 t hc1) (noFlush0_4 t hc1),
        Dat.leavesExact_idle (dats m 0 c) 5 t (idleAt0_5 t hc1) (noFlush0_5 t hc1)]
      rw [accAt_B_1 m c t h0, accAt_B_2 m c t h0]
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply (kernelRun0_B c (grid0.coords t) _ _ _ _ _ _ _ _ _ _ _ _ _ _ _ _ (qblk m c t) (kblk m c t) (lqblk m c t) (lkblk m c t) hc0 hc1 _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Run.lean ====
/-
  The contrastive-sums program's run with nothing left assumed: the launch of K/Launch.lean at the body obligation and the
  invariant's two ends of K/Body.lean.
-/
import proofs.«421592_j76845554860147_3_alg».proof.Proof.K.Launch
import proofs.«421592_j76845554860147_3_alg».proof.Proof.K.Body

noncomputable section

namespace Cert.Kernel.Hand

open Cert.Kernel Cert.Kernel.Gen
open Idealize.ShloMosaic Idealize.ShloMosaic.TcCoe Idealize.SL.Sem

variable {F : FTy → Type} [FloatOps F]

/-- Every weakly fair execution of @main terminates, nothing faulting, with the result buffer at `finalV15` and both
    arguments as launched. -/
theorem run_main (m : (ℓ : Loc nD τ sig) → Buf (Elt F) ℓ) (ρ : Dev nD → PrngReg) :
    θ_run defs (onTc (τ := τ) (main (F := F))) (s₀ m ρ) (QC m) :=
  run_main_of m ρ (body_obligation m) (hin m) (hout m)

end Cert.Kernel.Hand

end
-- ==== Proof.KI.Acc.lean ====
/-
  The contrastive-sums kernel, what its pipeline carries from grid point to grid point.

  The grid is 8 × 8, point t = (qi, ki) with ki = t mod 8 the inner (key-tile) axis. The body keeps two row vectors
  of 1024 entries in scratch memory: the running sum over key rows of exp(sim · 1/T) for the 1024 queries of tile qi,
  and the same sum restricted to key rows with the query's label other than the query itself. At ki = 0 both are
  reset to zero before the point's contribution is added; at ki = 7 they are copied to the two output windows.
  This module names, for any float instance: the buffer contents when the region is entered (`V`), a window's
  block at a point read off them (`iblk`), the two accumulators after each point as a recursion over the points
  (`accAt`), the region invariant that holds them between points (`PhiS`) and the pipeline's proof data (`dats`).
-/
import proofs.«421592_j76845554860147_3_alg».proof.Proof.Gen.KernelIdeal.Launch
import proofs.«421592_j76845554860147_3_alg».proof.Proof.Gen.KernelIdeal.Skeleton
import proofs.«421592_j76845554860147_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- Core `c`'s buffer contents when the region is entered: the launch contents after the row-norm function's five
    operations and the eight host operations that follow it. -/
abbrev V0 (c : Dev nD) : Valuation τ sig (Elt F) := StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The query tile (window 0), the key tile (window 1), the query labels (window 2) and the key labels (window 3) at a point,
    at their literal types. -/
abbrev qblk (c : Dev nD) (t : Fin cfg0.N) : Vec F S1024x1024 .bf16 := iblk m c 0 t
abbrev kblk (c : Dev nD) (t : Fin cfg0.N) : Vec F S1024x1024 .bf16 := iblk m c 1 t
abbrev lqblk (c : Dev nD) (t : Fin cfg0.N) : Vec F S1x1024 .i32 := iblk m c 2 t
abbrev lkblk (c : Dev nD) (t : Fin cfg0.N) : Vec F S1024x1 .i32 := iblk m c 3 t

/-- One point's step of the two accumulators from what they held when the point's contribution is added
    (`se`: all key rows; `ps`: the kept ones). -/
def accStep (c : Dev nD) (t : Fin cfg0.N) (a : Vec F S1x1024 .f32 × Vec F S1x1024 .f32) : Vec F S1x1024 .f32 × Vec F S1x1024 .f32 :=
  (k0_pay6 (qblk m c t) (kblk m c t) a.1,
   k0_pay1 (k0_pay4 (F := F) (grid0.coords t) (lqblk m c t) (lkblk m c t)) (k0_pay5 (qblk m c t) (kblk m c t)) a.2)

/-- THE ACCUMULATION: the two scratch accumulators after the body at position `n`: at the first key tile of a query
    tile (`n` ≡ 0 mod 8) the step from the zero vectors, otherwise the step from what position `n - 1` left. -/
def accAt (c : Dev nD) : (n : ℕ) → n < cfg0.N → Vec F S1x1024 .f32 × Vec F S1x1024 .f32
  | 0, hn => accStep m c ⟨0, hn⟩ (k0_pay2 (F := F), k0_pay3 (F := F))
  | n + 1, hn =>
    if (n + 1) % 8 = 0 then accStep m c ⟨n + 1, hn⟩ (k0_pay2 (F := F), k0_pay3 (F := F))
    else accStep m c ⟨n + 1, hn⟩ (accAt c n (Nat.lt_of_succ_lt hn))

/-- The two scratch operands as memrefs. -/
abbrev scM0 : Memref sig .tc .vmem S1x1024 .f32 := Memref.whole cc0_scratch0
abbrev scM1 : Memref sig .tc .vmem S1x1024 .f32 := Memref.whole cc0_scratch1

/-- The region invariant before position `n`: before the first point the pipeline library's own `ΦA` (every scratch at anything, the
    generator register at some state); afterwards the two scratch accumulators at what the point before left. -/
def PhiS (c : Dev nD) : (n : ℕ) → n ≤ cfg0.N → sProp 𝕄
  | 0, _ => Pipeline.ΦA spec0 c
  | n + 1, hn => iprop(iprop(owns (c : Thread nD τ) scM0 fullShare ((accAt m c n hn).1) ∗ owns (c : Thread nD τ) scM1 fullShare ((accAt m c n hn).2)) ∗ (∃ r, prngReg c r))

/-- The pipeline's proof data on core `c`: the arrays as the region finds them; after the body at point `t` each input's
    buffer at its block and the two outputs' at the accumulators (consulted only where they are stored and written back,
    the last key tile); the invariant `PhiS`; nothing owed; the embedding array, which the query window and the key window
    both read, held half by each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (accAt m c t.val t.isLt).1
    | ⟨5, _⟩ => (accAt m c t.val t.isLt).2
  Φ t := PhiS m c t.val (Nat.le_of_lt_succ t.isLt)
  q w := match w with
    | ⟨0, _⟩ => fullShare.left
    | ⟨1, _⟩ => fullShare.right
    | _ => fullShare
  owed _ := 0

end Cert.KernelIdeal.Hand

end
-- ==== Proof.KI.Launch.lean ====
/-
  The launch of the contrastive-sums program: @main as four segments — the row-norm function's operations, the host
  operations up to the kernel region, the region, the host operations after it — composed by the library's theorem for
  a program that runs as a list of segments.

  The one point that is this program's own: the query window and the key window both read the normalised-embedding
  array. The region is therefore entered with that array's points-to split in two halves, one per window; both windows
  only read, so both halves come back at the entry contents and are joined again at the exit. Every other array has one
  window and is held whole. The two scratch accumulators and the generator register enter the region's invariant; every
  other buffer bypasses the region untouched.

  Everything here is generic in the float instance, and takes the body obligation and the invariant's two ends as
  hypotheses: `run_main_of`.
-/
import proofs.«421592_j76845554860147_3_alg».proof.Proof.KI.Acc
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers after the region -/

/-- A window whose array no other window stages reads its own entry of `withArrays`. -/
theorem withArrays_arr_of {gr W : Nat} (win : Fin W → Pipeline.WinSpec sig gr) (c : Dev nD) (Vv : Valuation τ sig (Elt F))
    (A : (w : Fin W) → Buf (Elt F) ((win w).arr.view.loc (c : Thread nD τ))) (w : Fin W)
    (huniq : ∀ w', Pipeline.arrRef win w' = Pipeline.arrRef win w → w' = w) :
    Pipeline.withArrays win c Vv A (Proc.devRef .tc (Pipeline.arrRef win w)) = A w := by
  unfold Pipeline.withArrays
  have h : ∃ w', Proc.devRef .tc (Pipeline.arrRef win w') = Proc.devRef (τ := τ) .tc (Pipeline.arrRef win w) := ⟨w, rfl⟩
  rw [dif_pos h]
  suffices ∀ (w' : Fin W) (e : Proc.devRef .tc (Pipeline.arrRef win w') = Proc.devRef (τ := τ) .tc (Pipeline.arrRef win w)),
      cast (congrArg (fun b' : DevRef τ sig => b'.ty.Contents (Elt F)) e) (A w') = A w from this _ h.choose_spec
  intro w' e
  obtain rfl : w' = w := huniq w' (Proc.devRef_injective _ e)
  rfl

/-- An array several windows stage reads the contents they all agree on. -/
theorem withArrays_arr_agree {gr W : Nat} (win : Fin W → Pipeline.WinSpec sig gr) (c : Dev nD) (Vv : Valuation τ sig (Elt F))
    (A : (w : Fin W) → Buf (Elt F) ((win w).arr.view.loc (c : Thread nD τ))) (b : Ref sig .tc)
    (X : Buf (Elt F) ((c : Thread nD τ).loc b)) (hb : ∃ w, Pipeline.arrRef win w = b)
    (hX : ∀ w (e : Pipeline.arrRef win w = b), cast (congrArg (fun r : Ref sig .tc => Buf (Elt F) ((c : Thread nD τ).loc r)) e) (A w) = X) :
    Pipeline.withArrays win c Vv A (Proc.devRef .tc b) = X := by
  unfold Pipeline.withArrays
  have h : ∃ w', Proc.devRef .tc (Pipeline.arrRef win w') = Proc.devRef (τ := τ) .tc b := by
    obtain ⟨w, rfl⟩ := hb; exact ⟨w, rfl⟩
  rw [dif_pos h]
  suffices ∀ (w' : Fin W) (e : Proc.devRef .tc (Pipeline.arrRef win w') = Proc.devRef (τ := τ) .tc b),
      cast (congrArg (fun b' : DevRef τ sig => b'.ty.Contents (Elt F)) e) (A w') = X from this _ h.choose_spec
  intro w' e
  have e' : Pipeline.arrRef win w' = b := Proc.devRef_injective _ e
  subst e'
  exact hX w' rfl

/-- Core `c`'s buffers when the region is left: the windows' arrays at what the pipeline wrote back, every other buffer
    as the region found it. -/
abbrev Wx (c : Dev nD) : Valuation τ sig (Elt F) :=
  Pipeline.withArrays spec0 c (V0 m c) fun w => (dats m 0 c).arrAt w cfg0.N

/-- What the result buffer holds at the end: the nine closing operations applied to the buffers the region left. -/
abbrev finalV15 (c : Dev nD) : Buf (Elt F) ((c : Thread nD τ).loc main_v15) :=
  Pipeline.afterTail₀ cfgs (dats m) 0 (V0 m) [hostOps1] c main_v15

/-! ## The arrays, listed -/

/-- The distinct buffers behind the six windows, one by one: the embedding array once. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v5) ↦{fullShare} W main_v5) ∗ (((c : Thread nD τ).loc main_v6) ↦{fullShare} W main_v6)
          ∗ (((c : Thread nD τ).loc main_v7) ↦{fullShare} W main_v7) ∗ (((c : Thread nD τ).loc main_v8_0) ↦{fullShare} W main_v8_0)
          ∗ (((c : Thread nD τ).loc main_v8_1) ↦{fullShare} W main_v8_1)) := by
  unfold Pipeline.arrBufs
  exact BI.bigSep_eq_bigSepL_of_eq [main_v5, main_v6, main_v7, main_v8_0, main_v8_1] (by decide) (by decide) _

/-- The pipeline's six arrays at contents `G`, window by window, each at the share the proof data holds it at. -/
theorem arrays_eq6 (c : Dev nD) (G : (w : Fin cfg0.W) → Buf (Elt F) ((cfg0.win w).arr.view.loc (c : Thread nD τ))) :
    ((dats m 0 c).arrays G : sProp 𝕄)
      = iprop((((c : Thread nD τ).loc main_v5) ↦{fullShare.left} G 0) ∗ (((c : Thread nD τ).loc main_v5) ↦{fullShare.right} G 1)
          ∗ (((c : Thread nD τ).loc main_v6) ↦{fullShare} G 2) ∗ (((c : Thread nD τ).loc main_v7) ↦{fullShare} G 3)
          ∗ (((c : Thread nD τ).loc main_v8_0) ↦{fullShare} G 4) ∗ (((c : Thread nD τ).loc main_v8_1) ↦{fullShare} G 5)) := by
  unfold Dat.arrays
  rw [bigSep_W0]
  have e : ∀ w : Fin 6, ((spec0 w).arr).view.set = Finset.univ := fun w => (arr_whole0 w).set_eq_univ
  rw [show (cfg0.win 0).arr.view.set = Finset.univ from e 0,
    show (cfg0.win 2).arr.view.set = Finset.univ from e 2, show (cfg0.win 3).arr.view.set = Finset.univ from e 3,
    show (cfg0.win 4).arr.view.set = Finset.univ from e 4, show (cfg0.win 5).arr.view.set = Finset.univ from e 5]
  rfl

/-- An input window's array is never written: at every position it holds the entry contents. -/
theorem arrAt_in0 (c : Dev nD) (n : ℕ) : (dats m 0 c).arrAt 0 n = V m c main_v5 := (dats m 0 c).arrAt_in 0 rfl n
theorem arrAt_in1 (c : Dev nD) (n : ℕ) : (dats m 0 c).arrAt 1 n = V m c main_v5 := (dats m 0 c).arrAt_in 1 rfl n
theorem arrAt_in2 (c : Dev nD) (n : ℕ) : (dats m 0 c).arrAt 2 n = V m c main_v6 := (dats m 0 c).arrAt_in 2 rfl n
theorem arrAt_in3 (c : Dev nD) (n : ℕ) : (dats m 0 c).arrAt 3 n = V m c main_v7 := (dats m 0 c).arrAt_in 3 rfl n

/-- The exit valuation at the arrays: the inputs as found, the two results at what the pipeline wrote back. -/
theorem Wx_v5 (c : Dev nD) : Wx m c (Proc.devRef .tc main_v5) = V m c main_v5 :=
  withArrays_arr_agree spec0 c (V0 m c) _ main_v5 (V m c main_v5) ⟨0, rfl⟩ (by
    intro w; fin_cases w <;> intro e
    · exact arrAt_in0 m c _
    · exact arrAt_in1 m c _
    all_goals exact absurd e (by decide))
theorem Wx_v6 (c : Dev nD) : Wx m c (Proc.devRef .tc main_v6) = V m c main_v6 :=
  (withArrays_arr_of spec0 c (V0 m c) _ 2 (by decide)).trans (arrAt_in2 m c _)
theorem Wx_v7 (c : Dev nD) : Wx m c (Proc.devRef .tc main_v7) = V m c main_v7 :=
  (withArrays_arr_of spec0 c (V0 m c) _ 3 (by decide)).trans (arrAt_in3 m c _)
theorem Wx_v8_0 (c : Dev nD) : Wx m c (Proc.devRef .tc main_v8_0) = (dats m 0 c).arrAt 4 cfg0.N :=
  withArrays_arr_of spec0 c (V0 m c) _ 4 (by decide)
theorem Wx_v8_1 (c : Dev nD) : Wx m c (Proc.devRef .tc main_v8_1) = (dats m 0 c).arrAt 5 cfg0.N :=
  withArrays_arr_of spec0 c (V0 m c) _ 5 (by decide)
/-- Off the arrays the exit valuation is the entry one. -/
theorem Wx_rest (c : Dev nD) (b : Ref sig .tc) (hb : ∀ w, Pipeline.arrRef spec0 w ≠ b) :
    Wx m c (Proc.devRef .tc b) = V m c b :=
  Pipeline.withArrays_of_ne spec0 c (V0 m c) _ b hb

/-! ## The segments -/

abbrev EP : Emb (UR sig nD τ) (MT nD τ sig Unit (Elt F) ℕ (UR sig nD τ) ℕ) := emb₁
abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev 𝒱₀ : Variants := Variants.none

/-- Core `c`'s buffers at launch, as a valuation. -/
abbrev Vl (c : Dev nD) : Valuation τ sig (Elt F) := fun b => m (c, b)

/-- What rides beside the buffers through the host operations: what the core owes (nothing) and the generator register. -/
abbrev R (c : Dev nD) : sProp 𝕄 :=
  iprop((∃ W, owes (c : Thread nD τ) (0 : CellTallies nD τ sig Unit) W) ∗ ∃ r, prngReg c r)

theorem hostOps0_fresh : ∀ op ∈ (hostOps0 : List (HloOp τ sig (Elt F))), op.fresh = ∅ := by
  intro _ h; (repeat (cases h with | head => rfl | tail _ h => ?_)); exact nomatch h
theorem hostOps0_1_fresh : ∀ op ∈ (hostOps0_1 : List (HloOp τ sig (Elt F))), op.fresh = ∅ := by
  intro _ h; (repeat (cases h with | head => rfl | tail _ h => ?_)); exact nomatch h
theorem hostOps1_fresh : ∀ op ∈ (hostOps1 : List (HloOp τ sig (Elt F))), op.fresh = ∅ := by
  intro _ h; (repeat (cases h with | head => rfl | tail _ h => ?_)); exact nomatch h

/-- The row-norm function's five operations, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) hostOps0_fresh (Vl m) R
/-- The eight host operations up to the region. -/
def seg1 : Pipeline.HostSeg (Name := ℕ) (U := UR sig nD τ) (pcfgs (F := F)) defs₀ 𝒱₀ L lv :=
  Pipeline.HostSeg.ofOps _ _ _ _ _ (Pipeline.ucRefs τ sig) hostOps0_1
    (fun op h => Pipeline.sub_ucRefs op ((List.forall_iff_forall_mem.mp hostOps0_1_sub) op h)) hostOps0_1_fresh (fun c => StableHlo.after hostOps0 (Vl m c)) R
/-- The nine host operations after the region. -/
def seg2 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h)) hostOps1_fresh (Wx m) R

/-- The buffers the region is entered with are the two stretches' result. -/
theorem flat_eq : List.flatten [(hostOps0 : List (HloOp τ sig (Elt F))), hostOps0_1] = hostOps0 ++ hostOps0_1 := by
  simp only [List.flatten_cons, List.flatten_nil, List.append_nil]
theorem after_two (c : Dev nD) : StableHlo.after (hostOps0 ++ hostOps0_1) (Vl m c) = StableHlo.after hostOps0_1 (StableHlo.after hostOps0 (Vl m c)) :=
  StableHlo.after_append hostOps0 hostOps0_1 (Vl m c)
theorem V0_flat (c : Dev nD) : V0 m c = StableHlo.after (List.flatten [hostOps0, hostOps0_1]) (Vl m c) := rfl
theorem after_flat (c : Dev nD) : StableHlo.after (List.flatten [hostOps0, hostOps0_1]) (Vl m c) = StableHlo.after (hostOps0 ++ hostOps0_1) (Vl m c) := by
  rw [flat_eq]
theorem V0_eq (c : Dev nD) : StableHlo.after hostOps0_1 (StableHlo.after hostOps0 (Vl m c)) = V0 m c :=
  (after_two m c).symm.trans ((after_flat m c).symm.trans (V0_flat m c).symm)

/-- Unscoped buffers at the exit valuation are the arrays' buffers at their final contents and the rest as found. -/
theorem unscopedBufs_exit (c : Dev nD) :
    (unscopedBufs c (fun b => Wx m c (Proc.devRef .tc b)) : sProp 𝕄)
      = iprop(iprop((((c : Thread nD τ).loc main_v5) ↦{fullShare} V m c main_v5) ∗ (((c : Thread nD τ).loc main_v6) ↦{fullShare} V m c main_v6)
          ∗ (((c : Thread nD τ).loc main_v7) ↦{fullShare} V m c main_v7) ∗ (((c : Thread nD τ).loc main_v8_0) ↦{fullShare} (dats m 0 c).arrAt 4 cfg0.N)
          ∗ (((c : Thread nD τ).loc main_v8_1) ↦{fullShare} (dats m 0 c).arrAt 5 cfg0.N))
        ∗ Pipeline.unscopedRest spec0 c (V m c)) := by
  rw [Pipeline.unscopedBufs_split₀ cfgs 0 winFacts₀0.arr_unscoped c, arrBufs_eq]
  refine congrArg₂ _ ?_ ?_
  · beta_reduce
    rw [Wx_v5, Wx_v6, Wx_v7, Wx_v8_0, Wx_v8_1]
  · unfold Pipeline.unscopedRest
    refine BI.bigSep_congr fun b hb => ?_
    beta_reduce
    rw [Wx_rest m c b fun w e => (Finset.mem_sdiff.mp hb).2 (Finset.mem_image.mpr ⟨w, Finset.mem_univ _, e⟩)]

set_option backward.isDefEq.respectTransparency.types false in
/-- THE REGION, given the body obligation and the invariant's two ends: entered from the buffers the host operations
    left — the embedding array split between the query and the key window, the label arrays and the two result arrays
    whole, the generator register into the invariant, every other buffer bypassing —, left with the results written back. -/
def reg0 (hbody : ∀ c, BodyObligation (dats (F := F) m 0 c) (defs₀ (F := F)) 𝒱₀ () Set.univ)
    (hΦin : ∀ c, (Pipeline.ΦA spec0 c : sProp 𝕄) ⊢ (dats m 0 c).Φ 0)
    (hΦout : ∀ c, (dats m 0 c).Φ (Fin.last cfg0.N) ⊢ (Pipeline.ΦA spec0 c : sProp 𝕄)) :
    Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none spec0
  hbody c := (hbody c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (Wx m c) ∗ R c)
  X c := iprop(∃ r, prngReg c r)
  Y c := iprop(∃ r, prngReg c r)
  Z c := Pipeline.unscopedRest spec0 c (V m c)
  hentry c := by
    rw [show StableHlo.held (c : Thread nD τ) (Pipeline.ucRefs τ sig) (V0 m c) = unscopedBufs c (V m c) from (Pipeline.unscopedBufs_held c _).symm,
      Pipeline.unscopedBufs_split₀ cfgs 0 winFacts₀0.arr_unscoped c, arrBufs_eq, arrays_eq6]
    iintro ⟨⟨⟨⟨H5, H6, H7, H80, H81⟩, Hrest⟩, ⟨HO, Hg⟩⟩, -, -⟩
    ihave H5' := (pointsTo_share (PosShare.mem_left_op_right fullShare)).1 $$ H5
    icases H5' with ⟨H5l, H5r⟩
    imodintro
    isplitl [H5l H5r H6 H7 H80 H81]
    · isplitl [H5l]; · iexact H5l
      isplitl [H5r]; · iexact H5r
      isplitl [H6]; · iexact H6
      isplitl [H7]; · iexact H7
      isplitl [H80]; · iexact H80
      iexact H81
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hg]; · iexact Hg
    iexact Hrest
  hin c := by
    refine BIBase.Entails.trans ?_ (hΦin c)
    unfold Pipeline.ΦA
    iintro ⟨Hg, -, Hr⟩
    isplitl [Hr] <;> iassumption
  hout c := by
    refine (hΦout c).trans ?_
    rw [Pipeline.ownSems0_none]; unfold Pipeline.ΦA
    iintro ⟨Hr, Hg⟩
    isplitl [Hg]; · iexact Hg
    isplitr; · iempintro
    iexact Hr
  hexit c := by
    rw [show StableHlo.held (c : Thread nD τ) (Pipeline.ucRefs τ sig) (Wx m c) = unscopedBufs c (fun b => Wx m c (Proc.devRef .tc b)) from
      (Pipeline.unscopedBufs_held c _).symm, unscopedBufs_exit, arrays_eq6, arrAt_in0, arrAt_in1, arrAt_in2, arrAt_in3]
    iintro ⟨⟨H5l, H5r, H6, H7, H80, H81⟩, HO, Hg, Hrest⟩
    ihave H5 := (pointsTo_share (PosShare.mem_left_op_right fullShare)).2 $$ [H5l H5r]
    · isplitl [H5l] <;> iassumption
    imodintro
    isplitr [HO Hg]
    · isplitl [H5 H6 H7 H80 H81]
      · isplitl [H5]; · iexact H5
        isplitl [H6]; · iexact H6
        isplitl [H7]; · iexact H7
        isplitl [H80]; · iexact H80
        iexact H81
      iexact Hrest
    · isplitl [HO]
      · unfold Pipeline.Dat.owesAt Pipeline.owesWithin
        icases HO with ⟨%W, -, HO⟩; iexists W; iexact HO
      iexact Hg

/-- @main as the list of the four. -/
abbrev segs (hbody : ∀ c, BodyObligation (dats (F := F) m 0 c) (defs₀ (F := F)) 𝒱₀ () Set.univ)
    (hΦin : ∀ c, (Pipeline.ΦA spec0 c : sProp 𝕄) ⊢ (dats m 0 c).Φ 0)
    (hΦout : ∀ c, (dats m 0 c).Φ (Fin.last cfg0.N) ⊢ (Pipeline.ΦA spec0 c : sProp 𝕄)) :
    List (Pipeline.Seg (pcfgs (F := F)) adm (dats m) () defs₀ 𝒱₀ L lv) :=
  [.host (seg0 m), .host (seg1 m), .region (reg0 m hbody hΦin hΦout), .host (seg2 m)]

/-- The physical post: the result buffer at the closing operations' value, both arguments as launched. -/
def QC : PUnit × MemSt nD τ sig (Elt F) → Prop := fun r =>
  ∀ c : Dev nD, r.2.mem ((c : Thread nD τ).loc main_v15) = finalV15 m c
    ∧ r.2.mem ((c : Thread nD τ).loc main_arg0) = m ((c : Thread nD τ).loc main_arg0)
    ∧ r.2.mem ((c : Thread nD τ).loc main_arg1) = m ((c : Thread nD τ).loc main_arg1)

/-! ## The arguments are never written -/

/-- The host operations before the region write neither argument. -/
theorem V_main_arg0 (c : Dev nD) : V m c main_arg0 = m ((c : Thread nD τ).loc main_arg0) := by
  dsimp only [V, V0]
  simp only [hostOps0, hostOps0_1, List.flatten_cons, List.flatten_nil, List.append_nil, List.cons_append, List.nil_append]
  after_results
theorem V_main_arg1 (c : Dev nD) : V m c main_arg1 = m ((c : Thread nD τ).loc main_arg1) := by
  dsimp only [V, V0]
  simp only [hostOps0, hostOps0_1, List.flatten_cons, List.flatten_nil, List.append_nil, List.cons_append, List.nil_append]
  after_results

/-- Nor do the operations after it. -/
theorem tail_arg0 (c : Dev nD) : StableHlo.after hostOps1 (Wx m c) (Proc.devRef .tc main_arg0) = m ((c : Thread nD τ).loc main_arg0) := by
  refine Eq.trans ?_ ((Wx_rest m c main_arg0 (by decide)).trans (V_main_arg0 m c))
  simp only [hostOps1]; after_results
theorem tail_arg1 (c : Dev nD) : StableHlo.after hostOps1 (Wx m c) (Proc.devRef .tc main_arg1) = m ((c : Thread nD τ).loc main_arg1) := by
  refine Eq.trans ?_ ((Wx_rest m c main_arg1 (by decide)).trans (V_main_arg1 m c))
  simp only [hostOps1]; after_results
/-- The result buffer after them is `finalV15`. -/
theorem tail_v15 (c : Dev nD) : StableHlo.after hostOps1 (Wx m c) (Proc.devRef .tc main_v15) = finalV15 m c := by
  unfold finalV15 Pipeline.afterTail₀
  simp only [List.flatten_cons, List.flatten_nil, List.append_nil]

/-! ## The run -/

set_option backward.isDefEq.respectTransparency.types false in
/-- At the compiled mesh, for any float instance, from any memory with zero counters: every weakly fair execution of @main
    terminates, nothing faulting, with the result buffer at the closing operations' value of what the region wrote back
    and both arguments as launched — given the body obligation and the invariant's two ends. -/
theorem run_main_of (hbody : ∀ c, BodyObligation (dats (F := F) m 0 c) (defs₀ (F := F)) 𝒱₀ () Set.univ)
    (hΦin : ∀ c, (Pipeline.ΦA spec0 c : sProp 𝕄) ⊢ (dats m 0 c).Φ 0)
    (hΦout : ∀ c, (dats m 0 c).Φ (Fin.last cfg0.N) ⊢ (Pipeline.ΦA spec0 c : sProp 𝕄)) :
    θ_run defs (onTc (τ := τ) (main (F := F))) (s₀ m ρ) (QC m) :=
  Pipeline.θ_run_regions_kit (pcfgs (F := F)) adm (dats m) () cellOf_inj EP defs₀ 𝒱₀ L lv m ρ main (segs m hbody hΦin hΦout)
    (fun c Q => by rw [main_chain c, Pipeline.Seg.run_eq_chain]; exact .rfl)
    (by simp only [Pipeline.Seg.pipes_host, Pipeline.Seg.pipes_region, Pipeline.Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Vl m c) ∗ R c))
    (Tₙ := fun c => iprop(StableHlo.held (c : Thread nD τ) (Pipeline.ucRefs τ sig) (StableHlo.after hostOps1 (Wx m c)) ∗ ∃ r, prngReg c r))
    (hch := ⟨fun _ => .rfl, fun _ => .rfl, fun c => by
        show iprop(StableHlo.held (c : Thread nD τ) (Pipeline.ucRefs τ sig) (StableHlo.after hostOps0_1 (StableHlo.after hostOps0 (Vl m c))) ∗ R c)
          ⊢ iprop(StableHlo.held (c : Thread nD τ) (Pipeline.ucRefs τ sig) (V0 m c) ∗ R c)
        exact Entails.of_eq (by rw [V0_eq]), fun _ => .rfl, fun c => by
        show iprop(StableHlo.held (c : Thread nD τ) (Pipeline.ucRefs τ sig) (StableHlo.after hostOps1 (Wx m c)) ∗ R c) ⊢ _
        iintro ⟨Hh, HO, Hg⟩
        isplitr [HO]
        · isplitl [Hh] <;> iassumption
        · iexact HO⟩)
    (hinit := by
      refine Pipeline.initEach L lv fun c => ?_
      rw [show unscopedBufs c (fun b => m ((c : Thread nD τ).loc b)) = StableHlo.held (c : Thread nD τ) (Pipeline.ucRefs τ sig) (Vl m c) from
        Pipeline.unscopedBufs_held c (Vl m c)]
      iintro ⟨⟨Hh, -, HO, -, Hg, -⟩, -⟩
      imodintro
      isplitl [Hh]; · iexact Hh
      isplitl [HO]; · iexists ∅; iexact HO
      iexists _; iexact Hg)
    (QY := fun c s => s.mem ((c : Thread nD τ).loc main_v15) = finalV15 m c
      ∧ s.mem ((c : Thread nD τ).loc main_arg0) = m ((c : Thread nD τ).loc main_arg0)
      ∧ s.mem ((c : Thread nD τ).loc main_arg1) = m ((c : Thread nD τ).loc main_arg1))
    (hfin := fun c s' => by
      rw [show StableHlo.held (c : Thread nD τ) (Pipeline.ucRefs τ sig) (StableHlo.after hostOps1 (Wx m c))
          = unscopedBufs c (fun b => StableHlo.after hostOps1 (Wx m c) (Proc.devRef .tc b)) from (Pipeline.unscopedBufs_held c _).symm]
      unfold unscopedBufs
      iintro ⟨⟨Hh, -⟩, HSI⟩
      ihave Hr := (pointsTo_read_all (Finset.univ.filter fun b : Ref sig .tc => ¬ b.isScoped) (fun b => (c : Thread nD τ).loc b)
        (fun b => StableHlo.after hostOps1 (Wx m c) (Proc.devRef .tc b)) s') $$ [Hh HSI]
      · isplitl [Hh] <;> iassumption
      icases Hr with ⟨%hr, HSI⟩
      imodintro
      isplitr
      · ipureintro
        exact ⟨(hr main_v15 (by decide)).trans (tail_v15 m c), (hr main_arg0 (by decide)).trans (tail_arg0 m c), (hr main_arg1 (by decide)).trans (tail_arg1 m c)⟩
      iexact HSI)
    (hQ := fun _ h => h)

end Cert.KernelIdeal.Hand

end
-- ==== Proof.KI.Shared.lean ====
/-
  The contrastive-sums kernel: what the three cases of its body share.

  The body has two conditionals on the key-tile coordinate ki = t mod 8: at ki = 0 it zeroes the two scratch
  accumulators before adding the point's contribution, at ki = 7 it copies them to the two output windows. On the
  8 × 8 grid that makes three kinds of point: ki = 0 (reset, no copy), 0 < ki < 7 (neither), ki = 7 (copy, no reset).
  This module states the two conditions in closed form over the grid; where the two output windows are idle (every
  point with ki ≠ 7: nothing is stored into them and nothing is written back) and where they are live (ki = 7);
  the staging memrefs the body is called with at a point; the pipeline library's invariant `ΦA` with the two scratch buffers
  spelled as memrefs; the accumulation's recursion case by case; and that each of the four input windows' staging
  buffers holds the window's block at every point, fetched there or not.
-/
import proofs.«421592_j76845554860147_3_alg».proof.Proof.KI.Acc
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The body's two conditions -/

/-- The first conditional's condition (the key-tile coordinate is 0: reset the accumulators), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The second conditional's condition (the key-tile coordinate is 7: copy the accumulators out), from the grid coordinates. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- The four input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last key tile the two output windows are idle (the body stores nothing into them) -/
theorem idleAt0_4 : ∀ t : Fin cfg0.N, ¬cond0_1 (grid0.coords t) → cfg0.idle 4 (grid0.coords t) = true := by decide +kernel
theorem idleAt0_5 : ∀ t : Fin cfg0.N, ¬cond0_1 (grid0.coords t) → cfg0.idle 5 (grid0.coords t) = true := by decide +kernel
/-- and the pipeline does not write their blocks back; -/
theorem noFlush0_4 : ∀ t : Fin cfg0.N, ¬cond0_1 (grid0.coords t) → (cfg0.win 4).flush t = false := by decide +kernel
theorem noFlush0_5 : ∀ t : Fin cfg0.N, ¬cond0_1 (grid0.coords t) → (cfg0.win 5).flush t = false := by decide +kernel
/-- at the last key tile they are live (the body stores the accumulators into them). -/
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The memrefs the body is called with -/

/-- Each window's current staging memref at point `t`, spelled as the pipeline passes it, and its wholeness. -/
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)

/-- The pipeline library's invariant `ΦA` with the two scratch operands as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## The accumulation, case by case -/

/-- At the first key tile of a query tile the accumulators are one step from the zero vectors. -/
theorem accAt_A (c : Dev nD) (t : Fin cfg0.N) (h0 : t.val % 8 = 0) :
    accAt m c t.val t.isLt = accStep m c t (k0_pay2 (F := F), k0_pay3 (F := F)) := by
  obtain ⟨n, hn⟩ := t
  cases n with
  | zero => rfl
  | succ n => exact if_pos h0

/-- At any other key tile they are one step from what the point before left. -/
theorem accAt_B (c : Dev nD) (t : Fin cfg0.N) (h0 : ¬t.val % 8 = 0) :
    accAt m c t.val t.isLt = accStep m c t (accAt m c (t.val - 1) (Nat.lt_of_le_of_lt (Nat.sub_le _ _) t.isLt)) := by
  obtain ⟨n, hn⟩ := t
  cases n with
  | zero => exact absurd (Nat.zero_mod _) h0
  | succ n => exact if_neg h0

/-- The same, accumulator by accumulator, with the step written out. -/
theorem accAt_A_1 (c : Dev nD) (t : Fin cfg0.N) (h0 : t.val % 8 = 0) :
    (accAt m c t.val t.isLt).1 = k0_pay6 (qblk m c t) (kblk m c t) (k0_pay2 (F := F)) := by
  rw [accAt_A m c t h0]; rfl
theorem accAt_A_2 (c : Dev nD) (t : Fin cfg0.N) (h0 : t.val % 8 = 0) :
    (accAt m c t.val t.isLt).2
      = k0_pay1 (k0_pay4 (F := F) (grid0.coords t) (lqblk m c t) (lkblk m c t)) (k0_pay5 (qblk m c t) (kblk m c t)) (k0_pay3 (F := F)) := by
  rw [accAt_A m c t h0]; rfl
theorem accAt_B_1 (c : Dev nD) (t : Fin cfg0.N) (h0 : ¬t.val % 8 = 0) :
    (accAt m c t.val t.isLt).1
      = k0_pay6 (qblk m c t) (kblk m c t) (accAt m c (t.val - 1) (Nat.lt_of_le_of_lt (Nat.sub_le _ _) t.isLt)).1 := by
  rw [accAt_B m c t h0]; rfl
theorem accAt_B_2 (c : Dev nD) (t : Fin cfg0.N) (h0 : ¬t.val % 8 = 0) :
    (accAt m c t.val t.isLt).2
      = k0_pay1 (k0_pay4 (F := F) (grid0.coords t) (lqblk m c t) (lkblk m c t)) (k0_pay5 (qblk m c t) (kblk m c t))
          (accAt m c (t.val - 1) (Nat.lt_of_le_of_lt (Nat.sub_le _ _) t.isLt)).2 := by
  rw [accAt_B m c t h0]; rfl

/-! ## A whole-buffer store -/

/-- The zero offsets of a whole-buffer rectangle of rank 2, however the zeros are spelt. -/
theorem hz : (![0, 0] : Fin 2 → Nat) = fun _ => 0 := funext fun a => by fin_cases a <;> rfl

/-- A store through the whole-shape rectangle at zero offsets, made last, leaves its payload: whatever was written
    before it and whatever the buffer held. -/
theorem read_writes_unit_zero {sig' : RefSig} {κ : Kind} {sp : Space} {S : Shape} {e : EltTy} (v : View sig' κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

/-! ## The input windows' buffers hold their blocks -/

/-- An input window's current staging buffer holds its block at every point, fetched there or not, for any proof data
    whose array is the region-entry contents and whose body leaves the block in place: unfetched, the block index
    has not moved. The four windows in turn. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Hand

end
-- ==== Proof.KI.BodyPhi.lean ====
/-
  The contrastive-sums kernel: the region invariant and the proof data of its pipeline, field by field.

  Between two grid points the invariant holds the two scratch accumulators at what the point before left (`accAt`);
  before the first point and after the last it is the pipeline library's own `ΦA`, the accumulators at anything. The proof data's
  arrays are the region-entry contents; each input window's staging buffer holds its block at every point and the body
  hands it back so; at the last key tile of a query tile the body leaves the two accumulators in the output windows.
-/
import proofs.«421592_j76845554860147_3_alg».proof.Proof.KI.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The invariant between points -/

theorem PhiS_zero (c : Dev nD) (n : ℕ) (h : n ≤ cfg0.N) (hz : n = 0) : PhiS m c n h = Pipeline.ΦA spec0 c := by
  subst hz; rfl

/-- After point `n` (before point `n + 1`): the two accumulators at that point's contents. -/
theorem PhiS_succ (c : Dev nD) (n : ℕ) (hn : n < cfg0.N) :
    PhiS m c (n + 1) hn = iprop(iprop(owns (c : Thread nD τ) scM0 fullShare ((accAt m c n hn).1) ∗ owns (c : Thread nD τ) scM1 fullShare ((accAt m c n hn).2)) ∗ (∃ r, prngReg c r)) := rfl

/-- Before a point that is not the first: the two accumulators at what the point before left. -/
theorem PhiS_pos (c : Dev nD) (n : ℕ) (h : n ≤ cfg0.N) (hz : n ≠ 0) :
    PhiS m c n h = iprop(iprop(owns (c : Thread nD τ) scM0 fullShare ((accAt m c (n - 1) (by omega)).1) ∗ owns (c : Thread nD τ) scM1 fullShare ((accAt m c (n - 1) (by omega)).2)) ∗ (∃ r, prngReg c r)) := by
  cases n with
  | zero => exact absurd rfl hz
  | succ n => rfl

/-! ## The proof data, field by field -/

/-- The proof data's arrays are the region-entry contents. -/
theorem A_eq (c : Dev nD) (w : Fin cfg0.W) : (dats m 0 c).A w = V m c (Pipeline.arrRef spec0 w) := by
  dsimp only [dats]

/-- The invariant at a point's start, restated at the point's position. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (accAt m c t.val t.isLt).1 := by dsimp only [dats]
theorem after0_5 (c : Dev nD) (t : Fin cfg0.N) : (dats m 0 c).after 5 t = (accAt m c t.val t.isLt).2 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The inputs are never idle: the body hands each buffer back at its block. -/
theorem leaves0_0 (c : Dev nD) (t : Fin cfg0.N) : (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [liveAt0_0 t], after0_0]
theorem leaves0_1 (c : Dev nD) (t : Fin cfg0.N) : (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [liveAt0_1 t], after0_1]
theorem leaves0_2 (c : Dev nD) (t : Fin cfg0.N) : (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [liveAt0_2 t], after0_2]
theorem leaves0_3 (c : Dev nD) (t : Fin cfg0.N) : (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [liveAt0_3 t], after0_3]
/-- At the last key tile the outputs are live: the body leaves the accumulators in them. -/
theorem leaves0_4_live (c : Dev nD) (t : Fin cfg0.N) (hc1 : cond0_1 (grid0.coords t)) :
    (dats m 0 c).leavesExact 4 t = owns (c : Thread nD τ) (ms0_4 t) fullShare ((accAt m c t.val t.isLt).1) := by
  rw [show (dats m 0 c).leavesExact 4 t = owns (c : Thread nD τ) (ms0_4 t) fullShare ((dats m 0 c).after 4 t) from by
    unfold Dat.leavesExact; rw [liveAt0_4 t hc1], after0_4]
theorem leaves0_5_live (c : Dev nD) (t : Fin cfg0.N) (hc1 : cond0_1 (grid0.coords t)) :
    (dats m 0 c).leavesExact 5 t = owns (c : Thread nD τ) (ms0_5 t) fullShare ((accAt m c t.val t.isLt).2) := by
  rw [show (dats m 0 c).leavesExact 5 t = owns (c : Thread nD τ) (ms0_5 t) fullShare ((dats m 0 c).after 5 t) from by
    unfold Dat.leavesExact; rw [liveAt0_5 t hc1], after0_5]

/-! ## Entering and leaving the region -/

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the pipeline library's `ΦA` back: what the accumulators hold is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

end Cert.KernelIdeal.Hand

end
-- ==== Proof.KI.RunA.lean ====
/-
  The contrastive-sums kernel's body at a point of the first key tile (ki = 0: the reset is taken, the copy-out is not).

  On whole memrefs — the four inputs' at their blocks, the two outputs' at whatever they hold, the two scratch
  accumulators' at anything — the body runs to the continuation with the inputs and the outputs as they were and the
  accumulators at one step from zero: the first at the column sums of exp(k·qᵀ·1/T) added to the zero vector, the second
  at the column sums of the kept entries added to the zero vector. Each accumulator is stored whole twice (the zero fill,
  then the update, which reads the zero fill back), so what it ends with is the last store's payload.
-/
import proofs.«421592_j76845554860147_3_alg».proof.Proof.KI.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body's triple at a point with ki = 0. -/
theorem kernelRun0_A (c : Dev nD) (i : grid0.Coords)
    (arg2 : Memref sig .tc .vmem S1024x1024 .bf16) (harg2 : arg2.IsWhole) (arg3 : Memref sig .tc .vmem S1024x1024 .bf16) (harg3 : arg3.IsWhole)
    (arg4 : Memref sig .tc .vmem S1x1024 .i32) (harg4 : arg4.IsWhole) (arg5 : Memref sig .tc .vmem S1024x1 .i32) (harg5 : arg5.IsWhole)
    (arg6 : Memref sig .tc .vmem S1x1024 .f32) (harg6 : arg6.IsWhole) (arg7 : Memref sig .tc .vmem S1x1024 .f32) (harg7 : arg7.IsWhole)
    (arg8 : Memref sig .tc .vmem S1x1024 .f32) (harg8 : arg8.IsWhole) (arg9 : Memref sig .tc .vmem S1x1024 .f32) (harg9 : arg9.IsWhole)
    (xq xk : Vec F S1024x1024 .bf16) (xlq : Vec F S1x1024 .i32) (xlk : Vec F S1024x1 .i32)
    (hc0 : cond0_0 i) (hc1 : ¬cond0_1 i) (xi6 xi7 : Vec F S1x1024 .f32)
    (E : Set ℕ) (K : PUnit → sProp 𝕄) :
    iprop(owns (c : Thread nD τ) arg2 fullShare xq ∗ owns (c : Thread nD τ) arg3 fullShare xk ∗ owns (c : Thread nD τ) arg4 fullShare xlq ∗ owns (c : Thread nD τ) arg5 fullShare xlk
        ∗ owns (c : Thread nD τ) arg6 fullShare xi6 ∗ owns (c : Thread nD τ) arg7 fullShare xi7
        ∗ (∃ d, owns (c : Thread nD τ) arg8 fullShare d) ∗ (∃ d, owns (c : Thread nD τ) arg9 fullShare d)
        ∗ (iprop(owns (c : Thread nD τ) arg2 fullShare xq ∗ owns (c : Thread nD τ) arg3 fullShare xk ∗ owns (c : Thread nD τ) arg4 fullShare xlq ∗ owns (c : Thread nD τ) arg5 fullShare xlk
            ∗ owns (c : Thread nD τ) arg6 fullShare xi6 ∗ owns (c : Thread nD τ) arg7 fullShare xi7
            ∗ owns (c : Thread nD τ) arg8 fullShare (k0_pay6 xq xk (k0_pay2 (F := F)))
            ∗ owns (c : Thread nD τ) arg9 fullShare (k0_pay1 (k0_pay4 (F := F) i xlq xlk) (k0_pay5 xq xk) (k0_pay3 (F := F)))) -∗ K ⟨⟩))
      ⊢ wp frame (wpE (defs₀ (F := F)) Variants.none c none) E
          (cc0__contrastive_kernel i arg2 harg2 arg3 harg3 arg4 harg4 arg5 harg5 arg6 harg6 arg7 harg7 arg8 harg8 arg9 harg9) K := by
  simp only [cc0__contrastive_kernel_eq_skeleton]; unfold cc0__contrastive_kernel_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  obtain rfl := harg2.eq_unread hf2; obtain rfl := harg3.eq_unread hf3
  obtain rfl := harg4.eq_unread hf4; obtain rfl := harg5.eq_unread hf5
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact hf6
    iexact H6
  isplitl [H7]
  · iexists _; isplitr; · ipureintro; exact hf7
    iexact H7
  isplitl [H8]
  · iexists _; isplitr
    swap; · iexact H8
    ipureintro
    sl_unfold_words
    refine (read_writes_unit_zero _ _ hz _ _ _).trans ?_
    simp only [View.readAt_eq_ld, harg2.read_unread, harg3.read_unread, View.ld_unit_zero (S := S1024x1024) hz,
      View.readCov_unit_zero (S := S1x1024) _ hz]
  · iexists _; isplitr
    swap; · iexact H9
    ipureintro
    sl_unfold_words
    refine (read_writes_unit_zero _ _ hz _ _ _).trans ?_
    simp only [View.readAt_eq_ld, harg2.read_unread, harg3.read_unread, harg4.read_unread, harg5.read_unread,
      View.ld_unit_zero (S := S1024x1024) hz, View.ld_unit_zero (S := S1x1024) hz, View.ld_unit_zero (S := S1024x1) hz,
      View.readCov_unit_zero (S := S1x1024) _ hz]

end Cert.KernelIdeal.Hand

end
-- ==== Proof.KI.RunB.lean ====
/-
  The contrastive-sums kernel's body at a point that is neither the first nor the last key tile of its query tile.

  Nothing is reset and nothing is copied out: the body loads the query tile, the key tile and the two label tiles,
  adds to the first scratch row vector the column sums of exp(sim · 1/T) over the tile's key rows, and to the second
  the same sums over the kept key rows only. Stated over any eight whole memrefs: from the four inputs at their
  contents, the two output buffers at any contents and the two scratch buffers at what the point before left, the body
  runs to the four inputs and the two output buffers as they were and the two scratch buffers at one step of the
  accumulation.
-/
import proofs.«421592_j76845554860147_3_alg».proof.Proof.KI.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- THE BODY AT A MIDDLE KEY TILE: both conditionals not taken. -/
theorem kernelRun0_B (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1x1024 .i32) (harg4 : arg4.IsWhole) (arg5 : Memref sig .tc .vmem S1024x1 .i32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole)
    (xq xk : Vec F S1024x1024 .bf16) (xlq : Vec F S1x1024 .i32) (xlk : Vec F S1024x1 .i32) (hc0 : ¬cond0_0 i) (hc1 : ¬cond0_1 i)
    (xi6 xi7 xs0 xs1 : Vec F S1x1024 .f32) (E : Set ℕ) (K : PUnit → sProp 𝕄) :
    iprop(owns (c : Thread nD τ) arg2 fullShare xq ∗ owns (c : Thread nD τ) arg3 fullShare xk ∗ owns (c : Thread nD τ) arg4 fullShare xlq ∗ owns (c : Thread nD τ) arg5 fullShare xlk ∗ owns (c : Thread nD τ) arg6 fullShare xi6 ∗ owns (c : Thread nD τ) arg7 fullShare xi7 ∗ owns (c : Thread nD τ) arg8 fullShare xs0 ∗ owns (c : Thread nD τ) arg9 fullShare xs1
        ∗ (iprop(owns (c : Thread nD τ) arg2 fullShare xq ∗ owns (c : Thread nD τ) arg3 fullShare xk ∗ owns (c : Thread nD τ) arg4 fullShare xlq ∗ owns (c : Thread nD τ) arg5 fullShare xlk ∗ owns (c : Thread nD τ) arg6 fullShare xi6 ∗ owns (c : Thread nD τ) arg7 fullShare xi7
            ∗ owns (c : Thread nD τ) arg8 fullShare (k0_pay6 xq xk xs0) ∗ owns (c : Thread nD τ) arg9 fullShare (k0_pay1 (k0_pay4 i xlq xlk) (k0_pay5 xq xk) xs1)) -∗ K ⟨⟩))
      ⊢ wp frame (wpE (defs₀ (F := F)) Variants.none c none) E (cc0__contrastive_kernel i arg2 harg2 arg3 harg3 arg4 harg4 arg5 harg5 arg6 harg6 arg7 harg7 arg8 harg8 arg9 harg9) K := by
  simp only [cc0__contrastive_kernel_eq_skeleton]; unfold cc0__contrastive_kernel_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5
  obtain rfl := harg8.eq_unread hf8; obtain rfl := harg9.eq_unread hf9
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists f6; isplitr; · ipureintro; exact hf6
    iexact H6
  isplitl [H7]
  · iexists f7; isplitr; · ipureintro; exact hf7
    iexact H7
  isplitl [H8]
  · iexists _; isplitr
    rotate_left
    · iexact H8
    · ipureintro
      try sl_unfold_words
      refine (read_writes_unit_zero _ _ hz _ _ _).trans ?_
      simp only [View.readAt_eq_ld, harg2.read_unread, harg3.read_unread, harg4.read_unread, harg5.read_unread, harg8.read_unread, harg9.read_unread,
        View.readCov_unit_zero (S := S1x1024) _ hz, View.ld_unit_zero (S := S1024x1024) hz, View.ld_unit_zero (S := S1x1024) hz, View.ld_unit_zero (S := S1024x1) hz]
  · iexists _; isplitr
    rotate_left
    · iexact H9
    · ipureintro
      try sl_unfold_words
      refine (read_writes_unit_zero _ _ hz _ _ _).trans ?_
      simp only [View.readAt_eq_ld, harg2.read_unread, harg3.read_unread, harg4.read_unread, harg5.read_unread, harg8.read_unread, harg9.read_unread,
        View.readCov_unit_zero (S := S1x1024) _ hz, View.ld_unit_zero (S := S1024x1024) hz, View.ld_unit_zero (S := S1x1024) hz, View.ld_unit_zero (S := S1024x1) hz]

end Cert.KernelIdeal.Hand

end
-- ==== Proof.KI.RunC.lean ====
/-
  The contrastive-sums kernel's body at the last key tile of a query tile (and not the first).

  Nothing is reset: the body adds the point's column sums to the two scratch row vectors as at every point, and then
  copies each scratch vector to its output buffer. Stated over any eight whole memrefs: from the four inputs at their
  contents, the two output buffers at anything and the two scratch buffers at what the point before left, the body
  runs to the four inputs as they were, and the two scratch buffers and the two output buffers at one step of the
  accumulation.
-/
import proofs.«421592_j76845554860147_3_alg».proof.Proof.KI.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- THE BODY AT THE LAST KEY TILE: the reset not taken, the copy to the two outputs taken. -/
theorem kernelRun0_C (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1x1024 .i32) (harg4 : arg4.IsWhole) (arg5 : Memref sig .tc .vmem S1024x1 .i32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole)
    (xq xk : Vec F S1024x1024 .bf16) (xlq : Vec F S1x1024 .i32) (xlk : Vec F S1024x1 .i32) (hc0 : ¬cond0_0 i) (hc1 : cond0_1 i)
    (xs0 xs1 : Vec F S1x1024 .f32) (E : Set ℕ) (K : PUnit → sProp 𝕄) :
    iprop(owns (c : Thread nD τ) arg2 fullShare xq ∗ owns (c : Thread nD τ) arg3 fullShare xk ∗ owns (c : Thread nD τ) arg4 fullShare xlq ∗ owns (c : Thread nD τ) arg5 fullShare xlk ∗ (∃ d, owns (c : Thread nD τ) arg6 fullShare d) ∗ (∃ d, owns (c : Thread nD τ) arg7 fullShare d) ∗ owns (c : Thread nD τ) arg8 fullShare xs0 ∗ owns (c : Thread nD τ) arg9 fullShare xs1
        ∗ (iprop(owns (c : Thread nD τ) arg2 fullShare xq ∗ owns (c : Thread nD τ) arg3 fullShare xk ∗ owns (c : Thread nD τ) arg4 fullShare xlq ∗ owns (c : Thread nD τ) arg5 fullShare xlk ∗ owns (c : Thread nD τ) arg6 fullShare (k0_pay6 xq xk xs0) ∗ owns (c : Thread nD τ) arg7 fullShare (k0_pay1 (k0_pay4 i xlq xlk) (k0_pay5 xq xk) xs1)
            ∗ owns (c : Thread nD τ) arg8 fullShare (k0_pay6 xq xk xs0) ∗ owns (c : Thread nD τ) arg9 fullShare (k0_pay1 (k0_pay4 i xlq xlk) (k0_pay5 xq xk) xs1)) -∗ K ⟨⟩))
      ⊢ wp frame (wpE (defs₀ (F := F)) Variants.none c none) E (cc0__contrastive_kernel i arg2 harg2 arg3 harg3 arg4 harg4 arg5 harg5 arg6 harg6 arg7 harg7 arg8 harg8 arg9 harg9) K := by
  simp only [cc0__contrastive_kernel_eq_skeleton]; unfold cc0__contrastive_kernel_skel
  simp only [k0_part1_eq_skeleton]
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5
  obtain rfl := harg8.eq_unread hf8; obtain rfl := harg9.eq_unread hf9
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    rotate_left
    · iexact H6
    · ipureintro
      try sl_unfold_words
      refine (read_writes_unit_zero _ _ hz _ _ _).trans ?_
      simp only [View.readAt_eq_ld, harg2.read_unread, harg3.read_unread, harg4.read_unread, harg5.read_unread, harg8.read_unread, harg9.read_unread,
        View.readCov_unit_zero (S := S1x1024) _ hz, View.ld_unit_zero (S := S1024x1024) hz, View.ld_unit_zero (S := S1x1024) hz, View.ld_unit_zero (S := S1024x1) hz]
  isplitl [H7]
  · iexists _; isplitr
    rotate_left
    · iexact H7
    · ipureintro
      try sl_unfold_words
      refine (read_writes_unit_zero _ _ hz _ _ _).trans ?_
      simp only [View.readAt_eq_ld, harg2.read_unread, harg3.read_unread, harg4.read_unread, harg5.read_unread, harg8.read_unread, harg9.read_unread,
        View.readCov_unit_zero (S := S1x1024) _ hz, View.ld_unit_zero (S := S1024x1024) hz, View.ld_unit_zero (S := S1x1024) hz, View.ld_unit_zero (S := S1024x1) hz]
  isplitl [H8]
  · iexists _; isplitr
    rotate_left
    · iexact H8
    · ipureintro
      try sl_unfold_words
      refine (read_writes_unit_zero _ _ hz _ _ _).trans ?_
      simp only [View.readAt_eq_ld, harg2.read_unread, harg3.read_unread, harg4.read_unread, harg5.read_unread, harg8.read_unread, harg9.read_unread,
        View.readCov_unit_zero (S := S1x1024) _ hz, View.ld_unit_zero (S := S1024x1024) hz, View.ld_unit_zero (S := S1x1024) hz, View.ld_unit_zero (S := S1024x1) hz]
  · iexists _; isplitr
    rotate_left
    · iexact H9
    · ipureintro
      try sl_unfold_words
      refine (read_writes_unit_zero _ _ hz _ _ _).trans ?_
      simp only [View.readAt_eq_ld, harg2.read_unread, harg3.read_unread, harg4.read_unread, harg5.read_unread, harg8.read_unread, harg9.read_unread,
        View.readCov_unit_zero (S := S1x1024) _ hz, View.ld_unit_zero (S := S1024x1024) hz, View.ld_unit_zero (S := S1x1024) hz, View.ld_unit_zero (S := S1024x1) hz]

end Cert.KernelIdeal.Hand

end
-- ==== Proof.KI.Body.lean ====
/-
  The contrastive-sums kernel: the body obligation of its pipeline.

  At every grid point the body, called on the windows' current staging buffers and the two scratch accumulators, takes
  the region invariant before the point to the invariant after it: the four input buffers hold their blocks and are
  handed back as they were; the accumulators go from what the point before left (from anything at a query tile's first
  key tile, where they are reset) to one step further (`accAt`); the two output buffers are untouched away from the last
  key tile (idle there, and not written back) and hold the accumulators at the last key tile. Three cases by the key-tile
  coordinate, each closed by that case's run of the body.
-/
import proofs.«421592_j76845554860147_3_alg».proof.Proof.KI.BodyPhi
import proofs.«421592_j76845554860147_3_alg».proof.Proof.KI.RunA
import proofs.«421592_j76845554860147_3_alg».proof.Proof.KI.RunB
import proofs.«421592_j76845554860147_3_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point: the inputs' memrefs hold their blocks; the key-tile coordinate says which case the point is in;
    the invariant hands the body the two accumulators at what the point before left (at anything at the very first point)
    and takes them back one step further; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3]
  have hN : t.val < 64 := lt_of_lt_of_eq t.isLt (show cfg0.N = 64 from N_0)
  by_cases h0 : t.val % 8 = 0
  · have hc0 : cond0_0 (grid0.coords t) := (hcond0_0 t).mpr h0
    have hc1 : ¬cond0_1 (grid0.coords t) := fun h => by have := (hcond0_1 t).mp h; omega
    rw [Dat.leavesExact_idle (dats m 0 c) 4 t (idleAt0_4 t hc1) (noFlush0_4 t hc1),
      Dat.leavesExact_idle (dats m 0 c) 5 t (idleAt0_5 t hc1) (noFlush0_5 t hc1)]
    rw [accAt_A_1 m c t h0, accAt_A_2 m c t h0]
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply (kernelRun0_A c (grid0.coords t) _ _ _ _ _ _ _ _ _ _ _ _ _ _ _ _ (qblk m c t) (kblk m c t) (lqblk m c t) (lkblk m c t) hc0 hc1 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply (kernelRun0_A c (grid0.coords t) _ _ _ _ _ _ _ _ _ _ _ _ _ _ _ _ (qblk m c t) (kblk m c t) (lqblk m c t) (lkblk m c t) hc0 hc1 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hc0 : ¬cond0_0 (grid0.coords t) := fun h => h0 ((hcond0_0 t).mp h)
    have hz : t.val ≠ 0 := fun e => h0 (by omega)
    by_cases h1 : t.val % 8 = 7
    · have hc1 : cond0_1 (grid0.coords t) := (hcond0_1 t).mpr h1
      rw [leaves0_4_live m c t hc1, leaves0_5_live m c t hc1]
      rw [accAt_B_1 m c t h0, accAt_B_2 m c t h0]
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply (kernelRun0_C c (grid0.coords t) _ _ _ _ _ _ _ _ _ _ _ _ _ _ _ _ (qblk m c t) (kblk m c t) (lqblk m c t) (lkblk m c t) hc0 hc1 _ _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond0_1 (grid0.coords t) := fun h => h1 ((hcond0_1 t).mp h)
      rw [Dat.leavesExact_idle (dats m 0 c) 4 t (idleAt0_4 t hc1) (noFlush0_4 t hc1),
        Dat.leavesExact_idle (dats m 0 c) 5 t (idleAt0_5 t hc1) (noFlush0_5 t hc1)]
      rw [accAt_B_1 m c t h0, accAt_B_2 m c t h0]
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply (kernelRun0_B c (grid0.coords t) _ _ _ _ _ _ _ _ _ _ _ _ _ _ _ _ (qblk m c t) (kblk m c t) (lqblk m c t) (lkblk m c t) hc0 hc1 _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Run.lean ====
/-
  The contrastive-sums program's run with nothing left assumed: the launch of KI/Launch.lean at the body obligation and the
  invariant's two ends of KI/Body.lean.
-/
import proofs.«421592_j76845554860147_3_alg».proof.Proof.KI.Launch
import proofs.«421592_j76845554860147_3_alg».proof.Proof.KI.Body

noncomputable section

namespace Cert.KernelIdeal.Hand

open Cert.KernelIdeal Cert.KernelIdeal.Gen
open Idealize.ShloMosaic Idealize.ShloMosaic.TcCoe Idealize.SL.Sem

variable {F : FTy → Type} [FloatOps F] [Named F]

/-- Every weakly fair execution of @main terminates, nothing faulting, with the result buffer at `finalV15` and both
    arguments as launched. -/
theorem run_main (m : (ℓ : Loc nD τ sig) → Buf (Elt F) ℓ) (ρ : Dev nD → PrngReg) :
    θ_run defs (onTc (τ := τ) (main (F := F))) (s₀ m ρ) (QC m) :=
  run_main_of m ρ (body_obligation m) (hin m) (hout m)

end Cert.KernelIdeal.Hand

end
-- ==== Proof.KI.ValuePay.lean ====
/-
  The contrastive-sums kernel, its body's arithmetic read one entry at a time, on the extended reals.

  A grid point holds a query tile `q` and a key tile `k` of 1024 unit rows each. The body forms the 1024 × 1024
  matrix of inner products with the KEY row first, `s r c = Σ_d k r d · q c d`, scales it by the reciprocal
  temperature, exponentiates, and adds each column's sum over the key rows `r` to a running row vector. The second
  running vector adds only the entries the mask keeps: key row and query row carry one label and are not one row of
  the whole array. This module proves, for each of the body's named values, what it holds at an index:

    * `pay5_apply`  the exponentials `exp (s r c · 1/T)`;
    * `pay6_apply`  the first accumulator's step, the old entry plus the column's sum;
    * `pay1_apply`  the second accumulator's step, the old entry plus the column's kept sum;
    * `pay4_apply`  when the mask is set;
    * `pay2_apply`, `pay3_apply`  the reset values, zero.
-/
import proofs.«421592_j76845554860147_3_alg».proof.Proof.Gen.KernelIdeal.Skeleton
import Idealize.ShloMosaic.Lib.ValueIdx
import Idealize.ShloMosaic.Lib.Pipeline.Value
import Idealize.ShloMosaic.PureOps.Ideal.Laws
import Idealize.ShloMosaic.PureOps.IdealRules

set_option maxRecDepth 16384

noncomputable section

namespace Cert.KernelIdeal.Hand

open Cert.KernelIdeal Cert.KernelIdeal.Gen
open Idealize.ShloMosaic Idealize.ShloMosaic.ValueIdx

/-! ## The scale constant -/

/-- The reciprocal of the temperature's 32-bit value 9395241 / 2^27. -/
abbrev invTemp : EReal := ((134217728 / 9395241 : ℝ) : EReal)

/-- The named scale constant denotes the reciprocal of the temperature's 32-bit value. -/
theorem inv_temperature :
    Named.named (F := Ideal) κ "inv_temperature" (φ := .f32) 0x41649249#32 = invTemp :=
  IdealRules.named_const.ideal_named_scalar _ _ _ _ rfl

/-! ## The product of the key tile with the query tile -/

/-- The left operand's row is the result's row. -/
theorem lhs_kq_0 (i : S1024x1024.Idx) (p : dot_S1024x1024_S1024x1024_S1024x1024_1_1_0_0_n_n.contr.Idx) :
    (dot_S1024x1024_S1024x1024_S1024x1024_1_1_0_0_n_n.lhsIdx i p 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
/-- The left operand's column is the contraction position. -/
theorem lhs_kq_1 (i : S1024x1024.Idx) (p : dot_S1024x1024_S1024x1024_S1024x1024_1_1_0_0_n_n.contr.Idx) :
    (dot_S1024x1024_S1024x1024_S1024x1024_1_1_0_0_n_n.lhsIdx i p 1).val = (p ⟨0, by decide⟩).val :=
  dot_S1024x1024_S1024x1024_S1024x1024_1_1_0_0_n_n.lhsIdx_val_of_single rfl i p
/-- The right operand's row is the result's column. -/
theorem rhs_kq_0 (i : S1024x1024.Idx) (p : dot_S1024x1024_S1024x1024_S1024x1024_1_1_0_0_n_n.contr.Idx) :
    (dot_S1024x1024_S1024x1024_S1024x1024_1_1_0_0_n_n.rhsIdx i p 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
/-- The right operand's column is the contraction position. -/
theorem rhs_kq_1 (i : S1024x1024.Idx) (p : dot_S1024x1024_S1024x1024_S1024x1024_1_1_0_0_n_n.contr.Idx) :
    (dot_S1024x1024_S1024x1024_S1024x1024_1_1_0_0_n_n.rhsIdx i p 1).val = (p ⟨0, by decide⟩).val :=
  dot_S1024x1024_S1024x1024_S1024x1024_1_1_0_0_n_n.rhsIdx_val_of_single rfl i p

/-- Into the zero accumulator, the product of the key tile (left) with the query tile (right), both contracted along
    their columns, holds at (r, c) the inner product of key row `r` with query row `c`. -/
theorem matmul_kq (k q : FVec Ideal S1024x1024 .bf16) (r c : Fin 1024) :
    matmul dot_S1024x1024_S1024x1024_S1024x1024_1_1_0_0_n_n none k q (constant (F := Ideal) S1024x1024 .f32 0x00000000#32) (ix2 r c)
      = ∑ d : Fin 1024, k (ix2 r d) * q (ix2 c d) := by
  show FloatOps.matmul dot_S1024x1024_S1024x1024_S1024x1024_1_1_0_0_n_n none k q (constant (F := Ideal) S1024x1024 .f32 0x00000000#32) (ix2 r c) = _
  rw [Ideal.matmul_constant_zero_apply, ← Equiv.sum_comp (ValueIdx.contrEquiv1 dot_S1024x1024_S1024x1024_S1024x1024_1_1_0_0_n_n 1024 rfl rfl).symm]
  refine Finset.sum_congr rfl fun d _ => ?_
  have hk := ValueIdx.contrEquiv1_symm_val dot_S1024x1024_S1024x1024_S1024x1024_1_1_0_0_n_n 1024 rfl rfl d
  have el : dot_S1024x1024_S1024x1024_S1024x1024_1_1_0_0_n_n.lhsIdx (ix2 r c) ((ValueIdx.contrEquiv1 dot_S1024x1024_S1024x1024_S1024x1024_1_1_0_0_n_n 1024 rfl rfl).symm d) = ix2 r d := funext fun a => Fin.ext (by
    match a with
    | ⟨0, _⟩ => exact lhs_kq_0 _ _
    | ⟨1, _⟩ => exact (lhs_kq_1 _ _).trans hk)
  have er : dot_S1024x1024_S1024x1024_S1024x1024_1_1_0_0_n_n.rhsIdx (ix2 r c) ((ValueIdx.contrEquiv1 dot_S1024x1024_S1024x1024_S1024x1024_1_1_0_0_n_n 1024 rfl rfl).symm d) = ix2 c d := funext fun a => Fin.ext (by
    match a with
    | ⟨0, _⟩ => exact rhs_kq_0 _ _
    | ⟨1, _⟩ => exact (rhs_kq_1 _ _).trans hk)
  rw [el, er]

/-! ## The exponentials -/

/-- Entry (r, c) of the exponentials: `exp` of the inner product of key row `r` with query row `c`, times the
    reciprocal temperature. -/
theorem pay5_apply (q k : FVec Ideal S1024x1024 .bf16) (r c : Fin 1024) :
    k0_pay5 (F := Ideal) q k (ix2 r c) = Ideal.exp ((∑ d : Fin 1024, k (ix2 r d) * q (ix2 c d)) * invTemp) := by
  unfold k0_pay5
  show Ideal.exp (matmul dot_S1024x1024_S1024x1024_S1024x1024_1_1_0_0_n_n none (shapeCast S1024x1024 k shapeCasts_S1024x1024_S1024x1024) (shapeCast S1024x1024 q shapeCasts_S1024x1024_S1024x1024) (constant (F := Ideal) S1024x1024 .f32 0x00000000#32) (ix2 r c)
      * Named.named (F := Ideal) κ "inv_temperature" (φ := .f32) 0x41649249#32) = _
  have e_k : shapeCast S1024x1024 k shapeCasts_S1024x1024_S1024x1024 = k := shapeCast_self k _
  have e_q : shapeCast S1024x1024 q shapeCasts_S1024x1024_S1024x1024 = q := shapeCast_self q _
  rw [e_k, e_q]
  exact congrArg₂ (fun a b => Ideal.exp (a * b)) (matmul_kq k q r c) inv_temperature

/-! ## A column's sum, and the row vector it is added to -/

/-- The sum along the rows, read at column `c`. -/
theorem colsum_apply (src : FVec Ideal S1024x1024 .f32) (hφ : FKind.Formats .f32)
    (hacc : (0x00000000#32 : BitVec 32) = 0x00000000#32) (c : Fin 1024) :
    multiReduction .add [0] S1024 src 0x00000000#32 reduces_S1024x1024_S1024 hφ hacc (ix1 c)
      = ∑ r : Fin 1024, src (ix2 r c) := by
  refine (Ideal.multiReduction_add_single src 0x00000000#32 reduces_S1024x1024_S1024 hφ hacc (ix1 c)).trans ?_
  refine Finset.sum_congr rfl fun r _ => congrArg src ?_
  funext a
  apply Fin.ext
  match a with
  | ⟨0, _⟩ => first | rfl | (rw [Shape.Reduces.lift_val]; simp [Shape.Reduces.liftVal])
  | ⟨1, _⟩ => first | rfl | (rw [Shape.Reduces.lift_val]; simp [Shape.Reduces.liftVal])

/-- A vector of 1024 entries viewed as one row: entry (0, c) is entry c. -/
theorem rowOf_apply {α : Type} (v : S1024.Idx → α) (c : Fin 1024) :
    shapeCast S1x1024 v shapeCasts_S1024_S1x1024 (ix2 (0 : Fin 1) c) = v (ix1 c) :=
  shapeCast_apply v shapeCasts_S1024_S1x1024 (ix2 (0 : Fin 1) c) (ix1 c) (by
    rw [Shape.rowMajor_val_one, Shape.rowMajor_val_two]
    show c.val = 0 * 1024 + c.val
    omega)

/-- The first accumulator's step at column `c`: what it held, plus the sum over the key rows of the exponentials. -/
theorem pay6_apply (q k : FVec Ideal S1024x1024 .bf16) (s : FVec Ideal S1x1024 .f32) (c : Fin 1024) :
    k0_pay6 (F := Ideal) q k s (ix2 (0 : Fin 1) c)
      = s (ix2 (0 : Fin 1) c) + ∑ r : Fin 1024, Ideal.exp ((∑ d : Fin 1024, k (ix2 r d) * q (ix2 c d)) * invTemp) := by
  unfold k0_pay6
  show shapeCast S1x1024 (addf s (shapeCast S1x1024 (multiReduction .add [0] S1024 (k0_pay5 (F := Ideal) q k) 0x00000000#32 reduces_S1024x1024_S1024 (.inl rfl) rfl) shapeCasts_S1024_S1x1024)) shapeCasts_S1x1024_S1x1024 (ix2 (0 : Fin 1) c) = _
  rw [shapeCast_self]
  show s (ix2 (0 : Fin 1) c) + shapeCast S1x1024 (multiReduction .add [0] S1024 (k0_pay5 (F := Ideal) q k) 0x00000000#32 reduces_S1024x1024_S1024 (.inl rfl) rfl) shapeCasts_S1024_S1x1024 (ix2 (0 : Fin 1) c) = _
  refine congrArg (s (ix2 (0 : Fin 1) c) + ·) ?_
  refine (rowOf_apply _ c).trans ?_
  refine (colsum_apply _ _ _ c).trans ?_
  exact Finset.sum_congr rfl fun r _ => pay5_apply q k r c

/-- The second accumulator's step at column `c`: what it held, plus the sum over the key rows of the entries the mask keeps. -/
theorem pay1_apply (keep : IVec S1024x1024 1) (e : FVec Ideal S1024x1024 .f32) (s : FVec Ideal S1x1024 .f32) (c : Fin 1024) :
    k0_pay1 (F := Ideal) keep e s (ix2 (0 : Fin 1) c)
      = s (ix2 (0 : Fin 1) c) + ∑ r : Fin 1024, (if keep (ix2 r c) = 1 then e (ix2 r c) else 0) := by
  unfold k0_pay1
  show shapeCast S1x1024 (addf s (shapeCast S1x1024 (multiReduction .add [0] S1024 (select keep e (broadcast S1024x1024 (Scalar.ofBits (F := Ideal) .f32 0x00000000#32))) 0x00000000#32 reduces_S1024x1024_S1024 (.inl rfl) rfl) shapeCasts_S1024_S1x1024)) shapeCasts_S1x1024_S1x1024 (ix2 (0 : Fin 1) c) = _
  rw [shapeCast_self]
  show s (ix2 (0 : Fin 1) c) + shapeCast S1x1024 (multiReduction .add [0] S1024 (select keep e (broadcast S1024x1024 (Scalar.ofBits (F := Ideal) .f32 0x00000000#32))) 0x00000000#32 reduces_S1024x1024_S1024 (.inl rfl) rfl) shapeCasts_S1024_S1x1024 (ix2 (0 : Fin 1) c) = _
  refine congrArg (s (ix2 (0 : Fin 1) c) + ·) ?_
  refine (rowOf_apply _ c).trans ?_
  refine (colsum_apply _ _ _ c).trans ?_
  refine Finset.sum_congr rfl fun r _ => ?_
  show (if keep (ix2 r c) = 1 then e (ix2 r c) else Ideal.ofBits .f32 0x00000000#32) = _
  rw [Ideal.ofBits_zero_f32]

/-! ## The reset values -/

/-- The first accumulator is reset to zero. -/
theorem pay2_apply (j : S1x1024.Idx) : k0_pay2 (F := Ideal) j = 0 := by
  unfold k0_pay2
  show shapeCast S1x1024 (broadcast S1x1024 (Scalar.ofBits (F := Ideal) .f32 0x00000000#32)) shapeCasts_S1x1024_S1x1024 j = _
  rw [shapeCast_self]
  exact Ideal.ofBits_zero_f32
/-- The second accumulator is reset to zero. -/
theorem pay3_apply (j : S1x1024.Idx) : k0_pay3 (F := Ideal) j = 0 := by
  unfold k0_pay3
  show shapeCast S1x1024 (broadcast S1x1024 (Scalar.ofBits (F := Ideal) .f32 0x00000000#32)) shapeCasts_S1x1024_S1x1024 j = _
  rw [shapeCast_self]
  exact Ideal.ofBits_zero_f32

/-! ## The mask -/

/-- A column of 1024 entries spread over the columns: entry (r, c) is entry (r, 0). -/
theorem spreadCol_apply {α : Type} (v : S1024x1.Idx → α) (r c : Fin 1024) :
    broadcastTo S1024x1024 v broadcasts_S1024x1_S1024x1024 (ix2 r c) = v (ix2 r (0 : Fin 1)) :=
  broadcastTo_apply v broadcasts_S1024x1_S1024x1024 (ix2 r c) (ix2 r (0 : Fin 1)) (fun a => by
    match a with
    | ⟨0, _⟩ => first | rfl | simp
    | ⟨1, _⟩ => first | rfl | simp)
/-- A row of 1024 entries spread over the rows: entry (r, c) is entry (0, c). -/
theorem spreadRow_apply {α : Type} (v : S1x1024.Idx → α) (r c : Fin 1024) :
    broadcastTo S1024x1024 v broadcasts_S1x1024_S1024x1024 (ix2 r c) = v (ix2 (0 : Fin 1) c) :=
  broadcastTo_apply v broadcasts_S1x1024_S1024x1024 (ix2 r c) (ix2 (0 : Fin 1) c) (fun a => by
    match a with
    | ⟨0, _⟩ => first | rfl | simp
    | ⟨1, _⟩ => first | rfl | simp)

/-- The conjunction of an equality test and an inequality test is set exactly when both hold. -/
theorem andi_eq_ne_one {w : Nat} (a b x y : BitVec w) :
    IntOp.andi (IntOp.cmpi .eq a b) (IntOp.cmpi .ne x y) = 1 ↔ a = b ∧ x ≠ y := by
  show BitVec.ofBool (a == b) &&& BitVec.ofBool (x != y) = 1 ↔ _
  have e1 : (a == b) = true ↔ a = b := beq_iff_eq
  have e2 : (x != y) = true ↔ x ≠ y := bne_iff_ne
  rw [← e1, ← e2]
  cases (a == b) <;> cases (x != y) <;> decide

/-- Below 8 tiles of 1024 rows, two row numbers formed in 32-bit words are equal exactly when they are equal as numbers. -/
theorem rowWord_eq_iff (a b r c : ℕ) (ha : a < 8) (hb : b < 8) (hr : r < 1024) (hc : c < 1024) :
    BitVec.ofNat 32 a * 1024#32 + BitVec.ofNat 32 r = BitVec.ofNat 32 b * 1024#32 + BitVec.ofNat 32 c ↔ a * 1024 + r = b * 1024 + c := by
  constructor
  · intro h
    have h' := congrArg BitVec.toNat h
    simp only [BitVec.toNat_add, BitVec.toNat_mul, BitVec.toNat_ofNat] at h'
    omega
  · intro h
    apply BitVec.eq_of_toNat_eq
    simp only [BitVec.toNat_add, BitVec.toNat_mul, BitVec.toNat_ofNat]
    omega

/-- The mask at (r, c) of the point with grid coordinates `i` = (query tile `qi`, key tile `ki`): set exactly when key row `r`
    of the key tile and query column `c` of the query tile carry one label and are not one row of the whole array. -/
theorem pay4_apply (i : grid0.Coords) (qi ki : ℕ) (h0 : (i 0).val = qi) (h1 : (i 1).val = ki)
    (lq : IVec S1x1024 32) (lk : IVec S1024x1 32) (r c : Fin 1024) :
    k0_pay4 (F := Ideal) i lq lk (ix2 r c) = 1 ↔
      lk (ix2 r (0 : Fin 1)) = lq (ix2 (0 : Fin 1) c) ∧ ki * 1024 + r.val ≠ qi * 1024 + c.val := by
  subst h0 h1
  unfold k0_pay4
  show IntOp.andi
      (IntOp.cmpi .eq (broadcastTo S1024x1024 (shapeCast S1024x1 lk shapeCasts_S1024x1_S1024x1) broadcasts_S1024x1_S1024x1024 (ix2 r c))
        (broadcastTo S1024x1024 (shapeCast S1x1024 lq shapeCasts_S1x1024_S1x1024) broadcasts_S1x1024_S1024x1024 (ix2 r c)))
      (IntOp.cmpi .ne
        (broadcastTo S1024x1024 (addi (broadcast S1024x1 (Scalar.muli (BitVec.ofNat 32 (i 1).val) 1024#32)) (iota .tc S1024x1 32 [0] iota_S1024x1_d0_w32)) broadcasts_S1024x1_S1024x1024 (ix2 r c))
        (broadcastTo S1024x1024 (addi (broadcast S1x1024 (Scalar.muli (BitVec.ofNat 32 (i 0).val) 1024#32)) (iota .tc S1x1024 32 [1] iota_S1x1024_d1_w32)) broadcasts_S1x1024_S1024x1024 (ix2 r c))) = 1 ↔ _
  have e1 : shapeCast S1024x1 lk shapeCasts_S1024x1_S1024x1 = lk := shapeCast_self lk _
  have e2 : shapeCast S1x1024 lq shapeCasts_S1x1024_S1x1024 = lq := shapeCast_self lq _
  rw [e1, e2, spreadCol_apply, spreadRow_apply, spreadCol_apply, spreadRow_apply]
  show IntOp.andi (IntOp.cmpi .eq (lk (ix2 r (0 : Fin 1))) (lq (ix2 (0 : Fin 1) c)))
      (IntOp.cmpi .ne
        (IntOp.addi (Scalar.muli (BitVec.ofNat 32 (i 1).val) 1024#32) (iota .tc S1024x1 32 [0] iota_S1024x1_d0_w32 (ix2 r (0 : Fin 1))))
        (IntOp.addi (Scalar.muli (BitVec.ofNat 32 (i 0).val) 1024#32) (iota .tc S1x1024 32 [1] iota_S1x1024_d1_w32 (ix2 (0 : Fin 1) c)))) = 1 ↔ _
  rw [iota_single_apply, iota_single_apply]
  show IntOp.andi (IntOp.cmpi .eq (lk (ix2 r (0 : Fin 1))) (lq (ix2 (0 : Fin 1) c)))
      (IntOp.cmpi .ne (BitVec.ofNat 32 (i 1).val * 1024#32 + BitVec.ofNat 32 r.val) (BitVec.ofNat 32 (i 0).val * 1024#32 + BitVec.ofNat 32 c.val)) = 1 ↔ _
  rw [andi_eq_ne_one]
  exact and_congr Iff.rfl (not_congr (rowWord_eq_iff (i 1).val (i 0).val r.val c.val (i 1).isLt (i 0).isLt r.isLt c.isLt))

end Cert.KernelIdeal.Hand

end
-- ==== Proof.Spec.lean ====
/-
  The supervised-contrastive loss over 8192 rows of 1024 entries with 32-bit labels, as plain functions on the extended
  reals, in the two arrangements the two programs compute it in.

  Both start from the rows scaled to unit length: `emb i d = x i d / max (√(Σ_d x i d²)) ε`. With `s i j` the inner
  product of rows `i` and `j`, the loss is the mean over `i` of `-log (P i / S i)` where `S i = Σ_j exp (s i j / T)`
  and `P i` is the same sum over the `j ≠ i` that carry row `i`'s label.

  * The reference arrangement divides by the temperature's 32-bit value, sums over all 8192 columns at once, and
    restricts `P` by multiplying each term with a 0/1 mask `[lab i = lab j] · (1 - [i = j])`.
  * The kernel arrangement multiplies by the reciprocal of that same 32-bit value, forms the inner product with the
    key row first, walks the columns as 8 tiles of 1024, and restricts `P` by selecting the term or zero.

  `lossK_eq_lossR` (proved in Proof/SpecBridge.lean) says the two are one extended real; nothing here needs the inputs finite.
-/
import Idealize.ShloMosaic.PureOps.Ideal

noncomputable section

namespace Cert.Spec

open Idealize.ShloMosaic

/-- The clamp under the row norm: the 32-bit value nearest 1e-12. -/
def epsW : EReal := Ideal.ofBits .f32 0x2B8CBCCC#32
/-- The temperature as the reference holds it: the 32-bit value nearest 0.07, which is 9395241 / 2^27. -/
def tempW : EReal := Ideal.ofBits .f32 0x3D8F5C29#32
/-- Its reciprocal, the number the kernel's scale constant stands for. -/
def invT : EReal := ((134217728 / 9395241 : ℝ) : EReal)
/-- The row count as the closing mean divides by it. -/
def rowsW : EReal := Ideal.ofBits .f32 0x46000000#32

variable (x : Fin 8192 → Fin 1024 → EReal) (lab : Fin 8192 → BitVec 32)

/-- The clamped Euclidean norm of row `i`. -/
def nrm (i : Fin 8192) : EReal := max (Ideal.sqrt (0 + ∑ d : Fin 1024, x i d * x i d)) epsW
/-- Row `i` scaled to unit length. -/
def emb (i : Fin 8192) (d : Fin 1024) : EReal := Ideal.div (x i d) (nrm x i)
/-- The inner product of the scaled rows `i` and `j`, row `i`'s entries on the left. -/
def sim (i j : Fin 8192) : EReal := ∑ d : Fin 1024, emb x i d * emb x j d

/-- The closing steps both programs share: per row the negated logarithm of the quotient, summed and divided by the row count. -/
def tail (P S : Fin 8192 → EReal) : EReal :=
  Ideal.div (0 + ∑ i : Fin 8192, -(Ideal.log (Ideal.div (P i) (S i)))) rowsW

/-! ## The reference's arrangement -/

def expR (i j : Fin 8192) : EReal := Ideal.exp (Ideal.div (sim x i j) tempW)
def maskR (i j : Fin 8192) : EReal := (if lab i = lab j then (1 : EReal) else 0) * ((1 : EReal) - (if i = j then (1 : EReal) else 0))
def sumexpR (i : Fin 8192) : EReal := 0 + ∑ j : Fin 8192, expR x i j
def possumR (i : Fin 8192) : EReal := 0 + ∑ j : Fin 8192, expR x i j * maskR lab i j
def lossR : EReal := tail (possumR x lab) (sumexpR x)

/-! ## The kernel's arrangement -/

/-- Column `b` of key tile `a`. -/
def tileIdx (a : Fin 8) (b : Fin 1024) : Fin 8192 := ⟨a.val * 1024 + b.val, by omega⟩
/-- The kernel's term for query row `i` and key row `j`: the key row's entries on the left of each product. -/
def expK (i j : Fin 8192) : EReal := Ideal.exp (sim x j i * invT)
def sumexpK (i : Fin 8192) : EReal := ∑ a : Fin 8, ∑ b : Fin 1024, expK x i (tileIdx a b)
def possumK (i : Fin 8192) : EReal :=
  ∑ a : Fin 8, ∑ b : Fin 1024, if lab (tileIdx a b) = lab i ∧ tileIdx a b ≠ i then expK x i (tileIdx a b) else 0
def lossK : EReal := tail (possumK x lab) (sumexpK x)

end Cert.Spec

end
-- ==== Proof.KI.ValueAcc.lean ====
/-
  The contrastive-sums kernel: what its two result arrays hold after the run, on the extended reals.

  The grid point `n` works on query tile `n / 8` and key tile `n % 8`, each 1024 rows of the one array of unit rows
  `E`. For query row `i` and key row `j` the kernel's term is `exp ((Σ_d E j d · E i d) · 1/T)`. Walking the eight key
  tiles of a query tile, the first scratch row adds up, per query column, every term of the tile; the second adds the
  terms whose key row carries the query row's label and is another row. Both start from zero at the first key tile
  and are written to the result arrays after the last. So, by induction over the key tiles (`se_inv`, `ps_inv`),
  after point `n` the scratch rows hold the sums over the key tiles `0 … n % 8`; the blocks written back at the points
  `n % 8 = 7` are the full sums over all 8192 key rows (`flushed4_eq`, `flushed5_eq`); those blocks tile the result
  arrays (`cover4`, `cover5`); hence `arrAt4`, `arrAt5`: entry (0, i) of each result is the double sum over the key
  tiles and their rows.
-/
import proofs.«421592_j76845554860147_3_alg».proof.Proof.KI.Acc
import proofs.«421592_j76845554860147_3_alg».proof.Proof.KI.ValuePay
import proofs.«421592_j76845554860147_3_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## The three arrays the region reads, and rows of tiles -/

/-- The unit rows, as the region finds them. -/
abbrev Earr (c : Dev nD) : FVec Ideal S8192x1024 .bf16 := V m c main_v5
/-- The labels laid out as one row (read per query). -/
abbrev Lrow (c : Dev nD) : IVec S1x8192 32 := V m c main_v6
/-- The labels laid out as one column (read per key). -/
abbrev Lcol (c : Dev nD) : IVec S8192x1 32 := V m c main_v7
/-- The column of an index of a [1, 8192] array. -/
abbrev colOf (j : S1x8192.Idx) : Fin 8192 := ⟨(j 1).val, idx2_lt1 j⟩

/-- Row `r` of tile `a` in the whole array (the tile number taken modulo 8, so that every number names a tile). -/
def trow (a : ℕ) (r : Fin 1024) : Fin 8192 := ⟨a % 8 * 1024 + r.val, by have := r.isLt; omega⟩

/-- For a tile number below 8 it is the specification's tile index. -/
theorem trow_eq_tileIdx (a : Fin 8) (b : Fin 1024) : trow a.val b = Cert.Spec.tileIdx a b :=
  Fin.ext (by show a.val % 8 * 1024 + b.val = a.val * 1024 + b.val; have := a.isLt; omega)

/-- The kernel's term for key row `j` and query row `i`. -/
def eterm (c : Dev nD) (j i : Fin 8192) : EReal :=
  Ideal.exp ((∑ d : Fin 1024, Earr m c (ix2 j d) * Earr m c (ix2 i d)) * Cert.Spec.invT)
/-- Key row `j` counts for query row `i`: one label, another row. -/
abbrev kept (c : Dev nD) (j i : Fin 8192) : Prop :=
  Lcol m c (ix2 j (0 : Fin 1)) = Lrow m c (ix2 (0 : Fin 1) i) ∧ j ≠ i
/-- The terms of key tile `a` for query row `i`, summed. -/
def tileSum (c : Dev nD) (a : ℕ) (i : Fin 8192) : EReal := ∑ r : Fin 1024, eterm m c (trow a r) i
/-- The terms of key tile `a` that count for query row `i`, summed. -/
def tileKept (c : Dev nD) (a : ℕ) (i : Fin 8192) : EReal :=
  ∑ r : Fin 1024, if kept m c (trow a r) i then eterm m c (trow a r) i else 0

/-! ## The windows' blocks at a point, read off the arrays -/

/-- The printed index maps and the grid's coordinates, decided once over the 64 points: the query-side windows sit at
    block `n / 8`, the key-side windows at block `n % 8`. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = 0 ∧ win0_2.index t (1 : Fin 2) = t.val / 8
    ∧ win0_3.index t (0 : Fin 2) = t.val % 8 ∧ win0_3.index t (1 : Fin 2) = 0
    ∧ win0_4.index t (0 : Fin 2) = 0 ∧ win0_4.index t (1 : Fin 2) = t.val / 8
    ∧ win0_5.index t (0 : Fin 2) = 0 ∧ win0_5.index t (1 : Fin 2) = t.val / 8
    ∧ (grid0.coords t (0 : Fin 2)).val = t.val / 8 ∧ (grid0.coords t (1 : Fin 2)).val = t.val % 8 :=
  (by decide +kernel : ∀ t : Fin grid0.N, _)

/-- The query tile's entry (r, d) is row `r` of tile `n / 8` of the unit rows. -/
theorem qblk_apply (c : Dev nD) (t : Fin cfg0.N) (r d : Fin 1024) :
    qblk m c t (ix2 r d) = Earr m c (ix2 (trow (t.val / 8) r) d) := by
  obtain ⟨e0, e1, -⟩ := idx_facts t
  have hN : cfg0.N = 64 := N_0
  have ht := t.isLt
  show iblk m c 0 t (ix2 r d) = _
  unfold iblk
  rw [View.read_apply]
  show V m c main_v5 (((cfg0.win 0).blk t).view.emb (ix2 r d)) = V m c main_v5 (ix2 (trow (t.val / 8) r) d)
  refine congrArg (V m c main_v5) (funext fun a => Fin.ext ?_)
  match a with
  | ⟨0, _⟩ =>
    show win0_0.index t (0 : Fin 2) * 1024 + 1 * r.val = t.val / 8 % 8 * 1024 + r.val
    omega
  | ⟨1, _⟩ =>
    show win0_0.index t (1 : Fin 2) * 1024 + 1 * d.val = d.val
    omega

/-- The key tile's entry (r, d) is row `r` of tile `n % 8` of the unit rows. -/
theorem kblk_apply (c : Dev nD) (t : Fin cfg0.N) (r d : Fin 1024) :
    kblk m c t (ix2 r d) = Earr m c (ix2 (trow (t.val % 8) r) d) := by
  obtain ⟨-, -, e0, e1, -⟩ := idx_facts t
  show iblk m c 1 t (ix2 r d) = _
  unfold iblk
  rw [View.read_apply]
  show V m c main_v5 (((cfg0.win 1).blk t).view.emb (ix2 r d)) = V m c main_v5 (ix2 (trow (t.val % 8) r) d)
  refine congrArg (V m c main_v5) (funext fun a => Fin.ext ?_)
  match a with
  | ⟨0, _⟩ =>
    show win0_1.index t (0 : Fin 2) * 1024 + 1 * r.val = t.val % 8 % 8 * 1024 + r.val
    omega
  | ⟨1, _⟩ =>
    show win0_1.index t (1 : Fin 2) * 1024 + 1 * d.val = d.val
    omega

/-- The query labels' entry (0, c) is the label of row `c` of tile `n / 8`. -/
theorem lqblk_apply (c : Dev nD) (t : Fin cfg0.N) (q : Fin 1024) :
    lqblk m c t (ix2 (0 : Fin 1) q) = Lrow m c (ix2 (0 : Fin 1) (trow (t.val / 8) q)) := by
  obtain ⟨-, -, -, -, e0, e1, -⟩ := idx_facts t
  have hN : cfg0.N = 64 := N_0
  have ht := t.isLt
  show iblk m c 2 t (ix2 (0 : Fin 1) q) = _
  unfold iblk
  rw [View.read_apply]
  show V m c main_v6 (((cfg0.win 2).blk t).view.emb (ix2 (0 : Fin 1) q)) = V m c main_v6 (ix2 (0 : Fin 1) (trow (t.val / 8) q))
  refine congrArg (V m c main_v6) (funext fun a => Fin.ext ?_)
  match a with
  | ⟨0, _⟩ =>
    show win0_2.index t (0 : Fin 2) * 1 + 1 * 0 = 0
    omega
  | ⟨1, _⟩ =>
    show win0_2.index t (1 : Fin 2) * 1024 + 1 * q.val = t.val / 8 % 8 * 1024 + q.val
    omega

/-- The key labels' entry (r, 0) is the label of row `r` of tile `n % 8`. -/
theorem lkblk_apply (c : Dev nD) (t : Fin cfg0.N) (r : Fin 1024) :
    lkblk m c t (ix2 r (0 : Fin 1)) = Lcol m c (ix2 (trow (t.val % 8) r) (0 : Fin 1)) := by
  obtain ⟨-, -, -, -, -, -, e0, e1, -⟩ := idx_facts t
  show iblk m c 3 t (ix2 r (0 : Fin 1)) = _
  unfold iblk
  rw [View.read_apply]
  show V m c main_v7 (((cfg0.win 3).blk t).view.emb (ix2 r (0 : Fin 1))) = V m c main_v7 (ix2 (trow (t.val % 8) r) (0 : Fin 1))
  refine congrArg (V m c main_v7) (funext fun a => Fin.ext ?_)
  match a with
  | ⟨0, _⟩ =>
    show win0_3.index t (0 : Fin 2) * 1024 + 1 * r.val = t.val % 8 % 8 * 1024 + r.val
    omega
  | ⟨1, _⟩ =>
    show win0_3.index t (1 : Fin 2) * 1 + 1 * 0 = 0
    omega

/-! ## One point's step of the two accumulators, at a column -/

/-- The first accumulator at column `q` after the step at position `n`: what it held plus key tile `n % 8`'s sum for
    query row `q` of tile `n / 8`. -/
theorem step_se (c : Dev nD) (n : ℕ) (hn : n < cfg0.N) (a : FVec Ideal S1x1024 .f32 × FVec Ideal S1x1024 .f32) (q : Fin 1024) :
    (accStep m c ⟨n, hn⟩ a).1 (ix2 (0 : Fin 1) q)
      = a.1 (ix2 (0 : Fin 1) q) + tileSum m c (n % 8) (trow (n / 8) q) := by
  show k0_pay6 (F := Ideal) (qblk m c ⟨n, hn⟩) (kblk m c ⟨n, hn⟩) a.1 (ix2 (0 : Fin 1) q) = _
  refine (pay6_apply (qblk m c ⟨n, hn⟩) (kblk m c ⟨n, hn⟩) a.1 q).trans ?_
  refine congrArg (a.1 (ix2 (0 : Fin 1) q) + ·) ?_
  unfold tileSum
  refine Finset.sum_congr rfl fun r _ => ?_
  unfold eterm
  refine congrArg (fun x => Ideal.exp (x * Cert.Spec.invT)) (Finset.sum_congr rfl fun d _ => ?_)
  exact congrArg₂ (· * ·) (kblk_apply m c ⟨n, hn⟩ r d) (qblk_apply m c ⟨n, hn⟩ q d)

/-- The second accumulator at column `q` after the step at position `n`: what it held plus key tile `n % 8`'s counted
    sum for query row `q` of tile `n / 8`. -/
theorem step_ps (c : Dev nD) (n : ℕ) (hn : n < cfg0.N) (a : FVec Ideal S1x1024 .f32 × FVec Ideal S1x1024 .f32) (q : Fin 1024) :
    (accStep m c ⟨n, hn⟩ a).2 (ix2 (0 : Fin 1) q)
      = a.2 (ix2 (0 : Fin 1) q) + tileKept m c (n % 8) (trow (n / 8) q) := by
  have hN : cfg0.N = 64 := N_0
  have hn' : n < 64 := lt_of_lt_of_eq hn hN
  obtain ⟨-, -, -, -, -, -, -, -, -, -, -, -, g0, g1⟩ := idx_facts ⟨n, hn⟩
  show k0_pay1 (F := Ideal) (k0_pay4 (F := Ideal) (grid0.coords ⟨n, hn⟩) (lqblk m c ⟨n, hn⟩) (lkblk m c ⟨n, hn⟩))
      (k0_pay5 (F := Ideal) (qblk m c ⟨n, hn⟩) (kblk m c ⟨n, hn⟩)) a.2 (ix2 (0 : Fin 1) q) = _
  refine (pay1_apply (k0_pay4 (F := Ideal) (grid0.coords ⟨n, hn⟩) (lqblk m c ⟨n, hn⟩) (lkblk m c ⟨n, hn⟩))
      (k0_pay5 (F := Ideal) (qblk m c ⟨n, hn⟩) (kblk m c ⟨n, hn⟩)) a.2 q).trans ?_
  refine congrArg (a.2 (ix2 (0 : Fin 1) q) + ·) ?_
  unfold tileKept
  refine Finset.sum_congr rfl fun r _ => ?_
  have he : k0_pay5 (F := Ideal) (qblk m c ⟨n, hn⟩) (kblk m c ⟨n, hn⟩) (ix2 r q) = eterm m c (trow (n % 8) r) (trow (n / 8) q) := by
    refine (pay5_apply (qblk m c ⟨n, hn⟩) (kblk m c ⟨n, hn⟩) r q).trans ?_
    unfold eterm
    refine congrArg (fun x => Ideal.exp (x * Cert.Spec.invT)) (Finset.sum_congr rfl fun d _ => ?_)
    exact congrArg₂ (· * ·) (kblk_apply m c ⟨n, hn⟩ r d) (qblk_apply m c ⟨n, hn⟩ q d)
  have hk : k0_pay4 (F := Ideal) (grid0.coords ⟨n, hn⟩) (lqblk m c ⟨n, hn⟩) (lkblk m c ⟨n, hn⟩) (ix2 r q) = 1
      ↔ kept m c (trow (n % 8) r) (trow (n / 8) q) := by
    refine (pay4_apply (grid0.coords ⟨n, hn⟩) (n / 8) (n % 8) g0 g1 (lqblk m c ⟨n, hn⟩) (lkblk m c ⟨n, hn⟩) r q).trans ?_
    refine and_congr ?_ (not_congr ?_)
    · rw [lkblk_apply m c ⟨n, hn⟩ r, lqblk_apply m c ⟨n, hn⟩ q]
    · rw [Fin.ext_iff]
      show n % 8 * 1024 + r.val = n / 8 * 1024 + q.val ↔ n % 8 % 8 * 1024 + r.val = n / 8 % 8 * 1024 + q.val
      omega
  rw [he]
  exact if_congr hk rfl rfl

/-! ## The accumulation over the key tiles -/

theorem accAt_at_zero (c : Dev nD) (hn : 0 < cfg0.N) :
    accAt m c 0 hn = accStep m c ⟨0, hn⟩ (k0_pay2 (F := Ideal), k0_pay3 (F := Ideal)) := by
  first | rfl | rw [accAt] | simp only [accAt]
theorem accAt_at_succ (c : Dev nD) (n : ℕ) (hn : n + 1 < cfg0.N) :
    accAt m c (n + 1) hn = if (n + 1) % 8 = 0 then accStep m c ⟨n + 1, hn⟩ (k0_pay2 (F := Ideal), k0_pay3 (F := Ideal))
      else accStep m c ⟨n + 1, hn⟩ (accAt m c n (Nat.lt_of_succ_lt hn)) := by
  first | rfl | rw [accAt] | simp only [accAt]

/-- From zero, the first tile's sum is the sum over the tiles up to the first. -/
theorem start_sum (f : ℕ → EReal) : (0 : EReal) + f 0 = ∑ a ∈ Finset.range (0 + 1), f a := by
  rw [Finset.sum_range_succ, Finset.sum_range_zero]
/-- Adding the next tile's sum extends the sum over the tiles by one. -/
theorem next_sum (f : ℕ → EReal) (k : ℕ) :
    (∑ a ∈ Finset.range (k + 1), f a) + f (k + 1) = ∑ a ∈ Finset.range (k + 1 + 1), f a :=
  (Finset.sum_range_succ f (k + 1)).symm

/-- THE FIRST ACCUMULATOR after position `n`, at column `q`: the sums of the key tiles `0 … n % 8` for query row `q` of
    tile `n / 8` — by induction over the positions; a position at the first key tile starts again from zero. -/
theorem se_inv (c : Dev nD) : ∀ (n : ℕ) (hn : n < cfg0.N) (q : Fin 1024),
    (accAt m c n hn).1 (ix2 (0 : Fin 1) q) = ∑ a ∈ Finset.range (n % 8 + 1), tileSum m c a (trow (n / 8) q)
  | 0, hn, q => by
    rw [accAt_at_zero m c hn, step_se m c 0 hn _ q]
    show k0_pay2 (F := Ideal) (ix2 (0 : Fin 1) q) + tileSum m c 0 (trow 0 q) = ∑ a ∈ Finset.range (0 + 1), tileSum m c a (trow 0 q)
    rw [pay2_apply]
    exact start_sum (fun a => tileSum m c a (trow 0 q))
  | n + 1, hn, q => by
    rw [accAt_at_succ m c n hn]
    by_cases h0 : (n + 1) % 8 = 0
    · rw [if_pos h0, step_se m c (n + 1) hn _ q]
      show k0_pay2 (F := Ideal) (ix2 (0 : Fin 1) q) + tileSum m c ((n + 1) % 8) (trow ((n + 1) / 8) q) = _
      rw [pay2_apply, h0]
      exact start_sum (fun a => tileSum m c a (trow ((n + 1) / 8) q))
    · rw [if_neg h0, step_se m c (n + 1) hn _ q]
      show (accAt m c n (Nat.lt_of_succ_lt hn)).1 (ix2 (0 : Fin 1) q) + tileSum m c ((n + 1) % 8) (trow ((n + 1) / 8) q) = _
      rw [se_inv c n (Nat.lt_of_succ_lt hn) q]
      have e1 : (n + 1) % 8 = n % 8 + 1 := by omega
      have e2 : (n + 1) / 8 = n / 8 := by omega
      rw [e1, e2]
      exact next_sum (fun a => tileSum m c a (trow (n / 8) q)) (n % 8)

/-- THE SECOND ACCUMULATOR after position `n`, at column `q`: the counted sums of the key tiles `0 … n % 8`. -/
theorem ps_inv (c : Dev nD) : ∀ (n : ℕ) (hn : n < cfg0.N) (q : Fin 1024),
    (accAt m c n hn).2 (ix2 (0 : Fin 1) q) = ∑ a ∈ Finset.range (n % 8 + 1), tileKept m c a (trow (n / 8) q)
  | 0, hn, q => by
    rw [accAt_at_zero m c hn, step_ps m c 0 hn _ q]
    show k0_pay3 (F := Ideal) (ix2 (0 : Fin 1) q) + tileKept m c 0 (trow 0 q) = ∑ a ∈ Finset.range (0 + 1), tileKept m c a (trow 0 q)
    rw [pay3_apply]
    exact start_sum (fun a => tileKept m c a (trow 0 q))
  | n + 1, hn, q => by
    rw [accAt_at_succ m c n hn]
    by_cases h0 : (n + 1) % 8 = 0
    · rw [if_pos h0, step_ps m c (n + 1) hn _ q]
      show k0_pay3 (F := Ideal) (ix2 (0 : Fin 1) q) + tileKept m c ((n + 1) % 8) (trow ((n + 1) / 8) q) = _
      rw [pay3_apply, h0]
      exact start_sum (fun a => tileKept m c a (trow ((n + 1) / 8) q))
    · rw [if_neg h0, step_ps m c (n + 1) hn _ q]
      show (accAt m c n (Nat.lt_of_succ_lt hn)).2 (ix2 (0 : Fin 1) q) + tileKept m c ((n + 1) % 8) (trow ((n + 1) / 8) q) = _
      rw [ps_inv c n (Nat.lt_of_succ_lt hn) q]
      have e1 : (n + 1) % 8 = n % 8 + 1 := by omega
      have e2 : (n + 1) / 8 = n / 8 := by omega
      rw [e1, e2]
      exact next_sum (fun a => tileKept m c a (trow (n / 8) q)) (n % 8)

/-! ## From the blocks written back to the result arrays -/

/-- The first result array, entry by entry: all eight key tiles' sums for the query row. -/
abbrev sumexpArr (c : Dev nD) : FVec Ideal S1x8192 .f32 := fun j => ∑ a ∈ Finset.range 8, tileSum m c a (colOf j)
/-- The second result array, entry by entry: all eight key tiles' counted sums for the query row. -/
abbrev possumArr (c : Dev nD) : FVec Ideal S1x8192 .f32 := fun j => ∑ a ∈ Finset.range 8, tileKept m c a (colOf j)

/-- WHAT A WRITING POINT WRITES to the first result: after the last key tile the accumulator holds the full sums of
    its query tile, which is that tile's block of `sumexpArr`. -/
theorem flushed4_eq (c : Dev nD) (t : Fin cfg0.N) (hf : (cfg0.win 4).flush t = true) :
    (dats m 0 c).flushed 4 t = ((cfg0.win 4).blk t).view.read (Elt Ideal) (sumexpArr m c) := by
  have hN : cfg0.N = 64 := N_0
  have ht := t.isLt
  have h7 : t.val % 8 = 7 := (flush0_4 t).mp hf
  obtain ⟨-, -, -, -, -, -, -, -, e40, e41, -⟩ := idx_facts t
  funext y
  have hy0 : (y 0).val < 1 := (y 0).isLt
  have hy1 : (y 1).val < 1024 := (y 1).isLt
  show (accAt m c t.val t.isLt).1 ((cfg0.win 4).xinj (grid0.coords t) y) = sumexpArr m c (((cfg0.win 4).blk t).view.emb y)
  have ex : ((cfg0.win 4).xinj (grid0.coords t) y : S1x1024.Idx) = ix2 (0 : Fin 1) ⟨(y 1).val, hy1⟩ := by
    funext a
    apply Fin.ext
    match a with
    | ⟨0, _⟩ => show (y 0).val = 0; omega
    | ⟨1, _⟩ => rfl
  have ec : colOf (((cfg0.win 4).blk t).view.emb y) = trow (t.val / 8) ⟨(y 1).val, hy1⟩ := by
    apply Fin.ext
    show win0_4.index t (1 : Fin 2) * 1024 + 1 * (y 1).val = t.val / 8 % 8 * 1024 + (y 1).val
    omega
  refine (congrArg (accAt m c t.val t.isLt).1 ex).trans ?_
  refine (se_inv m c t.val t.isLt ⟨(y 1).val, hy1⟩).trans ?_
  show _ = ∑ a ∈ Finset.range (7 + 1), tileSum m c a (colOf (((cfg0.win 4).blk t).view.emb y))
  rw [h7, ec]

/-- WHAT A WRITING POINT WRITES to the second result: its query tile's block of `possumArr`. -/
theorem flushed5_eq (c : Dev nD) (t : Fin cfg0.N) (hf : (cfg0.win 5).flush t = true) :
    (dats m 0 c).flushed 5 t = ((cfg0.win 5).blk t).view.read (Elt Ideal) (possumArr m c) := by
  have hN : cfg0.N = 64 := N_0
  have ht := t.isLt
  have h7 : t.val % 8 = 7 := (flush0_5 t).mp hf
  obtain ⟨-, -, -, -, -, -, -, -, -, -, e50, e51, -⟩ := idx_facts t
  funext y
  have hy0 : (y 0).val < 1 := (y 0).isLt
  have hy1 : (y 1).val < 1024 := (y 1).isLt
  show (accAt m c t.val t.isLt).2 ((cfg0.win 5).xinj (grid0.coords t) y) = possumArr m c (((cfg0.win 5).blk t).view.emb y)
  have ex : ((cfg0.win 5).xinj (grid0.coords t) y : S1x1024.Idx) = ix2 (0 : Fin 1) ⟨(y 1).val, hy1⟩ := by
    funext a
    apply Fin.ext
    match a with
    | ⟨0, _⟩ => show (y 0).val = 0; omega
    | ⟨1, _⟩ => rfl
  have ec : colOf (((cfg0.win 5).blk t).view.emb y) = trow (t.val / 8) ⟨(y 1).val, hy1⟩ := by
    apply Fin.ext
    show win0_5.index t (1 : Fin 2) * 1024 + 1 * (y 1).val = t.val / 8 % 8 * 1024 + (y 1).val
    omega
  refine (congrArg (accAt m c t.val t.isLt).2 ex).trans ?_
  refine (ps_inv m c t.val t.isLt ⟨(y 1).val, hy1⟩).trans ?_
  show _ = ∑ a ∈ Finset.range (7 + 1), tileKept m c a (colOf (((cfg0.win 5).blk t).view.emb y))
  rw [h7, ec]

/-- An index of the first result array is in point `t`'s block iff each coordinate is in the block's range. -/
theorem mem_blk4 (t : Fin cfg0.N) (i : S1x8192.Idx) :
    i ∈ ((cfg0.win 4).blk t).view.set ↔ ∀ a : Fin 2, win0_4.index t a * S1x1024.size a ≤ (i a).val ∧ (i a).val < win0_4.index t a * S1x1024.size a + S1x1024.size a := by
  show i ∈ ((View.whole main_v8_0).slice (win0_4.rect t)).set ↔ _
  rw [View.set_slice_whole, Rect.mem_set_unit]
  exact Iff.rfl
/-- The same for the second result array. -/
theorem mem_blk5 (t : Fin cfg0.N) (i : S1x8192.Idx) :
    i ∈ ((cfg0.win 5).blk t).view.set ↔ ∀ a : Fin 2, win0_5.index t a * S1x1024.size a ≤ (i a).val ∧ (i a).val < win0_5.index t a * S1x1024.size a + S1x1024.size a := by
  show i ∈ ((View.whole main_v8_1).slice (win0_5.rect t)).set ↔ _
  rw [View.set_slice_whole, Rect.mem_set_unit]
  exact Iff.rfl

/-- Every entry of the first result array is written: column `i` by the last key tile's point of query tile `i / 1024`. -/
theorem cover4 (i : S1x8192.Idx) : ∃ t : Fin cfg0.N, (cfg0.win 4).flush t = true ∧ i ∈ ((cfg0.win 4).blk t).view.set := by
  have hi0 : (i 0).val < 1 := (i 0).isLt
  have hi1 : (i 1).val < 8192 := (i 1).isLt
  have hN : cfg0.N = 64 := N_0
  obtain ⟨t, htv⟩ : ∃ t : Fin cfg0.N, t.val = (i 1).val / 1024 * 8 + 7 :=
    ⟨⟨(i 1).val / 1024 * 8 + 7, by rw [hN]; omega⟩, rfl⟩
  obtain ⟨-, -, -, -, -, -, -, -, e40, e41, -⟩ := idx_facts t
  refine ⟨t, (flush0_4 t).mpr (by omega), ?_⟩
  rw [mem_blk4]
  intro a
  match a with
  | ⟨0, _⟩ =>
    show win0_4.index t (0 : Fin 2) * 1 ≤ (i 0).val ∧ (i 0).val < win0_4.index t (0 : Fin 2) * 1 + 1
    omega
  | ⟨1, _⟩ =>
    show win0_4.index t (1 : Fin 2) * 1024 ≤ (i 1).val ∧ (i 1).val < win0_4.index t (1 : Fin 2) * 1024 + 1024
    omega
/-- Every entry of the second result array is written, by the same points. -/
theorem cover5 (i : S1x8192.Idx) : ∃ t : Fin cfg0.N, (cfg0.win 5).flush t = true ∧ i ∈ ((cfg0.win 5).blk t).view.set := by
  have hi0 : (i 0).val < 1 := (i 0).isLt
  have hi1 : (i 1).val < 8192 := (i 1).isLt
  have hN : cfg0.N = 64 := N_0
  obtain ⟨t, htv⟩ : ∃ t : Fin cfg0.N, t.val = (i 1).val / 1024 * 8 + 7 :=
    ⟨⟨(i 1).val / 1024 * 8 + 7, by rw [hN]; omega⟩, rfl⟩
  obtain ⟨-, -, -, -, -, -, -, -, -, -, e50, e51, -⟩ := idx_facts t
  refine ⟨t, (flush0_5 t).mpr (by omega), ?_⟩
  rw [mem_blk5]
  intro a
  match a with
  | ⟨0, _⟩ =>
    show win0_5.index t (0 : Fin 2) * 1 ≤ (i 0).val ∧ (i 0).val < win0_5.index t (0 : Fin 2) * 1 + 1
    omega
  | ⟨1, _⟩ =>
    show win0_5.index t (1 : Fin 2) * 1024 ≤ (i 1).val ∧ (i 1).val < win0_5.index t (1 : Fin 2) * 1024 + 1024
    omega

/-- The first result array after the run, tile sums over a range. -/
theorem arrAt4_range (c : Dev nD) : (dats m 0 c).arrAt 4 cfg0.N = sumexpArr m c :=
  (dats m 0 c).arrAt_eq_of_cover 4 (sumexpArr m c) (flushed4_eq m c) cover4
/-- The second result array after the run, counted tile sums over a range. -/
theorem arrAt5_range (c : Dev nD) : (dats m 0 c).arrAt 5 cfg0.N = possumArr m c :=
  (dats m 0 c).arrAt_eq_of_cover 5 (possumArr m c) (flushed5_eq m c) cover5

/-- THE FIRST RESULT ARRAY after the run: at column `i`, the sum over the 8 key tiles and their 1024 rows of the term
    for that key row and query row `i`. -/
theorem arrAt4 (c : Dev nD) : (dats (F := Ideal) m 0 c).arrAt 4 cfg0.N = fun j : S1x8192.Idx =>
    ∑ a : Fin 8, ∑ b : Fin 1024,
      Ideal.exp ((∑ d : Fin 1024, Earr m c (ix2 (Cert.Spec.tileIdx a b) d) * Earr m c (ix2 (colOf j) d)) * Cert.Spec.invT) := by
  rw [arrAt4_range]
  funext j
  show ∑ a ∈ Finset.range 8, tileSum m c a (colOf j) = _
  rw [Finset.sum_range]
  refine Finset.sum_congr rfl fun a _ => ?_
  unfold tileSum
  refine Finset.sum_congr rfl fun b _ => ?_
  exact congrArg (fun j' => eterm m c j' (colOf j)) (trow_eq_tileIdx a b)

/-- THE SECOND RESULT ARRAY after the run: the same sum over the key rows that carry query row `i`'s label and are
    not row `i`. -/
theorem arrAt5 (c : Dev nD) : (dats (F := Ideal) m 0 c).arrAt 5 cfg0.N = fun j : S1x8192.Idx =>
    ∑ a : Fin 8, ∑ b : Fin 1024,
      if Lcol m c (ix2 (Cert.Spec.tileIdx a b) (0 : Fin 1)) = Lrow m c (ix2 (0 : Fin 1) (colOf j)) ∧ Cert.Spec.tileIdx a b ≠ colOf j
      then Ideal.exp ((∑ d : Fin 1024, Earr m c (ix2 (Cert.Spec.tileIdx a b) d) * Earr m c (ix2 (colOf j) d)) * Cert.Spec.invT) else 0 := by
  rw [arrAt5_range]
  funext j
  show ∑ a ∈ Finset.range 8, tileKept m c a (colOf j) = _
  rw [Finset.sum_range]
  refine Finset.sum_congr rfl fun a _ => ?_
  unfold tileKept
  refine Finset.sum_congr rfl fun b _ => ?_
  exact congrArg (fun j' => if kept m c j' (colOf j) then eterm m c j' (colOf j) else 0) (trow_eq_tileIdx a b)

end Cert.KernelIdeal.Hand

end
-- ==== Proof.KI.ValueHost.lean ====
/-
  What the host computes around the contrastive-sums kernel, read entry by entry on the extended reals.

  Before the kernel, each of the 8192 rows of the argument is divided by its Euclidean norm, the norm clamped from
  below by a small constant; the quotient is then stored in a narrower float format, which is the identity on the
  extended reals. The labels are laid out twice, as a row [1, 8192] and as a column [8192, 1]. So the array that the
  kernel's query window and key window both read holds `Spec.emb` of the argument rows, and each label array holds
  at its running coordinate that row's label.

  After the kernel, the two result rows [1, 8192] are flattened and divided entry by entry; the negated logarithms
  of the quotients are summed and the sum is divided by the row count. That is `Spec.tail` of the two rows.
-/
import proofs.«421592_j76845554860147_3_alg».proof.Proof.Gen.KernelIdeal.Launch
import proofs.«421592_j76845554860147_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL.Sem Idealize.ShloMosaic.StableHlo
open Idealize.ShloMosaic.ValueIdx

/-! ## Layout operations at an index -/

section Layout

variable {α : Type}

/-- A vector laid out as a column: entry (i, 0) of the column is entry i of the vector. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column repeated along the rows' entries: entry (i, d) is the column's entry (i, 0). -/
theorem bcast_col_full (y : S8192x1.Idx → α) (i : Fin 8192) (d : Fin 1024) :
    broadcastInDim S8192x1024 ![0, 1] bcast_S8192x1_S8192x1024_0_1 y (ix2 i d) = y (ix2 i (0 : Fin 1)) :=
  broadcastInDim_apply _ bcast_S8192x1_S8192x1024_0_1 y (ix2 i d) (ix2 i (0 : Fin 1)) (fun a => match a with
    | ⟨0, _⟩ => by show i.val = if (8192 : Nat) = 1 then 0 else i.val; rw [if_neg (by decide)]
    | ⟨1, _⟩ => by show 0 = if (1 : Nat) = 1 then 0 else d.val; rw [if_pos rfl])

/-- A vector as a column: entry (i, 0) is the vector's entry i. -/
theorem bcast_vec_col (y : S8192.Idx → α) (i : Fin 8192) (u : Fin 1) :
    broadcastInDim S8192x1 ![0] bcast_S8192_S8192x1_0 y (ix2 i u) = y (ix1 i) :=
  broadcastInDim_apply _ bcast_S8192_S8192x1_0 y (ix2 i u) (ix1 i) (fun a => match a with
    | ⟨0, _⟩ => by show i.val = if (8192 : Nat) = 1 then 0 else i.val; rw [if_neg (by decide)])

/-- A scalar repeated down a column. -/
theorem bcast_scalar_col (y : S_.Idx → α) (i : Fin 8192) (u : Fin 1) :
    broadcastInDim S8192x1 ![] bcast_S_S8192x1 y (ix2 i u) = y ix0 :=
  broadcastInDim_apply _ bcast_S_S8192x1 y (ix2 i u) ix0 (fun a => a.elim0)

/-- A sum over the indices of a vector shape is the sum over its one coordinate. -/
theorem sum_idx1 {M : Type} [AddCommMonoid M] {n : Nat} (f : (⟨1, ![n]⟩ : Shape).Idx → M) :
    ∑ j, f j = ∑ i : Fin n, f (ix1 i) :=
  (Equiv.sum_comp (⟨ix1, fun j => j 0, fun _ => rfl, fun j => (eq_ix1 j).symm⟩ : Fin n ≃ (⟨1, ![n]⟩ : Shape).Idx) f).symm

end Layout

/-! ## The argument arrays as functions of the row -/

/-- The argument rows: entry `d` of row `i`. -/
def rowsOf (x0 : FVec Ideal S8192x1024 .f32) : Fin 8192 → Fin 1024 → EReal := fun i d => x0 (ix2 i d)
/-- The argument labels: row `i`'s label. -/
def labsOf (x1 : IVec S8192 32) : Fin 8192 → BitVec 32 := fun i => x1 (ix1 i)

/-! ## Before the kernel -/

section Prefix

variable {F : FTy → Type} [FloatOps F]

/-- Each row's sum of squares. -/
def sumsqArr (x0 : FVec F S8192x1024 .f32) : FVec F S8192 .f32 :=
  Host.reduceAdd (mulf x0 x0) (constant S_ .f32 0x00000000#32) reducesTo_S8192x1024_S8192_d1 h_S_
/-- Each row's clamped norm, as a column. -/
def normArr (x0 : FVec F S8192x1024 .f32) : FVec F S8192x1 .f32 :=
  maximumf (Host.sqrt (broadcastInDim S8192x1 ![0] bcast_S8192_S8192x1_0 (sumsqArr x0)))
    (broadcastInDim S8192x1 ![] bcast_S_S8192x1 (constant S_ .f32 0x2B8CBCCC#32))
/-- The rows scaled to unit length, in the narrower format. -/
def embArr (x0 : FVec F S8192x1024 .f32) : FVec F S8192x1024 .bf16 :=
  truncf .bf16 (Host.divf x0 (broadcastInDim S8192x1024 ![0, 1] bcast_S8192x1_S8192x1024_0_1 (normArr x0))) bitsLt_bf16_f32

end Prefix

theorem sumsqArr_apply (x0 : FVec Ideal S8192x1024 .f32) (i : Fin 8192) :
    sumsqArr (F := Ideal) x0 (ix1 i) = 0 + ∑ d : Fin 1024, rowsOf x0 i d * rowsOf x0 i d := by
  unfold sumsqArr
  have hy : ∀ j, (mulf (F := Ideal) x0 x0 : FVec Ideal S8192x1024 .f32) j = x0 j * x0 j := fun j => rfl
  generalize (mulf (F := Ideal) x0 x0 : FVec Ideal S8192x1024 .f32) = y0 at hy ⊢
  simp only [Host.reduceAdd, Ideal.hostReduceAdd_def]
  rw [Ideal.hostReduceAdd_single reducesTo_S8192x1024_S8192_d1 (by decide)]
  rw [constant_apply, Ideal.ofBits_zero_f32]
  refine congrArg (_ + ·) (Finset.sum_congr rfl fun k _ => ?_)
  exact (congrArg y0 (funext fun a => Fin.ext (by match a with | ⟨0, _⟩ => rfl | ⟨1, _⟩ => rfl))).trans (hy (ix2 i k))

theorem normArr_apply (x0 : FVec Ideal S8192x1024 .f32) (i : Fin 8192) :
    normArr (F := Ideal) x0 (ix2 i (0 : Fin 1)) = Spec.nrm (rowsOf x0) i := by
  unfold normArr Spec.nrm Spec.epsW
  show max (Ideal.sqrt (broadcastInDim S8192x1 ![0] bcast_S8192_S8192x1_0 (sumsqArr (F := Ideal) x0) (ix2 i (0 : Fin 1))))
      (broadcastInDim S8192x1 ![] bcast_S_S8192x1 (constant (F := Ideal) S_ .f32 0x2B8CBCCC#32) (ix2 i (0 : Fin 1))) = _
  rw [bcast_vec_col, bcast_scalar_col, sumsqArr_apply]
  rfl

theorem embArr_apply (x0 : FVec Ideal S8192x1024 .f32) (i : Fin 8192) (d : Fin 1024) :
    embArr (F := Ideal) x0 (ix2 i d) = Spec.emb (rowsOf x0) i d := by
  unfold embArr Spec.emb
  show Ideal.div (x0 (ix2 i d)) (broadcastInDim S8192x1024 ![0, 1] bcast_S8192x1_S8192x1024_0_1 (normArr (F := Ideal) x0) (ix2 i d)) = _
  rw [bcast_col_full, normArr_apply]
  rfl

section Entry

variable (m : (ℓ : Loc nD τ sig) → Buf (Elt Ideal) ℓ) (c : Dev nD)

/-- The two arguments on core `c` at their literal types. -/
abbrev arg0 : FVec Ideal S8192x1024 .f32 := m (c, Proc.devRef .tc main_arg0)
abbrev arg1 : IVec S8192 32 := m (c, Proc.devRef .tc main_arg1)

/-- The contents when the kernel is entered: the launch contents after the thirteen host operations before it. -/
abbrev entryV : Valuation τ sig (Elt Ideal) := StableHlo.after (List.flatten [hostOps0 (F := Ideal), hostOps0_1 (F := Ideal)]) (fun b => m (c, b))

theorem entry_main_v5 : (entryV m c (Proc.devRef .tc main_v5) : FVec Ideal S8192x1024 .bf16) = embArr (F := Ideal) (arg0 m c) := by
  dsimp only [entryV]
  simp only [hostOps0, hostOps0_1, List.flatten_cons, List.flatten_nil, List.append_nil, List.cons_append, List.nil_append]
  after_results
  rfl

theorem entry_main_v6 : (entryV m c (Proc.devRef .tc main_v6) : IVec S1x8192 32) = shapeCast S1x8192 (arg1 m c) shapeCasts_S8192_S1x8192 := by
  dsimp only [entryV]
  simp only [hostOps0, hostOps0_1, List.flatten_cons, List.flatten_nil, List.append_nil, List.cons_append, List.nil_append]
  after_results
  rfl

theorem entry_main_v7 : (entryV m c (Proc.devRef .tc main_v7) : IVec S8192x1 32) = shapeCast S8192x1 (arg1 m c) shapeCasts_S8192_S8192x1 := by
  dsimp only [entryV]
  simp only [hostOps0, hostOps0_1, List.flatten_cons, List.flatten_nil, List.append_nil, List.cons_append, List.nil_append]
  after_results
  rfl

/-- The array both the query window and the key window read: entry `d` of the scaled row `i`. -/
theorem entry_emb (i : Fin 8192) (d : Fin 1024) :
    (entryV m c (Proc.devRef .tc main_v5) : FVec Ideal S8192x1024 .bf16) (ix2 i d) = Spec.emb (rowsOf (arg0 m c)) i d := by
  rw [entry_main_v5]; exact embArr_apply _ i d

/-- The query labels' row. -/
theorem entry_labRow (u : Fin 1) (j : Fin 8192) :
    (entryV m c (Proc.devRef .tc main_v6) : IVec S1x8192 32) (ix2 u j) = labsOf (arg1 m c) j := by
  rw [entry_main_v6]; exact shapeCast_a_1a_apply _ _ u j

/-- The key labels' column. -/
theorem entry_labCol (j : Fin 8192) (u : Fin 1) :
    (entryV m c (Proc.devRef .tc main_v7) : IVec S8192x1 32) (ix2 j u) = labsOf (arg1 m c) j := by
  rw [entry_main_v7]; exact shapeCast_a_a1_apply _ _ j u

end Entry

/-! ## After the kernel -/

section Tail

variable {F : FTy → Type} [FloatOps F]

/-- The closing steps on the two result rows `p` (kept sums) and `s` (all sums). -/
def tailArr (p s : FVec F S1x8192 .f32) : FVec F S_ .f32 :=
  Host.divf (Host.reduceAdd (Host.negf (Host.log (Host.divf (shapeCast S8192 p shapeCasts_S1x8192_S8192) (shapeCast S8192 s shapeCasts_S1x8192_S8192))))
    (constant S_ .f32 0x00000000#32) reducesTo_S8192_S_d0 h_S_) (constant S_ .f32 0x46000000#32)

end Tail

theorem tailArr_apply (p s : FVec Ideal S1x8192 .f32) :
    tailArr (F := Ideal) p s ix0 = Spec.tail (fun i => p (ix2 (0 : Fin 1) i)) (fun i => s (ix2 (0 : Fin 1) i)) := by
  unfold tailArr Spec.tail Spec.rowsW
  have hy : ∀ i : Fin 8192,
      (Host.negf (F := Ideal) (Host.log (F := Ideal) (Host.divf (F := Ideal) (shapeCast S8192 p shapeCasts_S1x8192_S8192) (shapeCast S8192 s shapeCasts_S1x8192_S8192))) : FVec Ideal S8192 .f32) (ix1 i)
        = -(Ideal.log (Ideal.div (p (ix2 (0 : Fin 1) i)) (s (ix2 (0 : Fin 1) i)))) := fun i => by
    show -(Ideal.log (Ideal.div (shapeCast S8192 p shapeCasts_S1x8192_S8192 (ix1 i)) (shapeCast S8192 s shapeCasts_S1x8192_S8192 (ix1 i)))) = _
    rw [shapeCast_1a_a_apply, shapeCast_1a_a_apply]
  generalize (Host.negf (F := Ideal) (Host.log (F := Ideal) (Host.divf (F := Ideal) (shapeCast S8192 p shapeCasts_S1x8192_S8192) (shapeCast S8192 s shapeCasts_S1x8192_S8192))) : FVec Ideal S8192 .f32) = y0 at hy ⊢
  show Ideal.div (Host.reduceAdd (F := Ideal) y0 (constant (F := Ideal) S_ .f32 0x00000000#32) reducesTo_S8192_S_d0 h_S_ ix0) (Ideal.ofBits .f32 0x46000000#32) = _
  refine congrArg (Ideal.div · (Ideal.ofBits .f32 0x46000000#32)) ?_
  simp only [Host.reduceAdd, Ideal.hostReduceAdd_def]
  rw [Ideal.hostReduceAdd_total reducesTo_S8192_S_d0 (fun b => b.elim0), sum_idx1]
  rw [constant_apply, Ideal.ofBits_zero_f32]
  exact congrArg (_ + ·) (Finset.sum_congr rfl fun i _ => hy i)

/-- The result buffer after the nine host operations that follow the kernel, from any contents `W` at the kernel's exit. -/
theorem tail_after (W : Valuation τ sig (Elt Ideal)) :
    (StableHlo.after (hostOps1 (F := Ideal)) W (Proc.devRef .tc main_v15) : FVec Ideal S_ .f32)
      = tailArr (F := Ideal) (W (Proc.devRef .tc main_v8_1)) (W (Proc.devRef .tc main_v8_0)) := by
  simp only [hostOps1]
  after_results
  rfl

/-- The program's result from the kernel's two result rows. -/
theorem tail_read (W : Valuation τ sig (Elt Ideal)) :
    (StableHlo.after (hostOps1 (F := Ideal)) W (Proc.devRef .tc main_v15) : FVec Ideal S_ .f32) ix0
      = Spec.tail (fun i => (W (Proc.devRef .tc main_v8_1) : FVec Ideal S1x8192 .f32) (ix2 (0 : Fin 1) i))
          (fun i => (W (Proc.devRef .tc main_v8_0) : FVec Ideal S1x8192 .f32) (ix2 (0 : Fin 1) i)) := by
  rw [tail_after]; exact tailArr_apply _ _

end Cert.KernelIdeal.Hand

end
-- ==== Proof.KI.ValueLoss.lean ====
/-
  The contrastive-sums program's result as one number: `Spec.lossK` of the argument rows and labels.

  The kernel leaves, for every query row `i`, the sum over all key rows of exp(s · 1/T) and the same sum over the kept
  key rows — those that carry row `i`'s label and are not row `i` —, `s` the inner product of the key row with the
  query row, both scaled to unit length by the host beforehand. These are `Spec.sumexpK` and `Spec.possumK`, and the
  host's closing steps are `Spec.tail` of the two.
-/
import proofs.«421592_j76845554860147_3_alg».proof.Proof.KI.Launch
import proofs.«421592_j76845554860147_3_alg».proof.Proof.KI.ValueAcc
import proofs.«421592_j76845554860147_3_alg».proof.Proof.KI.ValueHost

set_option maxRecDepth 16384

noncomputable section

namespace Cert.KernelIdeal.Hand

open Cert.KernelIdeal Cert.KernelIdeal.Gen
open Idealize.ShloMosaic Idealize.ShloMosaic.TcCoe
open Idealize.SL.Sem Idealize.ShloMosaic.StableHlo
open Idealize.ShloMosaic.ValueIdx

/-- The sum over the eight key tiles of the exponentials is `Spec.sumexpK`, once the array read holds the scaled rows. -/
theorem sumexp_of (x : Fin 8192 → Fin 1024 → EReal) (E : S8192x1024.Idx → EReal)
    (hE : ∀ r d, E (ix2 r d) = Spec.emb x r d) (i : Fin 8192) :
    (∑ a : Fin 8, ∑ b : Fin 1024, Ideal.exp ((∑ d : Fin 1024, E (ix2 (Spec.tileIdx a b) d) * E (ix2 i d)) * Spec.invT))
      = Spec.sumexpK x i := by
  unfold Spec.sumexpK Spec.expK Spec.sim
  simp only [hE]

/-- The same sum over the kept key rows is `Spec.possumK`, once the two label arrays hold the rows' labels. -/
theorem possum_of (x : Fin 8192 → Fin 1024 → EReal) (lab : Fin 8192 → BitVec 32) (E : S8192x1024.Idx → EReal)
    (Lc : S8192x1.Idx → BitVec 32) (Lr : S1x8192.Idx → BitVec 32)
    (hE : ∀ r d, E (ix2 r d) = Spec.emb x r d) (hc : ∀ r (u : Fin 1), Lc (ix2 r u) = lab r)
    (hr : ∀ (u : Fin 1) r, Lr (ix2 u r) = lab r) (i : Fin 8192) :
    (∑ a : Fin 8, ∑ b : Fin 1024,
        if Lc (ix2 (Spec.tileIdx a b) (0 : Fin 1)) = Lr (ix2 (0 : Fin 1) i) ∧ Spec.tileIdx a b ≠ i
        then Ideal.exp ((∑ d : Fin 1024, E (ix2 (Spec.tileIdx a b) d) * E (ix2 i d)) * Spec.invT) else 0)
      = Spec.possumK x lab i := by
  unfold Spec.possumK Spec.expK Spec.sim
  simp only [hE, hc, hr]

variable (m : (ℓ : Loc nD τ sig) → Buf (Elt Ideal) ℓ) (c : Dev nD)

/-- The three arrays the kernel's windows read, entry by entry. -/
theorem V_emb (i : Fin 8192) (d : Fin 1024) :
    (V m c main_v5 : FVec Ideal S8192x1024 .bf16) (ix2 i d) = Spec.emb (rowsOf (arg0 m c)) i d := entry_emb m c i d
theorem V_labRow (u : Fin 1) (j : Fin 8192) :
    (V m c main_v6 : IVec S1x8192 32) (ix2 u j) = labsOf (arg1 m c) j := entry_labRow m c u j
theorem V_labCol (j : Fin 8192) (u : Fin 1) :
    (V m c main_v7 : IVec S8192x1 32) (ix2 j u) = labsOf (arg1 m c) j := entry_labCol m c j u

/-- The kernel's first result row: for query row `i`, the sum over all key rows. -/
theorem exit_sumexp (i : Fin 8192) :
    (Wx m c (Proc.devRef .tc main_v8_0) : FVec Ideal S1x8192 .f32) (ix2 (0 : Fin 1) i) = Spec.sumexpK (rowsOf (arg0 m c)) i := by
  rw [Wx_v8_0, arrAt4]
  exact sumexp_of (rowsOf (arg0 m c)) (Earr m c) (V_emb m c) i

/-- Its second result row: the sum over the kept key rows. -/
theorem exit_possum (i : Fin 8192) :
    (Wx m c (Proc.devRef .tc main_v8_1) : FVec Ideal S1x8192 .f32) (ix2 (0 : Fin 1) i)
      = Spec.possumK (rowsOf (arg0 m c)) (labsOf (arg1 m c)) i := by
  rw [Wx_v8_1, arrAt5]
  exact possum_of (rowsOf (arg0 m c)) (labsOf (arg1 m c)) (Earr m c) (Lcol m c) (Lrow m c) (V_emb m c) (V_labCol m c) (V_labRow m c) i

/-- THE KERNEL PROGRAM'S VALUE: its result buffer holds `Spec.lossK` of the argument rows and labels. -/
theorem final_loss :
    (finalV15 (F := Ideal) m c : FVec Ideal S_ .f32) ix0 = Spec.lossK (rowsOf (arg0 m c)) (labsOf (arg1 m c)) := by
  refine (congrFun (tail_v15 (F := Ideal) m c).symm ix0).trans ?_
  refine (tail_read (Wx m c)).trans ?_
  unfold Spec.lossK
  exact congrArg₂ Spec.tail (funext fun i => exit_possum m c i) (funext fun i => exit_sumexp m c i)

/-- The whole result buffer (it has one entry). -/
theorem final_buf :
    (finalV15 (F := Ideal) m c : FVec Ideal S_ .f32) = fun _ => Spec.lossK (rowsOf (arg0 m c)) (labsOf (arg1 m c)) :=
  funext fun j => by rw [eq_ix0 j]; exact final_loss m c

end Cert.KernelIdeal.Hand

end
-- ==== Proof.RefValue.lean ====
/-
  The reference program's result, read index by index, is the supervised-contrastive loss in the reference's arrangement.

  Every stage of the reference is read at an index from the stage before it: the clamped row norm, the unit-length rows,
  their pairwise inner products, the exponential of the quotient by the temperature, the 0/1 mask built from the label
  comparison and from the comparison of the two iotas, the two row sums, and the closing mean of negated logarithms.
  The only facts used beyond unfolding are: a one-bit comparison converted to a float is the indicator of equality; two
  row numbers below 8192 are equal exactly when their 32-bit words are; the patterns of 0.0 and 1.0 are zero and one.
-/
import proofs.«421592_j76845554860147_3_alg».proof.Proof.Gen.ReferenceIdeal.Read
import proofs.«421592_j76845554860147_3_alg».proof.Proof.Spec
import Idealize.ShloMosaic.Lib.IdealHost
import Idealize.ShloMosaic.Lib.ValueIdxRank1

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.ValueIdx

/-- The embedding rows as a plain function of row and column. -/
abbrev rowsOf (x0 : (⟨S8192x1024, .f32⟩ : BufTy).Contents (Elt Ideal)) : Fin 8192 → Fin 1024 → EReal :=
  fun i d => x0 (ix2 i d)
/-- The labels as a plain function of the row. -/
abbrev labsOf (x1 : (⟨S8192, .i32⟩ : BufTy).Contents (Elt Ideal)) : Fin 8192 → BitVec 32 :=
  fun i => x1 (ix1 i)

/-! ## Two facts about words -/

/-- A one-bit equality test, converted to a real, is the indicator of equality. -/
theorem eqBit_cast {w : Nat} (a b : BitVec w) :
    (((IntOp.cmpi .eq a b).toNat : ℝ) : EReal) = if a = b then 1 else 0 := by
  by_cases h : a = b
  · subst h
    simp [IntOp.cmpi]
  · have hb : (a == b) = false := by simpa using h
    simp [IntOp.cmpi, hb, h]

/-- Row numbers below 8192 are equal exactly when their 32-bit words (the first with zero added) are. -/
theorem iotaWord_eq_iff (i j : Fin 8192) :
    IntOp.addi (BitVec.ofNat 32 i.val) 0#32 = BitVec.ofNat 32 j.val ↔ i = j := by
  have hi := i.isLt
  have hj := j.isLt
  constructor
  · intro h
    have h' := congrArg BitVec.toNat h
    simp only [IntOp.addi, BitVec.add_zero, BitVec.toNat_ofNat] at h'
    have e1 : i.val % 2 ^ 32 = i.val := Nat.mod_eq_of_lt (by omega)
    have e2 : j.val % 2 ^ 32 = j.val := Nat.mod_eq_of_lt (by omega)
    rw [e1, e2] at h'
    exact Fin.ext h'
  · rintro rfl
    simp only [IntOp.addi, BitVec.add_zero]

/-! ## The composed index maps of the stages, at coordinates -/
theorem ie_norm (i : Fin 8192) (k : Fin 1024) :
    idx_main_call0_v1 (idx_main_call0_v2 (ix2 i (0 : Fin 1))) k = ix2 i k :=
  funext fun a => Fin.ext (by match a with | ⟨0, _⟩ => rfl | ⟨1, _⟩ => rfl)
theorem ie_v3 (i : Fin 8192) (d : Fin 1024) : idx_main_v3 (ix2 i d) = ix2 i (0 : Fin 1) :=
  funext fun a => Fin.ext (by match a with | ⟨0, _⟩ => rfl | ⟨1, _⟩ => rfl)
theorem ie_l6 (i j : Fin 8192) (k : Fin 1024) : lidx_main_v6 (ix2 i j) k = ix2 i k :=
  funext fun a => Fin.ext (by match a with | ⟨0, _⟩ => rfl | ⟨1, _⟩ => rfl)
theorem ie_r6 (i j : Fin 8192) (k : Fin 1024) : idx_main_v5 (ridx_main_v6 (ix2 i j) k) = ix2 j k :=
  funext fun a => Fin.ext (by match a with | ⟨0, _⟩ => rfl | ⟨1, _⟩ => rfl)
theorem ie_v11 (i j : Fin 8192) : idx_main_v9 (idx_main_v11 (ix2 i j)) = ix1 i :=
  funext fun a => Fin.ext (by match a with | ⟨0, _⟩ => rfl)
theorem ie_v12 (i j : Fin 8192) : idx_main_v10 (idx_main_v12 (ix2 i j)) = ix1 j :=
  funext fun a => Fin.ext (by match a with | ⟨0, _⟩ => rfl)
theorem ie_v25 (i k : Fin 8192) : idx_main_v25 (ix1 i) k = ix2 i k :=
  funext fun a => Fin.ext (by match a with | ⟨0, _⟩ => rfl | ⟨1, _⟩ => rfl)
theorem ie_v27 (i k : Fin 8192) : idx_main_v27 (ix1 i) k = ix2 i k :=
  funext fun a => Fin.ext (by match a with | ⟨0, _⟩ => rfl | ⟨1, _⟩ => rfl)

variable (x0 : (⟨S8192x1024, .f32⟩ : BufTy).Contents (Elt Ideal)) (x1 : (⟨S8192, .i32⟩ : BufTy).Contents (Elt Ideal))

/-! ## The stages -/

/-- The clamped norm of row `i`. -/
theorem norm_eq (i : Fin 8192) :
    val_main_v2 (F := Ideal) x0 (ix2 i (0 : Fin 1)) = Spec.nrm (rowsOf x0) i := by
  rw [val_main_v2_apply, val_main_v0_apply, val_main_call0_v2_apply, val_main_call0_v1_apply, val_main_v1_apply,
    val_main_cst_apply, val_main_call0_cst_apply]
  have h : ∀ k : Fin 1024, val_main_call0_v0 (F := Ideal) x0 (idx_main_call0_v1 (idx_main_call0_v2 (ix2 i (0 : Fin 1))) k)
      = rowsOf x0 i k * rowsOf x0 i k := fun k => by
    rw [val_main_call0_v0_apply, ie_norm]; rfl
  simp only [h, Ideal.ofBits_def, Ideal.ofBits_zero_f32]
  rfl

/-- Row `i` scaled to unit length, at column `d`. -/
theorem emb_eq (i : Fin 8192) (d : Fin 1024) :
    val_main_v4 (F := Ideal) x0 (ix2 i d) = Spec.emb (rowsOf x0) i d := by
  rw [val_main_v4_apply, val_main_v3_apply, ie_v3, norm_eq]
  rfl

/-- The inner product of the scaled rows `i` and `j`: the transposed operand read at `(k, j)` is row `j` at column `k`. -/
theorem sim_eq (i j : Fin 8192) :
    val_main_v6 (F := Ideal) x0 (ix2 i j) = Spec.sim (rowsOf x0) i j := by
  rw [val_main_v6_apply]
  have h : ∀ k : Fin 1024, val_main_v4 (F := Ideal) x0 (lidx_main_v6 (ix2 i j) k) * val_main_v5 (F := Ideal) x0 (ridx_main_v6 (ix2 i j) k)
      = Spec.emb (rowsOf x0) i k * Spec.emb (rowsOf x0) j k := fun k => by
    rw [val_main_v5_apply, ie_l6, ie_r6, emb_eq, emb_eq]
  simp only [h]
  rfl

/-- The exponential of the inner product divided by the temperature. -/
theorem exp_eq (i j : Fin 8192) :
    val_main_v24 (F := Ideal) x0 (ix2 i j) = Spec.expR (rowsOf x0) i j := by
  rw [val_main_v24_apply, val_main_v8_apply, val_main_v7_apply, val_main_cst_0_apply, sim_eq]
  rfl

/-- The mask: same label, and not the diagonal. -/
theorem mask_eq (i j : Fin 8192) :
    val_main_v23 (F := Ideal) x1 (ix2 i j) = Spec.maskR (labsOf x1) i j := by
  rw [val_main_v23_apply, val_main_v14_apply, val_main_v13_apply, val_main_v11_apply, val_main_v9_apply,
    val_main_v12_apply, val_main_v10_apply, val_main_v22_apply, val_main_v21_apply, val_main_cst_1_apply,
    val_main_v20_apply, val_main_v19_apply, val_main_v18_apply, val_main_v15_apply, val_main_v17_apply,
    val_main_c_apply, val_main_v16_apply, ie_v11, ie_v12]
  show (((IntOp.cmpi .eq (labsOf x1 i) (labsOf x1 j)).toNat : ℝ) : EReal)
      * (Ideal.ofBits .f32 0x3F800000#32
          - (((IntOp.cmpi .eq (IntOp.addi (BitVec.ofNat 32 i.val) 0#32) (BitVec.ofNat 32 j.val)).toNat : ℝ) : EReal)) = _
  rw [eqBit_cast, eqBit_cast, Ideal.ofBits_one_f32]
  unfold Spec.maskR
  simp only [iotaWord_eq_iff]

/-- The sum of the exponentials along row `i`. -/
theorem sumexp_eq (i : Fin 8192) :
    val_main_v25 (F := Ideal) x0 (ix1 i) = Spec.sumexpR (rowsOf x0) i := by
  rw [val_main_v25_apply, val_main_cst_2_apply]
  have h : ∀ k : Fin 8192, val_main_v24 (F := Ideal) x0 (idx_main_v25 (ix1 i) k) = Spec.expR (rowsOf x0) i k := fun k => by
    rw [ie_v25, exp_eq]
  simp only [h, Ideal.ofBits_def, Ideal.ofBits_zero_f32]
  rfl

/-- The sum of the masked exponentials along row `i`. -/
theorem possum_eq (i : Fin 8192) :
    val_main_v27 (F := Ideal) x0 x1 (ix1 i) = Spec.possumR (rowsOf x0) (labsOf x1) i := by
  rw [val_main_v27_apply, val_main_cst_3_apply]
  have h : ∀ k : Fin 8192, val_main_v26 (F := Ideal) x0 x1 (idx_main_v27 (ix1 i) k)
      = Spec.expR (rowsOf x0) i k * Spec.maskR (labsOf x1) i k := fun k => by
    rw [val_main_v26_apply, ie_v27, exp_eq, mask_eq]; rfl
  simp only [h, Ideal.ofBits_def, Ideal.ofBits_zero_f32]
  rfl

/-- The reference's result is the loss in the reference's arrangement. -/
theorem loss_eq :
    val_main_v32 (F := Ideal) x0 x1 ix0
      = Spec.lossR (fun i d => x0 (ix2 i d)) (fun i => x1 (ix1 i)) := by
  rw [val_main_v32_apply, val_main_v31_apply, val_main_cst_4_apply, val_main_cst_5_apply,
    ← Equiv.sum_comp (idxEquiv1 (n := 8192)).symm]
  have h : ∀ i : Fin 8192, val_main_v30 (F := Ideal) x0 x1 ((idxEquiv1 (n := 8192)).symm i)
      = -(Ideal.log (Ideal.div (Spec.possumR (rowsOf x0) (labsOf x1) i) (Spec.sumexpR (rowsOf x0) i))) := fun i => by
    show val_main_v30 (F := Ideal) x0 x1 (ix1 i) = _
    rw [val_main_v30_apply, val_main_v29_apply, val_main_v28_apply, possum_eq, sumexp_eq]; rfl
  simp only [h, Ideal.ofBits_def, Ideal.ofBits_zero_f32]
  rfl

/-! ## The run -/

/-- Every run of the reference ends with its result buffer at the loss of the argument arrays, read as plain
    functions of row and column, and with the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v32)
          = (fun _ => Spec.lossR (fun i d => m ((c.tc : Thread nD τ).loc main_arg0) (ix2 i d))
              (fun i => m ((c.tc : Thread nD τ).loc main_arg1) (ix1 i)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨by
      rw [(h c).1, val_main_v32_eq]
      funext j
      rw [eq_ix0 j]
      exact loss_eq _ _, (h c).2⟩)
    (Cert.ReferenceIdeal.Value.run (F := Ideal) m ρ)

/-- The same with the argument arrays named: whatever functions `x c`, `lab c` the arguments read as. -/
theorem run_at (m : (ℓ : Loc nD τ sig) → Buf (Elt Ideal) ℓ) (ρ : Dev nD → PrngReg)
    (x : Dev nD → Fin 8192 → Fin 1024 → EReal) (lab : Dev nD → Fin 8192 → BitVec 32)
    (hx : ∀ (c : Dev nD) (i : Fin 8192) (d : Fin 1024), m ((c.tc : Thread nD τ).loc main_arg0) (ix2 i d) = x c i d)
    (hl : ∀ (c : Dev nD) (i : Fin 8192), m ((c.tc : Thread nD τ).loc main_arg1) (ix1 i) = lab c i) :
    θ_run defs (onTc (τ := τ) (main (F := Ideal))) ⟨m, fun _ => 0, ρ⟩ fun r => ∀ c : Dev nD,
      r.2.mem ((c.tc : Thread nD τ).loc main_v32) = (fun _ => Spec.lossR (x c) (lab c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨by
      have ex : (fun i d => m ((c.tc : Thread nD τ).loc main_arg0) (ix2 i d)) = x c :=
        funext fun i => funext fun d => hx c i d
      have el : (fun i => m ((c.tc : Thread nD τ).loc main_arg1) (ix1 i)) = lab c :=
        funext fun i => hl c i
      rw [(h c).1, ex, el], (h c).2⟩)
    (run m ρ)

end Cert.ReferenceIdeal.RefValue

end
-- ==== Proof.SpecBridge.lean ====
/-
  The two arrangements of the supervised-contrastive loss stated in Proof/Spec.lean are one extended real.

  Four observations, none of which needs a finite input:
  * the temperature's 32-bit pattern denotes the nonzero real 9395241 / 2^27, so dividing by it is multiplying by
    its reciprocal 2^27 / 9395241 — on the extended reals too, the infinities included;
  * the inner product of two rows is symmetric, entry by entry;
  * (tile, place in tile) ↦ tile · 1024 + place is a bijection of 8 × 1024 onto the 8192 columns, so the sum tile by
    tile is the sum over all columns;
  * multiplying a term by the 0/1 mask [lab i = lab j] · (1 - [i = j]) is selecting the term when row j carries row
    i's label and j ≠ i, and zero otherwise (e · 0 = 0 holds for every extended real e).
-/
import proofs.«421592_j76845554860147_3_alg».proof.Proof.Spec
import Mathlib.Data.Fintype.BigOperators
import Mathlib.Data.EReal.Operations

noncomputable section

namespace Cert.Spec

open Idealize.ShloMosaic

/-! ## The temperature -/

/-- The temperature's 32-bit pattern denotes the real 9395241 / 2^27. -/
theorem tempW_eq : tempW = ((9395241 / 134217728 : ℝ) : EReal) := by
  unfold tempW
  simp [Ideal.ofBits, Ideal.ieee, -EReal.coe_mul] <;> norm_num

/-- Dividing by the temperature is multiplying by its reciprocal, at the infinities too. -/
theorem div_tempW (y : EReal) : Ideal.div y tempW = y * invT := by
  have h : (9395241 / 134217728 : ℝ) ≠ 0 := by norm_num
  have e : (1 / (9395241 / 134217728) : ℝ) = 134217728 / 9395241 := by norm_num
  rw [tempW_eq, Ideal.div_coe h, e, invT]

/-! ## The columns as 8 tiles of 1024 -/

/-- A column is a tile and a place in the tile. -/
def tileEquiv : Fin 8 × Fin 1024 ≃ Fin 8192 where
  toFun p := tileIdx p.1 p.2
  invFun j := (⟨j.val / 1024, by omega⟩, ⟨j.val % 1024, by omega⟩)
  left_inv p := by
    obtain ⟨a, b⟩ := p
    apply Prod.ext
    · apply Fin.ext; show (a.val * 1024 + b.val) / 1024 = a.val; omega
    · apply Fin.ext; show (a.val * 1024 + b.val) % 1024 = b.val; omega
  right_inv j := by
    apply Fin.ext; show j.val / 1024 * 1024 + j.val % 1024 = j.val; omega

/-- Summing tile by tile is summing over all columns. -/
theorem sum_tiles (f : Fin 8192 → EReal) : ∑ a : Fin 8, ∑ b : Fin 1024, f (tileIdx a b) = ∑ j : Fin 8192, f j := by
  rw [← Fintype.sum_prod_type']
  exact Fintype.sum_equiv tileEquiv _ _ (fun _ => rfl)

variable (x : Fin 8192 → Fin 1024 → EReal) (lab : Fin 8192 → BitVec 32)

/-! ## Term by term -/

/-- The inner product does not care which row's entries stand on the left. -/
theorem sim_comm (i j : Fin 8192) : sim x j i = sim x i j := by
  unfold sim
  exact Finset.sum_congr rfl (fun d _ => mul_comm _ _)

/-- The kernel's term is the reference's. -/
theorem expK_eq (i j : Fin 8192) : expK x i j = expR x i j := by
  unfold expK expR
  rw [div_tempW, sim_comm]

/-- Multiplying by the 0/1 mask is selecting the term or zero. -/
theorem mask_eq (e : EReal) (i j : Fin 8192) :
    e * maskR lab i j = if lab j = lab i ∧ j ≠ i then e else 0 := by
  unfold maskR
  by_cases hl : lab i = lab j
  · by_cases hij : i = j
    · have h1 : (1 : EReal) - 1 = 0 := by
        rw [← EReal.coe_one, ← EReal.coe_sub, sub_self, EReal.coe_zero]
      have hc : ¬(lab j = lab i ∧ j ≠ i) := fun h => h.2 hij.symm
      rw [if_pos hl, if_pos hij, h1, mul_zero, mul_zero, if_neg hc]
    · have hc : lab j = lab i ∧ j ≠ i := ⟨hl.symm, fun h => hij h.symm⟩
      rw [if_pos hl, if_neg hij, sub_zero, mul_one, mul_one, if_pos hc]
  · have hc : ¬(lab j = lab i ∧ j ≠ i) := fun h => hl h.1.symm
    rw [if_neg hl, zero_mul, mul_zero, if_neg hc]

/-! ## The two sums and the loss -/

theorem sumexpK_eq (i : Fin 8192) : sumexpK x i = sumexpR x i := by
  unfold sumexpK sumexpR
  rw [sum_tiles (fun j => expK x i j), zero_add]
  exact Finset.sum_congr rfl (fun j _ => expK_eq x i j)

theorem possumK_eq (i : Fin 8192) : possumK x lab i = possumR x lab i := by
  unfold possumK possumR
  rw [sum_tiles (fun j => if lab j = lab i ∧ j ≠ i then expK x i j else 0), zero_add]
  exact Finset.sum_congr rfl (fun j _ => by rw [mask_eq, expK_eq])

/-- The kernel's arrangement of the loss is the reference's. -/
theorem lossK_eq_lossR : lossK x lab = lossR x lab := by
  unfold lossK lossR
  rw [show possumK x lab = possumR x lab from funext (possumK_eq x lab),
    show sumexpK x = sumexpR x from funext (sumexpK_eq x)]

end Cert.Spec

end
-- ==== Proof.lean ====
/-
  The supervised-contrastive loss kernel against its jnp reference: the five claims of the certificate.

  The kernel scales the rows to unit length on the host, then one call on an 8 × 8 grid accumulates, per query row, the
  sum of exp(s · 1/T) over all key rows and over the key rows that share the query's label (the query itself left out),
  tile by tile in scratch memory, and the host closes with the mean of -log(P / S). The reference forms the whole
  8192 × 8192 matrix of inner products, divides by T, masks by a 0/1 matrix, and sums along rows.

  * The three frames: each program runs to its end with both arguments as launched. The kernel's two programs (the
    word-level one and its idealization) have one run, written once for any float instance: the region's launch with the
    array of scaled rows shared by the query window and the key window, and the body at every grid point in three cases
    (first key tile, a middle one, the last). The reference's frame is its run with the result dropped.
  * `preserves`: the one named constant. The kernel's scale literal is named the reciprocal of the reference's
    temperature literal, 2^27 / 9395241, and denotes that value on the extended reals.
  * `algebraic`: the kernel's result is `Spec.lossK` of the argument rows and labels, the reference's is `Spec.lossR` of
    the same, and the two arrangements are one extended real: the sum tile by tile is the sum over all columns, the
    product with 1/T is the quotient by T, the inner product is symmetric, and selecting a term or zero is multiplying
    it by the 0/1 mask.
-/
import proofs.«421592_j76845554860147_3_alg».proof.Defs
import proofs.«421592_j76845554860147_3_alg».proof.Proof.Gen.Kernel
import proofs.«421592_j76845554860147_3_alg».proof.Proof.Gen.KernelIdeal
import proofs.«421592_j76845554860147_3_alg».proof.Proof.Gen.ReferenceIdeal
import proofs.«421592_j76845554860147_3_alg».proof.Proof.Gen.Pre_finite_inputs
import proofs.«421592_j76845554860147_3_alg».proof.Proof.K.Run
import proofs.«421592_j76845554860147_3_alg».proof.Proof.KI.Run
import proofs.«421592_j76845554860147_3_alg».proof.Proof.KI.ValueLoss
import proofs.«421592_j76845554860147_3_alg».proof.Proof.RefValue
import proofs.«421592_j76845554860147_3_alg».proof.Proof.SpecBridge
import Idealize.ShloMosaic.Adequacy
import Idealize.ShloMosaic.Init

noncomputable section

namespace Cert.Proof

open Idealize.ShloMosaic Idealize.ShloMosaic.TcCoe Idealize.SL.Sem

/-- The word-level program runs to its end with both arguments as launched. -/
theorem frame_k : Cert.frame_Kernel := fun m ρ _ =>
  (θ_run Cert.Kernel.defs _ _).mono (fun _ h c => (h c).2) (Cert.Kernel.Hand.run_main (F := Bits) m ρ)

/-- So does its idealization. -/
theorem frame_ki : Cert.frame_KernelIdeal := fun m ρ _ =>
  (θ_run Cert.KernelIdeal.defs _ _).mono (fun _ h c => (h c).2) (Cert.KernelIdeal.Hand.run_main (F := Ideal) m ρ)

/-- And the reference: its run with the result dropped. -/
theorem frame_ri : Cert.frame_ReferenceIdeal := fun m ρ _ =>
  (θ_run Cert.ReferenceIdeal.defs _ _).mono (fun _ h c => (h c).2) (Cert.ReferenceIdeal.RefValue.run m ρ)

/-- The kernel's scale constant is named the reciprocal of the reference's temperature literal, and denotes it. -/
theorem preserves : Cert.preserves_Kernel_KernelIdeal :=
  IdealRules.named_const.statement Cert.KernelIdeal.κ "inv_temperature" .f32 0x41649249#32
    ((134217728 / 9395241 : ℝ) : EReal) rfl

/-- From memories that agree on the arguments both programs end at the loss of those arguments: the kernel's
    arrangement of it and the reference's are one extended real. -/
theorem algebraic : Cert.algebraic_KernelIdeal_ReferenceIdeal := by
  intro m ρ m' ρ' _ hagree
  refine ⟨fun c => Cert.KernelIdeal.Hand.finalV15 (F := Ideal) m c, Cert.KernelIdeal.Hand.run_main (F := Ideal) m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]
  funext j
  obtain rfl : j = ValueIdx.ix0 := ValueIdx.eq_ix0 j
  exact ((Cert.KernelIdeal.Hand.final_loss m c).trans (Cert.Spec.lossK_eq_lossR _ _)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
